-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v3_1)) (v5 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v3_1) = v4 c
          ∧ r.2.mem ((c.tc : Thread Cert.KernelIdeal.nD Cert.KernelIdeal.τ).loc Cert.KernelIdeal.main_v3_2) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_v6) = v3 c
          ∧ r.2.mem ((c.tc : Thread Cert.ReferenceIdeal.nD Cert.ReferenceIdeal.τ).loc Cert.ReferenceIdeal.main_v16) = v4 c
          ∧ r.2.mem ((c.tc : Thread Cert.ReferenceIdeal.nD Cert.ReferenceIdeal.τ).loc Cert.ReferenceIdeal.main_v20) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S10000x32 : Shape := ⟨2, ![10000, 32]⟩
abbrev S32 : Shape := ⟨1, ![32]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32x16 : S_.BroadcastsInDim S32x16 (![] : Fin 0 → Fin S32x16.rank)
  reducesTo_S32x16_S_d0_1 : S32x16.ReducesTo [0, 1] S_
  bcast_S_S10000x32 : S_.BroadcastsInDim S10000x32 (![] : Fin 0 → Fin S10000x32.rank)
  reducesTo_S10000x32_S_d0_1 : S10000x32.ReducesTo [0, 1] S_
  bcast_S_S32 : S_.BroadcastsInDim S32 (![] : Fin 0 → Fin S32.rank)
  reducesTo_S32_S_d0 : S32.ReducesTo [0] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg7 : FVec F S32x16 .f32) (main_arg8 : FVec F S16 .f32) (main_arg9 : FVec F S32x16 .f32) (main_arg10 : FVec F S16 .f32) (main_v33 : IVec S_ 1) : IVec S_ 1 :=
  let main_v34 : FVec F S32x16 .f32 := Host.absf main_arg7
  let main_cst_12 : FVec F S_ .f32 := constant S_ .f32 0x7F800000#32
  let main_v35 : FVec F S32x16 .f32 := broadcastInDim S32x16 ![] bcast_S_S32x16 main_cst_12
  let main_v36 : IVec S32x16 1 := cmpf .olt main_v34 main_v35
  let main_c_13 : IVec S_ 1 := constantI S_ 1 1#1
  let main_v37 : IVec S_ 1 := (fun x v => Host.reduce IntOp.andi x v reducesTo_S32x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S32x16 .f32 := Host.absf main_arg9
  let main_cst_16 : FVec F S_ .f32 := constant S_ .f32 0x7F800000#32
  let main_v45 : FVec F S32x16 .f32 := broadcastInDim S32x16 ![] bcast_S_S32x16 main_cst_16
  let main_v46 : IVec S32x16 1 := cmpf .olt main_v44 main_v45
  let main_c_17 : IVec S_ 1 := constantI S_ 1 1#1
  let main_v47 : IVec S_ 1 := (fun x v => Host.reduce IntOp.andi x v reducesTo_S32x16_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg4 : FVec F S32x16 .f32) (main_arg5 : FVec F S10000x32 .f32) (main_arg6 : FVec F S32 .f32) (main_arg7 : FVec F S32x16 .f32) (main_arg8 : FVec F S16 .f32) (main_arg9 : FVec F S32x16 .f32) (main_arg10 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S10000x32 .f32 := Host.absf main_arg5
  let main_cst_8 : FVec F S_ .f32 := constant S_ .f32 0x7F800000#32
  let main_v25 : FVec F S10000x32 .f32 := broadcastInDim S10000x32 ![] bcast_S_S10000x32 main_cst_8
  let main_v26 : IVec S10000x32 1 := cmpf .olt main_v24 main_v25
  let main_c_9 : IVec S_ 1 := constantI S_ 1 1#1
  let main_v27 : IVec S_ 1 := (fun x v => Host.reduce IntOp.andi x v reducesTo_S10000x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S10000x128 .f32) (main_arg1 : FVec F S10000x10000 .f32) (main_arg2 : FVec F S128x32 .f32) (main_arg3 : FVec F S32x16 .f32) (main_arg4 : FVec F S32x16 .f32) (main_arg5 : FVec F S10000x32 .f32) (main_arg6 : FVec F S32 .f32) (main_arg7 : FVec F S32x16 .f32) (main_arg8 : FVec F S16 .f32) (main_arg9 : FVec F S32x16 .f32) (main_arg10 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg4 main_arg5 main_arg6 main_arg7 main_arg8 main_arg9 main_arg10 main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S10000x32 : Shape := ⟨2, ![10000, 32]⟩
abbrev S32 : Shape := ⟨1, ![32]⟩
abbrev S16 : Shape := ⟨1, ![16]⟩
abbrev S1x32 : Shape := ⟨2, ![1, 32]⟩
abbrev S1x16 : Shape := ⟨2, ![1, 16]⟩
abbrev S128x16 : Shape := ⟨2, ![128, 16]⟩
abbrev S32x32 : Shape := ⟨2, ![32, 32]⟩
abbrev S400x10000 : Shape := ⟨2, ![400, 10000]⟩
abbrev S400x32 : Shape := ⟨2, ![400, 32]⟩
abbrev S10000x16 : Shape := ⟨2, ![10000, 16]⟩
abbrev S400x16 : Shape := ⟨2, ![400, 16]⟩
abbrev S400x128 : Shape := ⟨2, ![400, 128]⟩

abbrev nBuf : Space → Nat
  | .hbm => 24
  | .vmem => 30
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x16, .f32⟩
  | .hbm, ⟨4, _⟩ => ⟨S32x16, .f32⟩
  | .hbm, ⟨5, _⟩ => ⟨S10000x32, .f32⟩
  | .hbm, ⟨6, _⟩ => ⟨S32, .f32⟩
  | .hbm, ⟨7, _⟩ => ⟨S32x16, .f32⟩
  | .hbm, ⟨8, _⟩ => ⟨S16, .f32⟩
  | .hbm, ⟨9, _⟩ => ⟨S32x16, .f32⟩
  | .hbm, ⟨10, _⟩ => ⟨S16, .f32⟩
  | .hbm, ⟨11, _⟩ => ⟨S1x32, .f32⟩
  | .hbm, ⟨12, _⟩ => ⟨S1x16, .f32⟩
  | .hbm, ⟨13, _⟩ => ⟨S1x16, .f32⟩
  | .hbm, ⟨14, _⟩ => ⟨S10000x32, .f32⟩
  | .hbm, ⟨15, _⟩ => ⟨S128x16, .f32⟩
  | .hbm, ⟨16, _⟩ => ⟨S128x16, .f32⟩
  | .hbm, ⟨17, _⟩ => ⟨S32x32, .f32⟩
  | .hbm, ⟨18, _⟩ => ⟨S10000x32, .f32⟩
  | .hbm, ⟨19, _⟩ => ⟨S10000x32, .f32⟩
  | .hbm, ⟨20, _⟩ => ⟨S10000x16, .f32⟩
  | .hbm, ⟨21, _⟩ => ⟨S10000x16, .f32⟩
  | .hbm, ⟨22, _⟩ => ⟨S10000x10000, .f32⟩
  | .hbm, ⟨23, _⟩ => ⟨S10000x128, .f32⟩
  | .local _ .vmem, ⟨0, _⟩ => ⟨S10000x128, .f32⟩
  | .local _ .vmem, ⟨1, _⟩ => ⟨S128x32, .f32⟩
  | .local _ .vmem, ⟨2, _⟩ => ⟨S10000x32, .f32⟩
  | .local _ .vmem, ⟨3, _⟩ => ⟨S1x32, .f32⟩
  | .local _ .vmem, ⟨4, _⟩ => ⟨S32x16, .f32⟩
  | .local _ .vmem, ⟨5, _⟩ => ⟨S1x16, .f32⟩
  | .local _ .vmem, ⟨6, _⟩ => ⟨S32x16, .f32⟩
  | .local _ .vmem, ⟨7, _⟩ => ⟨S1x16, .f32⟩
  | .local _ .vmem, ⟨8, _⟩ => ⟨S10000x32, .f32⟩
  | .local _ .vmem, ⟨9, _⟩ => ⟨S128x16, .f32⟩
  | .local _ .vmem, ⟨10, _⟩ => ⟨S128x16, .f32⟩
  | .local _ .vmem, ⟨11, _⟩ => ⟨S400x10000, .f32⟩
  | .local _ .vmem, ⟨12, _⟩ => ⟨S400x10000, .f32⟩
  | .local _ .vmem, ⟨13, _⟩ => ⟨S10000x32, .f32⟩
  | .local _ .vmem, ⟨14, _⟩ => ⟨S32x32, .f32⟩
  | .local _ .vmem, ⟨15, _⟩ => ⟨S400x32, .f32⟩
  | .local _ .vmem, ⟨16, _⟩ => ⟨S400x32, .f32⟩
  | .local _ .vmem, ⟨17, _⟩ => ⟨S400x10000, .f32⟩
  | .local _ .vmem, ⟨18, _⟩ => ⟨S400x10000, .f32⟩
  | .local _ .vmem, ⟨19, _⟩ => ⟨S10000x32, .f32⟩
  | .local _ .vmem, ⟨20, _⟩ => ⟨S400x32, .f32⟩
  | .local _ .vmem, ⟨21, _⟩ => ⟨S400x32, .f32⟩
  | .local _ .vmem, ⟨22, _⟩ => ⟨S400x16, .f32⟩
  | .local _ .vmem, ⟨23, _⟩ => ⟨S400x16, .f32⟩
  | .local _ .vmem, ⟨24, _⟩ => ⟨S10000x16, .f32⟩
  | .local _ .vmem, ⟨25, _⟩ => ⟨S128x16, .f32⟩
  | .local _ .vmem, ⟨26, _⟩ => ⟨S400x10000, .f32⟩
  | .local _ .vmem, ⟨27, _⟩ => ⟨S400x10000, .f32⟩
  | .local _ .vmem, ⟨28, _⟩ => ⟨S400x128, .f32⟩
  | .local _ .vmem, ⟨29, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc3_sem4_0 : DmaSem sig := 28
abbrev cc3_sem4_1 : DmaSem sig := 29

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S10000x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x10000 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S400x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  shapeCasts_S32_S1x32 : S32.ShapeCasts S1x32
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S128x32 : S1x32.Broadcasts S128x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S128x16 : S1x16.Broadcasts S128x16
  inb_S128x16_S128x16_0_0 : ∀ a, (![0, 0] : Fin 2 → Nat) a + S128x16.size a ≤ S128x16.size a
  h_S128x16 : 0 < S128x16.numel
  concatenates_S32x16_S32x16_S32x32_d1 : Shape.Concatenates [S32x16, S32x16] S32x32 1
  inb_S400x10000_S400x10000_0_0 : ∀ a, (![0, 0] : Fin 2 → Nat) a + S400x10000.size a ≤ S400x10000.size a
  h_S400x10000 : 0 < S400x10000.numel
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S400x32_S400x32_0_0 : ∀ a, (![0, 0] : Fin 2 → Nat) a + S400x32.size a ≤ S400x32.size a
  h_S400x32 : 0 < S400x32.numel
  slices_S10000x32_S10000x16_0_0 : S10000x32.Slices ![0, 0] S10000x16
  slices_S10000x32_S10000x16_0_16 : S10000x32.Slices ![0, 16] S10000x16
  inb_S400x16_S400x16_0_0 : ∀ a, (![0, 0] : Fin 2 → Nat) a + S400x16.size a ≤ S400x16.size a
  h_S400x16 : 0 < S400x16.numel
  shapeCasts_S400x16_S400x16 : S400x16.ShapeCasts S400x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  shapeCasts_S128x16_S128x16 : S128x16.ShapeCasts S128x16
  inb_S400x128_S400x128_0_0 : ∀ a, (![0, 0] : Fin 2 → Nat) a + S400x128.size a ≤ S400x128.size a
  h_S400x128 : 0 < S400x128.numel
  dot_S10000x128_S128x32_S10000x32_1_0_0_1_n_n_wf : DotDims.WF S10000x128 S128x32 S10000x32 [1] [0] [0] [1] [] []
  dot_S10000x128_S10000x32_S128x32_0_0_1_1_n_n_wf : DotDims.WF S10000x128 S10000x32 S128x32 [0] [0] [1] [1] [] []
  dot_S128x32_S32x16_S128x16_1_0_0_1_n_n_wf : DotDims.WF S128x32 S32x16 S128x16 [1] [0] [0] [1] [] []
  dot_S400x10000_S10000x32_S400x32_1_0_0_1_n_n_wf : DotDims.WF S400x10000 S10000x32 S400x32 [1] [0] [0] [1] [] []
  dot_S400x32_S32x32_S400x32_1_0_0_1_n_n_wf : DotDims.WF S400x32 S32x32 S400x32 [1] [0] [0] [1] [] []
  dot_S400x16_S10000x16_S400x10000_1_1_0_0_n_n_wf : DotDims.WF S400x16 S10000x16 S400x10000 [1] [1] [0] [0] [] []
  dot_S400x16_S128x16_S400x128_1_1_0_0_n_n_wf : DotDims.WF S400x16 S128x16 S400x128 [1] [1] [0] [0] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S10000x32.size a
  hwx1_1 : ∀ i : grid1.Coords, EltTy.bits .f32 = 32 ∨ (Rect.block (s := S10000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x32.size a ≤ S10000x32.size a
  hwx1_3 : ∀ i : grid1.Coords, EltTy.bits .f32 = 32 ∨ (Rect.block (s := S10000x32) S400x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S10000x32.size a
  hwx2_1 : ∀ i : grid2.Coords, EltTy.bits .f32 = 32 ∨ (Rect.block (s := S10000x32) S10000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x32.size a ≤ S10000x32.size a
  hwx2_2 : ∀ i : grid2.Coords, EltTy.bits .f32 = 32 ∨ (Rect.block (s := S10000x32) S400x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x16.size a ≤ S10000x16.size a
  hwx3_0 : ∀ i : grid3.Coords, EltTy.bits .f32 = 32 ∨ (Rect.block (s := S10000x16) S400x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S10000x16.size a
  hwx3_1 : ∀ i : grid3.Coords, EltTy.bits .f32 = 32 ∨ (Rect.block (s := S10000x16) S10000x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x16.size a ≤ S128x16.size a
  hwx3_2 : ∀ i : grid3.Coords, EltTy.bits .f32 = 32 ∨ (Rect.block (s := S128x16) S128x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x10000.size a ≤ S10000x10000.size a
  hwx3_3 : ∀ i : grid3.Coords, EltTy.bits .f32 = 32 ∨ (Rect.block (s := S10000x10000) S400x10000.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S400x128.size a ≤ S10000x128.size a
  hwx3_4 : ∀ i : grid3.Coords, EltTy.bits .f32 = 32 ∨ (Rect.block (s := S10000x128) S400x128.size (cc3_transform_4 i) (hinb3_4 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x128_S10000x32_S128x32_0_0_1_1_n_n : DotDims S10000x128 S10000x32 S128x32 where
  lhsContracting := [0]
  rhsContracting := [0]
  lhsNonContracting := [1]
  rhsNonContracting := [1]
  lhsBatch := []
  rhsBatch := []
  wf := dot_S10000x128_S10000x32_S128x32_0_0_1_1_n_n_wf
def dot_S128x32_S32x16_S128x16_1_0_0_1_n_n : DotDims S128x32 S32x16 S128x16 where
  lhsContracting := [1]
  rhsContracting := [0]
  lhsNonContracting := [0]
  rhsNonContracting := [1]
  lhsBatch := []
  rhsBatch := []
  wf := dot_S128x32_S32x16_S128x16_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x32_S400x32_1_0_0_1_n_n : DotDims S400x32 S32x32 S400x32 where
  lhsContracting := [1]
  rhsContracting := [0]
  lhsNonContracting := [0]
  rhsNonContracting := [1]
  lhsBatch := []
  rhsBatch := []
  wf := dot_S400x32_S32x32_S400x32_1_0_0_1_n_n_wf
def dot_S400x16_S10000x16_S400x10000_1_1_0_0_n_n : DotDims S400x16 S10000x16 S400x10000 where
  lhsContracting := [1]
  rhsContracting := [1]
  lhsNonContracting := [0]
  rhsNonContracting := [0]
  lhsBatch := []
  rhsBatch := []
  wf := dot_S400x16_S10000x16_S400x10000_1_1_0_0_n_n_wf
def dot_S400x16_S128x16_S400x128_1_1_0_0_n_n : DotDims S400x16 S128x16 S400x128 where
  lhsContracting := [1]
  rhsContracting := [1]
  lhsNonContracting := [0]
  rhsNonContracting := [0]
  lhsBatch := []
  rhsBatch := []
  wf := dot_S400x16_S128x16_S400x128_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_arg5) false false (stage0_2 0) (sem0_2 0) (Memref.isWhole_whole _) (hstage0_2 0)

abbrev win0_3 : Pipeline.Window sig grid0 :=
  Pipeline.Window.whole (Memref.whole main_v0) false false (stage0_3 0) (sem0_3 0) (Memref.isWhole_whole _) (hstage0_3 0)

abbrev win0_4 : Pipeline.Window sig grid0 :=
  Pipeline.Window.whole (Memref.whole main_arg7) false false (stage0_4 0) (sem0_4 0) (Memref.isWhole_whole _) (hstage0_4 0)

abbrev win0_5 : Pipeline.Window sig grid0 :=
  Pipeline.Window.whole (Memref.whole main_v1) false false (stage0_5 0) (sem0_5 0) (Memref.isWhole_whole _) (hstage0_5 0)

abbrev win0_6 : Pipeline.Window sig grid0 :=
  Pipeline.Window.whole (Memref.whole main_arg9) false false (stage0_6 0) (sem0_6 0) (Memref.isWhole_whole _) (hstage0_6 0)

abbrev win0_7 : Pipeline.Window sig grid0 :=
  Pipeline.Window.whole (Memref.whole main_v2) false false (stage0_7 0) (sem0_7 0) (Memref.isWhole_whole _) (hstage0_7 0)

abbrev win0_8 : Pipeline.Window sig grid0 :=
  Pipeline.Window.whole (Memref.whole main_v3_0) true false (stage0_8 0) (sem0_8 0) (Memref.isWhole_whole _) (hstage0_8 0)

abbrev win0_9 : Pipeline.Window sig grid0 :=
  Pipeline.Window.whole (Memref.whole main_v3_1) true false (stage0_9 0) (sem0_9 0) (Memref.isWhole_whole _) (hstage0_9 0)

abbrev win0_10 : Pipeline.Window sig grid0 :=
  Pipeline.Window.whole (Memref.whole main_v3_2) true false (stage0_10 0) (sem0_10 0) (Memref.isWhole_whole _) (hstage0_10 0)

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_0) S10000x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S400x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S10000x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S400x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v7) S400x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S10000x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3_1) S128x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v9_0) S400x10000.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v9_1) S400x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S10000x32 : Shape := ⟨2, ![10000, 32]⟩
abbrev S32 : Shape := ⟨1, ![32]⟩
abbrev S16 : Shape := ⟨1, ![16]⟩
abbrev S_ : Shape := ⟨0, ![]⟩
abbrev S10000x16 : Shape := ⟨2, ![10000, 16]⟩
abbrev S128x10000 : Shape := ⟨2, ![128, 10000]⟩
abbrev S1x32 : Shape := ⟨2, ![1, 32]⟩
abbrev S128x16 : Shape := ⟨2, ![128, 16]⟩
abbrev S1x16 : Shape := ⟨2, ![1, 16]⟩
abbrev S16x10000 : Shape := ⟨2, ![16, 10000]⟩
abbrev S16x128 : Shape := ⟨2, ![16, 128]⟩

abbrev nBuf : Space → Nat
  | .hbm => 38
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x16, .f32⟩
  | .hbm, ⟨4, _⟩ => ⟨S32x16, .f32⟩
  | .hbm, ⟨5, _⟩ => ⟨S10000x32, .f32⟩
  | .hbm, ⟨6, _⟩ => ⟨S32, .f32⟩
  | .hbm, ⟨7, _⟩ => ⟨S32x16, .f32⟩
  | .hbm, ⟨8, _⟩ => ⟨S16, .f32⟩
  | .hbm, ⟨9, _⟩ => ⟨S32x16, .f32⟩
  | .hbm, ⟨10, _⟩ => ⟨S16, .f32⟩
  | .hbm, ⟨11, _⟩ => ⟨S10000x32, .f32⟩
  | .hbm, ⟨12, _⟩ => ⟨S10000x32, .f32⟩
  | .hbm, ⟨13, _⟩ => ⟨S_, .f32⟩
  | .hbm, ⟨14, _⟩ => ⟨S10000x32, .f32⟩
  | .hbm, ⟨15, _⟩ => ⟨S10000x32, .f32⟩
  | .hbm, ⟨16, _⟩ => ⟨S10000x16, .f32⟩
  | .hbm, ⟨17, _⟩ => ⟨S10000x16, .f32⟩
  | .hbm, ⟨18, _⟩ => ⟨S10000x16, .f32⟩
  | .hbm, ⟨19, _⟩ => ⟨S10000x16, .f32⟩
  | .hbm, ⟨20, _⟩ => ⟨S128x10000, .f32⟩
  | .hbm, ⟨21, _⟩ => ⟨S128x32, .f32⟩
  | .hbm, ⟨22, _⟩ => ⟨S1x32, .f32⟩
  | .hbm, ⟨23, _⟩ => ⟨S128x32, .f32⟩
  | .hbm, ⟨24, _⟩ => ⟨S128x32, .f32⟩
  | .hbm, ⟨25, _⟩ => ⟨S128x32, .f32⟩
  | .hbm, ⟨26, _⟩ => ⟨S128x16, .f32⟩
  | .hbm, ⟨27, _⟩ => ⟨S1x16, .f32⟩
  | .hbm, ⟨28, _⟩ => ⟨S128x16, .f32⟩
  | .hbm, ⟨29, _⟩ => ⟨S128x16, .f32⟩
  | .hbm, ⟨30, _⟩ => ⟨S128x16, .f32⟩
  | .hbm, ⟨31, _⟩ => ⟨S1x16, .f32⟩
  | .hbm, ⟨32, _⟩ => ⟨S128x16, .f32⟩
  | .hbm, ⟨33, _⟩ => ⟨S128x16, .f32⟩
  | .hbm, ⟨34, _⟩ => ⟨S16x10000, .f32⟩
  | .hbm, ⟨35, _⟩ => ⟨S10000x10000, .f32⟩
  | .hbm, ⟨36, _⟩ => ⟨S16x128, .f32⟩
  | .hbm, ⟨37, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_call0_cst : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  bcast_S_S10000x32 : S_.BroadcastsInDim S10000x32 (![] : Fin 0 → Fin S10000x32.rank)
  transposes_S10000x128_S128x10000_1_0 : S10000x128.Transposes [1, 0] S128x10000
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  bcast_S16_S1x16_1 : S16.BroadcastsInDim S1x16 (![1] : Fin 1 → Fin S1x16.rank)
  bcast_S1x16_S128x16_0_1 : S1x16.BroadcastsInDim S128x16 (![0, 1] : Fin 2 → Fin S128x16.rank)
  transposes_S10000x16_S16x10000_1_0 : S10000x16.Transposes [1, 0] S16x10000
  transposes_S128x16_S16x128_1_0 : S128x16.Transposes [1, 0] S16x128
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x16_S10000x16_1_0_0_1_n_n_wf : DotDims.WF S10000x32 S32x16 S10000x16 [1] [0] [0] [1] [] []
  dot_S10000x10000_S10000x16_S10000x16_1_0_0_1_n_n_wf : DotDims.WF S10000x10000 S10000x16 S10000x16 [1] [0] [0] [1] [] []
  dot_S128x10000_S10000x32_S128x32_1_0_0_1_n_n_wf : DotDims.WF S128x10000 S10000x32 S128x32 [1] [0] [0] [1] [] []
  dot_S128x32_S32x16_S128x16_1_0_0_1_n_n_wf : DotDims.WF S128x32 S32x16 S128x16 [1] [0] [0] [1] [] []
  dot_S10000x16_S16x10000_S10000x10000_1_0_0_1_n_n_wf : DotDims.WF S10000x16 S16x10000 S10000x10000 [1] [0] [0] [1] [] []
  dot_S10000x16_S16x128_S10000x128_1_0_0_1_n_n_wf : DotDims.WF S10000x16 S16x128 S10000x128 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S128x10000_S10000x32_S128x32_1_0_0_1_n_n : DotDims S128x10000 S10000x32 S128x32 where
  lhsContracting := [1]
  rhsContracting := [0]
  lhsNonContracting := [0]
  rhsNonContracting := [1]
  lhsBatch := []
  rhsBatch := []
  wf := dot_S128x10000_S10000x32_S128x32_1_0_0_1_n_n_wf
def dot_S128x32_S32x16_S128x16_1_0_0_1_n_n : DotDims S128x32 S32x16 S128x16 where
  lhsContracting := [1]
  rhsContracting := [0]
  lhsNonContracting := [0]
  rhsNonContracting := [1]
  lhsBatch := []
  rhsBatch := []
  wf := dot_S128x32_S32x16_S128x16_1_0_0_1_n_n_wf
def dot_S10000x16_S16x10000_S10000x10000_1_0_0_1_n_n : DotDims S10000x16 S16x10000 S10000x10000 where
  lhsContracting := [1]
  rhsContracting := [0]
  lhsNonContracting := [0]
  rhsNonContracting := [1]
  lhsBatch := []
  rhsBatch := []
  wf := dot_S10000x16_S16x10000_S10000x10000_1_0_0_1_n_n_wf
def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf

class Facts : Prop extends Facts₀ where

variable [Facts]
-- ==== Proof.K.Region0.lean ====
/-
  The first pallas_call, with no grid: one run of the body on whole arrays.  Its eight read-only windows are
  the features x (10000 x 128), the first graph weight (128 x 32), the attribute weight (10000 x 32), the
  first attribute bias as a 1 x 32 row, the second attribute weight (32 x 16) and bias row (1 x 16), the third
  attribute weight and bias row.  Its three outputs: x times the graph weight (10000 x 32); and, with
  h = tanh (x contracted with the attribute weight over their FIRST axes, plus the bias row), the two
  128 x 16 arrays h times a weight plus a bias row.
-/
import proofs.«173199_g7215545057700_cont_sun_m_658_2_alg».proof.Proof.Gen.Kernel.Launch
import proofs.«173199_g7215545057700_cont_sun_m_658_2_alg».proof.Proof.Gen.Kernel.Skeleton
import proofs.«173199_g7215545057700_cont_sun_m_658_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at the one point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

abbrev rX0 : Rect S10000x128 := Rect.unit (s := S10000x128) ![0, 0] S10000x128.size inb_S10000x128_S10000x128_0_0
abbrev rW0 : Rect S128x32 := Rect.unit (s := S128x32) ![0, 0] S128x32.size inb_S128x32_S128x32_0_0
abbrev rN0 : Rect S10000x32 := Rect.unit (s := S10000x32) ![0, 0] S10000x32.size inb_S10000x32_S10000x32_0_0
abbrev rB0 : Rect S1x32 := Rect.unit (s := S1x32) ![0, 0] S1x32.size inb_S1x32_S1x32_0_0
abbrev rM0 : Rect S32x16 := Rect.unit (s := S32x16) ![0, 0] S32x16.size inb_S32x16_S32x16_0_0
abbrev rC0 : Rect S1x16 := Rect.unit (s := S1x16) ![0, 0] S1x16.size inb_S1x16_S1x16_0_0
abbrev rP0 : Rect S128x16 := Rect.unit (s := S128x16) ![0, 0] S128x16.size inb_S128x16_S128x16_0_0

/-- What the body leaves in each output window's buffer: one store of the whole array each. -/
def out0_8 (x0 : Vec F S10000x128 .f32) (x1 : Vec F S128x32 .f32) : Vec F S10000x32 .f32 :=
  View.canon [⟨rN0, k0_pay1 (View.ld x0 rX0) (View.ld x1 rW0)⟩]
def out0_9 (x0 : Vec F S10000x128 .f32) (x2 : Vec F S10000x32 .f32) (x3 : Vec F S1x32 .f32) (x4 : Vec F S32x16 .f32) (x5 : Vec F S1x16 .f32) : Vec F S128x16 .f32 :=
  View.canon [⟨rP0, k0_pay3 (View.ld x0 rX0) (View.ld x2 rN0) (View.ld x3 rB0) (View.ld x4 rM0) (View.ld x5 rC0)⟩]
def out0_10 (x0 : Vec F S10000x128 .f32) (x2 : Vec F S10000x32 .f32) (x3 : Vec F S1x32 .f32) (x6 : Vec F S32x16 .f32) (x7 : Vec F S1x16 .f32) : Vec F S128x16 .f32 :=
  View.canon [⟨rP0, k0_pay4 (View.ld x0 rX0) (View.ld x2 rN0) (View.ld x3 rB0) (View.ld x6 rM0) (View.ld x7 rC0)⟩]

theorem cover0_8 (p0 : Vec F S10000x32 .f32) (y : S10000x32.Idx) :
    ∃ pc ∈ ([⟨rN0, p0⟩] : List (View.Piece (Elt F) S10000x32 .f32)), y ∈ pc.1.set :=
  View.cover_of_tiled [⟨rN0, p0⟩] S10000x32.size (by rfl) y
theorem cover0_9 (p0 : Vec F S128x16 .f32) (y : S128x16.Idx) :
    ∃ pc ∈ ([⟨rP0, p0⟩] : List (View.Piece (Elt F) S128x16 .f32)), y ∈ pc.1.set :=
  View.cover_of_tiled [⟨rP0, p0⟩] S128x16.size (by rfl) y

set_option maxHeartbeats 2000000 in
/-- The body on whole staging buffers: the eight inputs keep their contents, each output ends at its out0_W of them. -/
theorem sound_kernel0 (c : Dev nD) (E : Set ℕ)
    (arg0 : Memref sig .tc .vmem S10000x128 .f32) (harg0 : arg0.IsWhole) (arg1 : Memref sig .tc .vmem S128x32 .f32) (harg1 : arg1.IsWhole)
    (arg2 : Memref sig .tc .vmem S10000x32 .f32) (harg2 : arg2.IsWhole) (arg3 : Memref sig .tc .vmem S1x32 .f32) (harg3 : arg3.IsWhole)
    (arg4 : Memref sig .tc .vmem S32x16 .f32) (harg4 : arg4.IsWhole) (arg5 : Memref sig .tc .vmem S1x16 .f32) (harg5 : arg5.IsWhole)
    (arg6 : Memref sig .tc .vmem S32x16 .f32) (harg6 : arg6.IsWhole) (arg7 : Memref sig .tc .vmem S1x16 .f32) (harg7 : arg7.IsWhole)
    (arg8 : Memref sig .tc .vmem S10000x32 .f32) (harg8 : arg8.IsWhole) (arg9 : Memref sig .tc .vmem S128x16 .f32) (harg9 : arg9.IsWhole)
    (arg10 : Memref sig .tc .vmem S128x16 .f32) (harg10 : arg10.IsWhole)
    (x0 : Vec F S10000x128 .f32) (x1 : Vec F S128x32 .f32) (x2 : Vec F S10000x32 .f32) (x3 : Vec F S1x32 .f32)
    (x4 : Vec F S32x16 .f32) (x5 : Vec F S1x16 .f32) (x6 : Vec F S32x16 .f32) (x7 : Vec F S1x16 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (out0_8 x0 x1) ∗ owns (c : Thread nD τ) arg9 fullShare (out0_9 x0 x2 x3 x4 x5)
            ∗ owns (c : Thread nD τ) arg10 fullShare (out0_10 x0 x2 x3 x6 x7)) -∗ K ⟨⟩))
      ⊢ wp frame (wpE (defs₀ (F := F)) Variants.none c none) E
          (cc0__prelude_kernel arg0 harg0 arg1 harg1 arg2 harg2 arg3 harg3 arg4 harg4 arg5 harg5 arg6 harg6 arg7 harg7 arg8 harg8 arg9 harg9 arg10 harg10) K := by
  simp only [cc0__prelude_kernel_eq_skeleton]; unfold cc0__prelude_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, ⟨%d10, %f10, -, H10⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_8 _)
  isplitl [H9]
  · iexists _; isplitr
    swap; · iexact H9
    ipureintro
    exact View.read_writes_eq_canon _ _ _ (cover0_9 _)
  iexists _; isplitr
  swap; · iexact H10
  ipureintro
  exact View.read_writes_eq_canon _ _ _ (cover0_9 _)

/-- The proof data of this pipeline on core c: arrays as found; after the body each input's buffer at its
    block, each output's at its out0_W of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t)
    | ⟨9, _⟩ => out0_9 (iblk0 V c 0 t) (iblk0 V c 2 t) (iblk0 V c 3 t) (iblk0 V c 4 t) (iblk0 V c 5 t)
    | ⟨10, _⟩ => out0_10 (iblk0 V c 0 t) (iblk0 V c 2 t) (iblk0 V c 3 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) :
    (dat0 V c).after 8 t = out0_8 (iblk0 V c 0 t) (iblk0 V c 1 t) := by dsimp only [dat0]
theorem after0_9 (c : Dev nD) (t : Fin cfg0.N) :
    (dat0 V c).after 9 t = out0_9 (iblk0 V c 0 t) (iblk0 V c 2 t) (iblk0 V c 3 t) (iblk0 V c 4 t) (iblk0 V c 5 t) := by dsimp only [dat0]
theorem after0_10 (c : Dev nD) (t : Fin cfg0.N) :
    (dat0 V c).after 10 t = out0_10 (iblk0 V c 0 t) (iblk0 V c 2 t) (iblk0 V c 3 t) (iblk0 V c 6 t) (iblk0 V c 7 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-- What the body is called with at the point, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation of the pipeline, at its point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Region1.lean ====
/-
  The second pallas_call of the program: one grid axis of 25 points; at point i the body multiplies
  rows [400 i, 400 i + 400) of the adjacency matrix by the 10000 x 32 product computed before, takes the
  maximum with zero entrywise, multiplies by the 32 x 32 matrix made of the two 32 x 16 weights side by
  side, and stores the 400 x 32 result as block i of its output.  Here: the blocks the body finds, the
  output block as one stored piece over the body's arithmetic, the body's run, the proof data of the
  pipeline at any contents V found at entry, and the obligation of the body at every grid point.
-/
import proofs.«173199_g7215545057700_cont_sun_m_658_2_alg».proof.Proof.Gen.Kernel.Launch
import proofs.«173199_g7215545057700_cont_sun_m_658_2_alg».proof.Proof.Gen.Kernel.Skeleton
import proofs.«173199_g7215545057700_cont_sun_m_658_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev rA1 : Rect S400x10000 := Rect.unit (s := S400x10000) ![0, 0] S400x10000.size inb_S400x10000_S400x10000_0_0
abbrev rB1 : Rect S10000x32 := Rect.unit (s := S10000x32) ![0, 0] S10000x32.size inb_S10000x32_S10000x32_0_0
abbrev rC1 : Rect S32x32 := Rect.unit (s := S32x32) ![0, 0] S32x32.size inb_S32x32_S32x32_0_0
abbrev rO1 : Rect S400x32 := Rect.unit (s := S400x32) ![0, 0] S400x32.size inb_S400x32_S400x32_0_0

/-- What the body leaves in the output window's buffer: its one store, of the whole block. -/
def out1_3 (x0 : Vec F S400x10000 .f32) (x1 : Vec F S10000x32 .f32) (x2 : Vec F S32x32 .f32) : Vec F S400x32 .f32 :=
  View.canon [⟨rO1, k1_pay1 (View.ld x0 rA1) (View.ld x1 rB1) (View.ld x2 rC1)⟩]

theorem cover1_3 (p0 : Vec F S400x32 .f32) (y : S400x32.Idx) :
    ∃ pc ∈ ([⟨rO1, p0⟩] : List (View.Piece (Elt F) S400x32 .f32)), y ∈ pc.1.set :=
  View.cover_of_tiled [⟨rO1, p0⟩] S400x32.size (by rfl) y

set_option maxHeartbeats 1000000 in
/-- The body on whole staging buffers: the three inputs keep their contents, the output ends at out1_3 of them. -/
theorem sound_kernel1 (c : Dev nD) (E : Set ℕ) (i : grid1.Coords)
    (arg1 : Memref sig .tc .vmem S400x10000 .f32) (harg1 : arg1.IsWhole) (arg2 : Memref sig .tc .vmem S10000x32 .f32) (harg2 : arg2.IsWhole)
    (arg3 : Memref sig .tc .vmem S32x32 .f32) (harg3 : arg3.IsWhole) (arg4 : Memref sig .tc .vmem S400x32 .f32) (harg4 : arg4.IsWhole)
    (x0 : Vec F S400x10000 .f32) (x1 : Vec F S10000x32 .f32) (x2 : Vec F S32x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__pass1_kernel i arg1 harg1 arg2 harg2 arg3 harg3 arg4 harg4) K := by
  simp only [cc1__pass1_kernel_eq_skeleton]; unfold cc1__pass1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of this pipeline on core c: arrays as found; after the body each input's buffer at its
    block, the output's at out1_3 of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Region2.lean ====
/-
  The third pallas_call: one grid axis of 25 points; at point i the body multiplies rows
  [400 i, 400 i + 400) of the adjacency matrix by the 10000 x 32 array the second call left, and stores
  the 400 x 32 product as block i of its output.  Here: the blocks the body finds, the output block as
  one stored piece, the body's run, the pipeline's proof data at any contents V found at entry, and the
  body's obligation at every grid point.
-/
import proofs.«173199_g7215545057700_cont_sun_m_658_2_alg».proof.Proof.Gen.Kernel.Launch
import proofs.«173199_g7215545057700_cont_sun_m_658_2_alg».proof.Proof.Gen.Kernel.Skeleton
import proofs.«173199_g7215545057700_cont_sun_m_658_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at grid point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev rA2 : Rect S400x10000 := Rect.unit (s := S400x10000) ![0, 0] S400x10000.size inb_S400x10000_S400x10000_0_0
abbrev rB2 : Rect S10000x32 := Rect.unit (s := S10000x32) ![0, 0] S10000x32.size inb_S10000x32_S10000x32_0_0
abbrev rO2 : Rect S400x32 := Rect.unit (s := S400x32) ![0, 0] S400x32.size inb_S400x32_S400x32_0_0

/-- What the body leaves in the output window's buffer: its one store, of the whole block. -/
def out2_2 (x0 : Vec F S400x10000 .f32) (x1 : Vec F S10000x32 .f32) : Vec F S400x32 .f32 :=
  View.canon [⟨rO2, k2_pay1 (View.ld x0 rA2) (View.ld x1 rB2)⟩]

theorem cover2_2 (p0 : Vec F S400x32 .f32) (y : S400x32.Idx) :
    ∃ pc ∈ ([⟨rO2, p0⟩] : List (View.Piece (Elt F) S400x32 .f32)), y ∈ pc.1.set :=
  View.cover_of_tiled [⟨rO2, p0⟩] S400x32.size (by rfl) y

set_option maxHeartbeats 1000000 in
/-- The body on whole staging buffers: the two inputs keep their contents, the output ends at out2_2 of them. -/
theorem sound_kernel2 (c : Dev nD) (E : Set ℕ) (i : grid2.Coords)
    (arg1 : Memref sig .tc .vmem S400x10000 .f32) (harg1 : arg1.IsWhole) (arg2 : Memref sig .tc .vmem S10000x32 .f32) (harg2 : arg2.IsWhole)
    (arg3 : Memref sig .tc .vmem S400x32 .f32) (harg3 : arg3.IsWhole)
    (x0 : Vec F S400x10000 .f32) (x1 : Vec F S10000x32 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__pass2_kernel i arg1 harg1 arg2 harg2 arg3 harg3) K := by
  simp only [cc2__pass2_kernel_eq_skeleton]; unfold cc2__pass2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of this pipeline on core c: arrays as found; after the body each input's buffer at its
    block, the output's at out2_2 of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Region3.lean ====
/-
  The fourth pallas_call, the decoder: one grid axis of 25 points.  Its first two windows are on ONE
  array, the 10000 x 16 matrix of means: window 0 takes rows [400 i, 400 i + 400) of it, window 1 the whole
  of it; window 2 is the 128 x 16 attribute means.  At point i the body contracts the 400 x 16 block with the
  whole 10000 x 16 matrix over their second axes and stores the 400 x 10000 result as block i of the first
  output, and contracts the same block with the 128 x 16 matrix likewise into block i of the second output.
  The two windows on the one array are both read-only, and the proof data deals that array's share between
  them: the left half to window 0, the right half to window 1.
-/
import proofs.«173199_g7215545057700_cont_sun_m_658_2_alg».proof.Proof.Gen.Kernel.Launch
import proofs.«173199_g7215545057700_cont_sun_m_658_2_alg».proof.Proof.Gen.Kernel.Skeleton
import proofs.«173199_g7215545057700_cont_sun_m_658_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at grid point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev rA3 : Rect S400x16 := Rect.unit (s := S400x16) ![0, 0] S400x16.size inb_S400x16_S400x16_0_0
abbrev rB3 : Rect S10000x16 := Rect.unit (s := S10000x16) ![0, 0] S10000x16.size inb_S10000x16_S10000x16_0_0
abbrev rC3 : Rect S128x16 := Rect.unit (s := S128x16) ![0, 0] S128x16.size inb_S128x16_S128x16_0_0
abbrev rO3 : Rect S400x10000 := Rect.unit (s := S400x10000) ![0, 0] S400x10000.size inb_S400x10000_S400x10000_0_0
abbrev rP3 : Rect S400x128 := Rect.unit (s := S400x128) ![0, 0] S400x128.size inb_S400x128_S400x128_0_0

/-- What the body leaves in each output window's buffer: one store of the whole block each. -/
def out3_3 (x0 : Vec F S400x16 .f32) (x1 : Vec F S10000x16 .f32) : Vec F S400x10000 .f32 :=
  View.canon [⟨rO3, k3_pay2 (View.ld x0 rA3) (View.ld x1 rB3)⟩]
def out3_4 (x0 : Vec F S400x16 .f32) (x2 : Vec F S128x16 .f32) : Vec F S400x128 .f32 :=
  View.canon [⟨rP3, k3_pay3 (View.ld x0 rA3) (View.ld x2 rC3)⟩]

theorem cover3_3 (p0 : Vec F S400x10000 .f32) (y : S400x10000.Idx) :
    ∃ pc ∈ ([⟨rO3, p0⟩] : List (View.Piece (Elt F) S400x10000 .f32)), y ∈ pc.1.set :=
  View.cover_of_tiled [⟨rO3, p0⟩] S400x10000.size (by rfl) y
theorem cover3_4 (p0 : Vec F S400x128 .f32) (y : S400x128.Idx) :
    ∃ pc ∈ ([⟨rP3, p0⟩] : List (View.Piece (Elt F) S400x128 .f32)), y ∈ pc.1.set :=
  View.cover_of_tiled [⟨rP3, p0⟩] S400x128.size (by rfl) y

set_option maxHeartbeats 1000000 in
/-- The body on whole staging buffers: the three inputs keep their contents, each output ends at its out3_W of them. -/
theorem sound_kernel3 (c : Dev nD) (E : Set ℕ) (i : grid3.Coords)
    (arg1 : Memref sig .tc .vmem S400x16 .f32) (harg1 : arg1.IsWhole) (arg2 : Memref sig .tc .vmem S10000x16 .f32) (harg2 : arg2.IsWhole)
    (arg3 : Memref sig .tc .vmem S128x16 .f32) (harg3 : arg3.IsWhole) (arg4 : Memref sig .tc .vmem S400x10000 .f32) (harg4 : arg4.IsWhole)
    (arg5 : Memref sig .tc .vmem S400x128 .f32) (harg5 : arg5.IsWhole)
    (x0 : Vec F S400x16 .f32) (x1 : Vec F S10000x16 .f32) (x2 : Vec F S128x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1) ∗ owns (c : Thread nD τ) arg5 fullShare (out3_4 x0 x2)) -∗ K ⟨⟩))
      ⊢ wp frame (wpE (defs₀ (F := F)) Variants.none c none) E (cc3__pass3_kernel i arg1 harg1 arg2 harg2 arg3 harg3 arg4 harg4 arg5 harg5) K := by
  simp only [cc3__pass3_kernel_eq_skeleton]; unfold cc3__pass3_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3_3 _)
  iexists _; isplitr
  swap; · iexact H4
  ipureintro
  exact View.read_writes_eq_canon _ _ _ (cover3_4 _)

/-- The proof data of this pipeline on core c: arrays as found; after the body each input's buffer at its
    block, each output's at its out3_W of the input blocks; nothing owed.  The array under windows 0 and 1 is
    held in two halves, the left under window 0 and the right under window 1; window 2's array whole. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t)
    | ⟨4, _⟩ => out3_4 (iblk3 V c 0 t) (iblk3 V c 2 t)
  Φ _ := Pipeline.ΦA spec3 c
  q w := match w with
    | ⟨0, _⟩ => fullShare.left
    | ⟨1, _⟩ => fullShare.right
    | _ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) := by dsimp only [dat3]
theorem after3_4 (c : Dev nD) (t : Fin cfg3.N) :
    (dat3 V c).after 4 t = out3_4 (iblk3 V c 0 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.K.Shared3.lean ====
/-
  The decoder call's first two windows are on one array.  The pipeline's view of its arrays is one points-to
  per WINDOW, each at its window's share; the program around it holds one points-to per BUFFER, at the full
  share.  For this call the two are the same resource whenever the windows' contents are read off one
  valuation of the buffers: the shared buffer's full share is its left half (window 0) and its right half
  (window 1) at the same contents, and the other three windows' arrays are distinct buffers held whole.
-/
import proofs.«173199_g7215545057700_cont_sun_m_658_2_alg».proof.Proof.K.Region3
import proofs.«173199_g7215545057700_cont_sun_m_658_2_alg».proof.Proof.Gen.Kernel.Launch
import proofs.«173199_g7215545057700_cont_sun_m_658_2_alg».proof.Proof.Gen.Kernel.Skeleton
import proofs.«173199_g7215545057700_cont_sun_m_658_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

open Idealize.SL.RA in
theorem arrays3_iff (c : Dev nD) (V' : (b : Ref sig .tc) → Buf (Elt F) ((c : Thread nD τ).loc b))
    (A' : (w : Fin cfg3.W) → Buf (Elt F) ((cfg3.win w).arr.view.loc (c : Thread nD τ)))
    (hA' : ∀ w, A' w = V' (Pipeline.arrRef spec3 w)) :
    ((dat3 V c).arrays A' : sProp 𝕄) ⊣⊢ Pipeline.arrBufs spec3 c V' := by
  have himg : Finset.univ.image (Pipeline.arrRef spec3) = ({main_v7, main_v3_1, main_v9_0, main_v9_1} : Finset (Ref sig .tc)) := by decide
  unfold Pipeline.Dat.arrays Pipeline.arrBufs
  rw [himg, bigSep_W3]
  rw [bigSep_insert (by decide), bigSep_insert (by decide), bigSep_insert (by decide)]
  simp only [hA', bigSep_singleton]
  have hs0 : (dat3 V c).share 0 = fullShare.left := rfl
  have hs1 : (dat3 V c).share 1 = fullShare.right := rfl
  have hs2 : (dat3 V c).share 2 = fullShare := rfl
  have hs3 : (dat3 V c).share 3 = fullShare := rfl
  have hs4 : (dat3 V c).share 4 = fullShare := rfl
  rw [hs0, hs1, hs2, hs3, hs4, (Memref.isWhole_whole (main_v7 : Ref sig .tc)).set_eq_univ, (Memref.isWhole_whole (main_v3_1 : Ref sig .tc)).set_eq_univ,
    (Memref.isWhole_whole (main_v9_0 : Ref sig .tc)).set_eq_univ, (Memref.isWhole_whole (main_v9_1 : Ref sig .tc)).set_eq_univ]
  show (iprop((((c : Thread nD τ).loc main_v7) ↦{fullShare.left} V' main_v7) ∗ (((c : Thread nD τ).loc main_v7) ↦{fullShare.right} V' main_v7)
        ∗ (((c : Thread nD τ).loc main_v3_1) ↦{fullShare} V' main_v3_1) ∗ (((c : Thread nD τ).loc main_v9_0) ↦{fullShare} V' main_v9_0)
        ∗ (((c : Thread nD τ).loc main_v9_1) ↦{fullShare} V' main_v9_1)) : sProp 𝕄)
      ⊣⊢ iprop((((c : Thread nD τ).loc main_v7) ↦{fullShare} V' main_v7) ∗ (((c : Thread nD τ).loc main_v3_1) ↦{fullShare} V' main_v3_1)
        ∗ (((c : Thread nD τ).loc main_v9_0) ↦{fullShare} V' main_v9_0) ∗ (((c : Thread nD τ).loc main_v9_1) ↦{fullShare} V' main_v9_1))
  have hsh : ((((c : Thread nD τ).loc main_v7) ↦{fullShare} V' main_v7) : sProp 𝕄)
      ⊣⊢ iprop((((c : Thread nD τ).loc main_v7) ↦{fullShare.left} V' main_v7) ∗ (((c : Thread nD τ).loc main_v7) ↦{fullShare.right} V' main_v7)) :=
    pointsTo_share (PosShare.mem_left_op_right fullShare)
  constructor
  · iintro ⟨H0, H1, H2, H3, H4⟩
    isplitl [H0 H1]
    · iapply hsh.2; isplitl [H0] <;> iassumption
    isplitl [H2]; · iexact H2
    isplitl [H3]; · iexact H3
    iexact H4
  · iintro ⟨H7, H2, H3, H4⟩
    ihave H := hsh.1 $$ H7
    icases H with ⟨H0, H1⟩
    isplitl [H0]; · iexact H0
    isplitl [H1]; · iexact H1
    isplitl [H2]; · iexact H2
    isplitl [H3]; · iexact H3
    iexact H4

end Cert.Kernel.Fr

end
-- ==== Proof.K.Run.lean ====
/-
  The whole program's run.  @main is: three reshapes of the bias vectors; the first pallas_call; the
  concatenation of the two graph weights; the second and the third pallas_calls; the two column slices; the
  decoder call.  The contents of every unscoped buffer are followed through these seven items as a fold from
  the launch memory: a stretch of host operations applies its operations; a pallas_call leaves its input
  windows' arrays as found and each output window's array at what its grid points' write-backs leave, every
  other buffer untouched.  Each pallas_call is a pipeline region entered from "every unscoped buffer at the
  current contents, the generator register at some state, nothing owed" and left in the same form at the next
  contents; the decoder's two windows on one array take that array's two half shares at entry and give them
  back at exit.  The result: every weakly fair execution terminates, and every unscoped buffer ends at the last
  contents of the fold.
-/
import proofs.«173199_g7215545057700_cont_sun_m_658_2_alg».proof.Proof.K.Region0
import proofs.«173199_g7215545057700_cont_sun_m_658_2_alg».proof.Proof.K.Region1
import proofs.«173199_g7215545057700_cont_sun_m_658_2_alg».proof.Proof.K.Region2
import proofs.«173199_g7215545057700_cont_sun_m_658_2_alg».proof.Proof.K.Shared3
import proofs.«173199_g7215545057700_cont_sun_m_658_2_alg».proof.Proof.Gen.Kernel.Regions
import proofs.«173199_g7215545057700_cont_sun_m_658_2_alg».proof.Proof.Gen.Kernel.Launch
import proofs.«173199_g7215545057700_cont_sun_m_658_2_alg».proof.Proof.Gen.Kernel.Skeleton
import proofs.«173199_g7215545057700_cont_sun_m_658_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between items -/

/-- Core c's buffers at launch. -/
abbrev W0 : Dev nD → Valuation τ sig (Elt F) := fun c b => (s₀ m ρ).mem ((c : Dev nD), b)
/-- After the three reshapes (the first call's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At the first call's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the concatenation (the second call's entry). -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At the second call's exit. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- At the third call's exit (it is entered straight from the second's). -/
def W5 (c : Dev nD) : Valuation τ sig (Elt F) :=
  Pipeline.withArrays spec2 c (W4 m ρ c) fun w => (dat2 (U4 m ρ) c).arrAt w cfg2.N
theorem W5_arr (c : Dev nD) (w : Fin cfg2.W) :
    W5 m ρ c (Proc.devRef .tc (Pipeline.arrRef spec2 w)) = (dat2 (U4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev U5 : (c : Dev nD) → (b : Ref sig .tc) → Buf (Elt F) ((c : Thread nD τ).loc b) := fun c b => W5 m ρ c b
theorem hF2 (c : Dev nD) (w : Fin cfg2.W) : (dat2 (U4 m ρ) c).arrAt w cfg2.N = U5 m ρ c (Pipeline.arrRef spec2 w) :=
  (W5_arr m ρ c w).symm
theorem hrest2 (c : Dev nD) : ∀ b, b ∉ Finset.univ.image (Pipeline.arrRef spec2) → U5 m ρ c b = U4 m ρ c b :=
  fun b hb => W5_of_ne m ρ c b fun w e => hb (Finset.mem_image.mpr ⟨w, Finset.mem_univ _, e⟩)

/-- After the two slices (the decoder's entry). -/
abbrev W6 : Dev nD → Valuation τ sig (Elt F) := fun c => StableHlo.after hostOps3 (W5 m ρ c)
abbrev U6 : (c : Dev nD) → (b : Ref sig .tc) → Buf (Elt F) ((c : Thread nD τ).loc b) := fun c b => W6 m ρ c b
/-- At the decoder's exit: its two output arrays at what the pipeline leaves, every other buffer as entered
    (its three input windows' arrays among them). -/
def W7 (c : Dev nD) : Valuation τ sig (Elt F) :=
  Function.update (Function.update (W6 m ρ c) (Proc.devRef .tc main_v9_0) ((dat3 (U6 m ρ) c).arrAt 3 cfg3.N))
    (Proc.devRef .tc main_v9_1) ((dat3 (U6 m ρ) c).arrAt 4 cfg3.N)
abbrev U7 : (c : Dev nD) → (b : Ref sig .tc) → Buf (Elt F) ((c : Thread nD τ).loc b) := fun c b => W7 m ρ c b
theorem W7_v9_0 (c : Dev nD) : W7 m ρ c (Proc.devRef .tc main_v9_0) = (dat3 (U6 m ρ) c).arrAt 3 cfg3.N := by
  unfold W7
  rw [Function.update_of_ne (StableHlo.devRef_ne_of_ne (by decide) : (Proc.devRef .tc main_v9_0 : DevRef τ sig) ≠ Proc.devRef .tc main_v9_1),
    Function.update_self]
theorem W7_v9_1 (c : Dev nD) : W7 m ρ c (Proc.devRef .tc main_v9_1) = (dat3 (U6 m ρ) c).arrAt 4 cfg3.N := by
  unfold W7; rw [Function.update_self]
theorem W7_of_ne (c : Dev nD) (b : Ref sig .tc) (h0 : b ≠ main_v9_0) (h1 : b ≠ main_v9_1) :
    W7 m ρ c (Proc.devRef .tc b) = W6 m ρ c (Proc.devRef .tc b) := by
  unfold W7
  rw [Function.update_of_ne (StableHlo.devRef_ne_of_ne h1 : (Proc.devRef .tc b : DevRef τ sig) ≠ Proc.devRef .tc main_v9_1),
    Function.update_of_ne (StableHlo.devRef_ne_of_ne h0 : (Proc.devRef .tc b : DevRef τ sig) ≠ Proc.devRef .tc main_v9_0)]
/-- At the decoder's exit each window's array holds what the pipeline leaves there: an input window's array what
    it held at entry, an output's its write-backs. -/
theorem hF3 (c : Dev nD) (w : Fin cfg3.W) : (dat3 (U6 m ρ) c).arrAt w cfg3.N = U7 m ρ c (Pipeline.arrRef spec3 w) :=
  match w with
  | ⟨0, _⟩ => (((dat3 (U6 m ρ) c).arrAt_in 0 rfl _).trans (A_eq3 (U6 m ρ) c 0)).trans (W7_of_ne m ρ c main_v7 (by decide) (by decide)).symm
  | ⟨1, _⟩ => (((dat3 (U6 m ρ) c).arrAt_in 1 rfl _).trans (A_eq3 (U6 m ρ) c 1)).trans (W7_of_ne m ρ c main_v7 (by decide) (by decide)).symm
  | ⟨2, _⟩ => (((dat3 (U6 m ρ) c).arrAt_in 2 rfl _).trans (A_eq3 (U6 m ρ) c 2)).trans (W7_of_ne m ρ c main_v3_1 (by decide) (by decide)).symm
  | ⟨3, _⟩ => (W7_v9_0 m ρ c).symm
  | ⟨4, _⟩ => (W7_v9_1 m ρ c).symm
theorem hrest3 (c : Dev nD) : ∀ b, b ∉ Finset.univ.image (Pipeline.arrRef spec3) → U7 m ρ c b = U6 m ρ c b :=
  fun b hb => W7_of_ne m ρ c b
    (fun e => hb (Finset.mem_image.mpr ⟨3, Finset.mem_univ _, e.symm⟩))
    (fun e => hb (Finset.mem_image.mpr ⟨4, Finset.mem_univ _, e.symm⟩))

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U4 m ρ) c
  | ⟨3, _⟩ => fun c => dat3 (U6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
/-- A stretch of host operations as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last contents, the register at some state. -/
abbrev Tₙ (c : Dev nD) : sProp 𝕄 := iprop(StableHlo.held (c : Thread nD τ) (Pipeline.ucRefs τ sig) (W7 m ρ c) ∗ ∃ r, prngReg c r)

/-! ## The pallas_calls as segments -/

-- a library lemma stated over the pinned configuration unifies with the printed one only when unification may
-- unfold plain definitions in a metavariable's type
set_option backward.isDefEq.respectTransparency.types false in
/-- The first call: entered from the buffers at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from the buffers at W3, left at W4. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third call: entered from the buffers at W4, left at W5. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (U4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U4 m ρ c) (U5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decoder: entered from the buffers at W6, left at W7 beside the core owing nothing.  Its windows' arrays
    are not pairwise distinct, so the buffers behind them are split out of the unscoped buffers as buffers and
    dealt to the windows by their shares at entry, and gathered back the same way at exit. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (U6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U6 m ρ c)
  hentry c := by
    rw [Pipeline.ownSems0_none]
    have hsplit : (unscopedBufs c (U6 m ρ c) : sProp 𝕄)
        = iprop(Pipeline.arrBufs spec3 c (U6 m ρ c) ∗ Pipeline.unscopedRest spec3 c (U6 m ρ c)) :=
      Pipeline.unscopedBufs_split₀ cfgs 3 winFacts₀3.arr_unscoped c (U6 m ρ c)
    rw [Pipeline.unscopedBufs_held] at hsplit
    have hdeal := (arrays3_iff (U6 m ρ) c (U6 m ρ c) ((dat3 (U6 m ρ) c).arrAt · 0) (fun w => A_eq3 (U6 m ρ) c w)).2
    have hs : (StableHlo.held (c : Thread nD τ) (Pipeline.ucRefs τ sig) (W6 m ρ c) : sProp 𝕄)
        ⊢ iprop((dat3 (U6 m ρ) c).arrays ((dat3 (U6 m ρ) c).arrAt · 0) ∗ Pipeline.unscopedRest spec3 c (U6 m ρ c)) :=
      (Entails.of_eq hsplit).trans (BIClass.sep_mono hdeal .rfl)
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hsplit : (unscopedBufs c (U7 m ρ c) : sProp 𝕄)
        = iprop(Pipeline.arrBufs spec3 c (U7 m ρ c) ∗ Pipeline.unscopedRest spec3 c (U7 m ρ c)) :=
      Pipeline.unscopedBufs_split₀ cfgs 3 winFacts₀3.arr_unscoped c (U7 m ρ c)
    rw [Pipeline.unscopedBufs_held] at hsplit
    have hgather := (arrays3_iff (U6 m ρ) c (U7 m ρ c) ((dat3 (U6 m ρ) c).arrAt · cfg3.N) (hF3 m ρ c)).1
    have hrest : (Pipeline.unscopedRest spec3 c (U6 m ρ c) : sProp 𝕄) = Pipeline.unscopedRest spec3 c (U7 m ρ c) := by
      unfold Pipeline.unscopedRest
      exact bigSep_congr fun b hb => by rw [hrest3 m ρ c b (Finset.mem_sdiff.mp hb).2]
    have hjoin : iprop((pdats m ρ 3 c).arrays ((pdats m ρ 3 c).arrAt · cfg3.N) ∗ Pipeline.unscopedRest spec3 c (U6 m ρ c))
        ⊢ (StableHlo.held (c : Thread nD τ) (Pipeline.ucRefs τ sig) (W7 m ρ c) : sProp 𝕄) :=
      (BIClass.sep_mono hgather (Entails.of_eq hrest)).trans (Entails.of_eq hsplit.symm)
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's seven items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing
    faulting, and every unscoped buffer of every core ends at the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.Kernel.Fr

end
-- ==== Proof.K.Frame.lean ====
/-
  The frame: no item of @main writes an argument array.  A stretch of host operations writes only its results;
  a pallas_call changes only its output windows' arrays and leaves every other buffer, its input windows'
  arrays among them, as found.  So an argument's buffer walks back through the fold of contents to what it held
  at launch, and the run's last contents give the frame claim: every execution terminates, nothing faults, the
  eleven argument arrays end unchanged.
-/
import proofs.«173199_g7215545057700_cont_sun_m_658_2_alg».proof.Proof.K.Run
import proofs.«173199_g7215545057700_cont_sun_m_658_2_alg».proof.Proof.Gen.Kernel.Launch
import proofs.«173199_g7215545057700_cont_sun_m_658_2_alg».proof.Proof.Gen.Kernel.Skeleton
import proofs.«173199_g7215545057700_cont_sun_m_658_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three reshapes leave every buffer but their three results as found. -/
theorem W1_keep (c : Dev nD) (b : Ref sig .tc) (hb : b ∉ hostOps0_W) :
    W1 m ρ c (Proc.devRef .tc b) = W0 m ρ c (Proc.devRef .tc b) :=
  StableHlo.after_of_writes_sub hostOps0 _ hostOps0_writes hb

/-- The first call leaves every buffer but its three output arrays as found. -/
theorem W2_keep (c : Dev nD) (b : Ref sig .tc) (hb : b ∉ ([main_v3_0, main_v3_1, main_v3_2] : List (Ref sig .tc))) :
    W2 m ρ c (Proc.devRef .tc b) = W1 m ρ c (Proc.devRef .tc b) := by
  by_cases h : ∃ w, Pipeline.arrRef spec0 w = b
  · obtain ⟨w, rfl⟩ := h
    have hin : (cfg0.win w).isOut = false :=
      (by decide : ∀ w : Fin 11, Pipeline.arrRef spec0 w ∉ ([main_v3_0, main_v3_1, main_v3_2] : List (Ref sig .tc)) → (cfg0.win w).isOut = false) w hb
    exact (W2_arr m ρ c w).trans (((dat0 (U1 m ρ) c).arrAt_in w hin _).trans (A_eq0 (U1 m ρ) c w))
  · exact W2_of_ne m ρ c b fun w e => h ⟨w, e⟩

/-- The concatenation leaves every buffer but its result as found. -/
theorem W3_keep (c : Dev nD) (b : Ref sig .tc) (hb : b ∉ hostOps1_W) :
    W3 m ρ c (Proc.devRef .tc b) = W2 m ρ c (Proc.devRef .tc b) :=
  StableHlo.after_of_writes_sub hostOps1 _ hostOps1_writes hb

/-- The second call leaves every buffer but its output array as found. -/
theorem W4_keep (c : Dev nD) (b : Ref sig .tc) (hb : b ∉ ([main_v5] : List (Ref sig .tc))) :
    W4 m ρ c (Proc.devRef .tc b) = W3 m ρ c (Proc.devRef .tc b) := by
  by_cases h : ∃ w, Pipeline.arrRef spec1 w = b
  · obtain ⟨w, rfl⟩ := h
    have hin : (cfg1.win w).isOut = false :=
      (by decide : ∀ w : Fin 4, Pipeline.arrRef spec1 w ∉ ([main_v5] : List (Ref sig .tc)) → (cfg1.win w).isOut = false) w hb
    exact (W4_arr m ρ c w).trans (((dat1 (U3 m ρ) c).arrAt_in w hin _).trans (A_eq1 (U3 m ρ) c w))
  · exact W4_of_ne m ρ c b fun w e => h ⟨w, e⟩

/-- The third call leaves every buffer but its output array as found. -/
theorem W5_keep (c : Dev nD) (b : Ref sig .tc) (hb : b ∉ ([main_v6] : List (Ref sig .tc))) :
    W5 m ρ c (Proc.devRef .tc b) = W4 m ρ c (Proc.devRef .tc b) := by
  by_cases h : ∃ w, Pipeline.arrRef spec2 w = b
  · obtain ⟨w, rfl⟩ := h
    have hin : (cfg2.win w).isOut = false :=
      (by decide : ∀ w : Fin 3, Pipeline.arrRef spec2 w ∉ ([main_v6] : List (Ref sig .tc)) → (cfg2.win w).isOut = false) w hb
    exact (W5_arr m ρ c w).trans (((dat2 (U4 m ρ) c).arrAt_in w hin _).trans (A_eq2 (U4 m ρ) c w))
  · exact W5_of_ne m ρ c b fun w e => h ⟨w, e⟩

/-- The two slices leave every buffer but their two results as found. -/
theorem W6_keep (c : Dev nD) (b : Ref sig .tc) (hb : b ∉ hostOps3_W) :
    W6 m ρ c (Proc.devRef .tc b) = W5 m ρ c (Proc.devRef .tc b) :=
  StableHlo.after_of_writes_sub hostOps3 _ hostOps3_writes hb

/-- A buffer that no host operation writes and that is no pallas_call's output array ends as launched. -/
theorem W7_launch (c : Dev nD) (b : Ref sig .tc) (h0 : b ∉ hostOps0_W) (h1 : b ∉ ([main_v3_0, main_v3_1, main_v3_2] : List (Ref sig .tc)))
    (h2 : b ∉ hostOps1_W) (h3 : b ∉ ([main_v5] : List (Ref sig .tc))) (h4 : b ∉ ([main_v6] : List (Ref sig .tc))) (h5 : b ∉ hostOps3_W)
    (h6 : b ≠ main_v9_0) (h7 : b ≠ main_v9_1) :
    W7 m ρ c (Proc.devRef .tc b) = m ((c : Thread nD τ).loc b) :=
  (W7_of_ne m ρ c b h6 h7).trans <| (W6_keep m ρ c b h5).trans <| (W5_keep m ρ c b h4).trans <| (W4_keep m ρ c b h3).trans <|
    (W3_keep m ρ c b h2).trans <| (W2_keep m ρ c b h1).trans <| (W1_keep m ρ c b h0).trans rfl

/-- THE FRAME, at any float values: every weakly fair execution of @main from memory m with zero counters
    terminates, nothing faulting, and the eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W7_launch m ρ c main_arg0 (by decide) (by decide) (by decide) (by decide) (by decide) (by decide) (by decide) (by decide)),
     (h c _ (mem_uc main_arg1 (by decide))).trans (W7_launch m ρ c main_arg1 (by decide) (by decide) (by decide) (by decide) (by decide) (by decide) (by decide) (by decide)),
     (h c _ (mem_uc main_arg2 (by decide))).trans (W7_launch m ρ c main_arg2 (by decide) (by decide) (by decide) (by decide) (by decide) (by decide) (by decide) (by decide)),
     (h c _ (mem_uc main_arg3 (by decide))).trans (W7_launch m ρ c main_arg3 (by decide) (by decide) (by decide) (by decide) (by decide) (by decide) (by decide) (by decide)),
     (h c _ (mem_uc main_arg4 (by decide))).trans (W7_launch m ρ c main_arg4 (by decide) (by decide) (by decide) (by decide) (by decide) (by decide) (by decide) (by decide)),
     (h c _ (mem_uc main_arg5 (by decide))).trans (W7_launch m ρ c main_arg5 (by decide) (by decide) (by decide) (by decide) (by decide) (by decide) (by decide) (by decide)),
     (h c _ (mem_uc main_arg6 (by decide))).trans (W7_launch m ρ c main_arg6 (by decide) (by decide) (by decide) (by decide) (by decide) (by decide) (by decide) (by decide)),
     (h c _ (mem_uc main_arg7 (by decide))).trans (W7_launch m ρ c main_arg7 (by decide) (by decide) (by decide) (by decide) (by decide) (by decide) (by decide) (by decide)),
     (h c _ (mem_uc main_arg8 (by decide))).trans (W7_launch m ρ c main_arg8 (by decide) (by decide) (by decide) (by decide) (by decide) (by decide) (by decide) (by decide)),
     (h c _ (mem_uc main_arg9 (by decide))).trans (W7_launch m ρ c main_arg9 (by decide) (by decide) (by decide) (by decide) (by decide) (by decide) (by decide) (by decide)),
     (h c _ (mem_uc main_arg10 (by decide))).trans (W7_launch m ρ c main_arg10 (by decide) (by decide) (by decide) (by decide) (by decide) (by decide) (by decide) (by decide))⟩)
    (run_all m ρ)

end Cert.Kernel.Fr

end
-- ==== Proof.KI.Region0.lean ====
/-
  The first pallas_call, with no grid: one run of the body on whole arrays.  Its eight read-only windows are
  the features x (10000 x 128), the first graph weight (128 x 32), the attribute weight (10000 x 32), the
  first attribute bias as a 1 x 32 row, the second attribute weight (32 x 16) and bias row (1 x 16), the third
  attribute weight and bias row.  Its three outputs: x times the graph weight (10000 x 32); and, with
  h = tanh (x contracted with the attribute weight over their FIRST axes, plus the bias row), the two
  128 x 16 arrays h times a weight plus a bias row.
-/
import proofs.«173199_g7215545057700_cont_sun_m_658_2_alg».proof.Proof.Gen.KernelIdeal.Launch
import proofs.«173199_g7215545057700_cont_sun_m_658_2_alg».proof.Proof.Gen.KernelIdeal.Skeleton
import proofs.«173199_g7215545057700_cont_sun_m_658_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at the one point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

abbrev rX0 : Rect S10000x128 := Rect.unit (s := S10000x128) ![0, 0] S10000x128.size inb_S10000x128_S10000x128_0_0
abbrev rW0 : Rect S128x32 := Rect.unit (s := S128x32) ![0, 0] S128x32.size inb_S128x32_S128x32_0_0
abbrev rN0 : Rect S10000x32 := Rect.unit (s := S10000x32) ![0, 0] S10000x32.size inb_S10000x32_S10000x32_0_0
abbrev rB0 : Rect S1x32 := Rect.unit (s := S1x32) ![0, 0] S1x32.size inb_S1x32_S1x32_0_0
abbrev rM0 : Rect S32x16 := Rect.unit (s := S32x16) ![0, 0] S32x16.size inb_S32x16_S32x16_0_0
abbrev rC0 : Rect S1x16 := Rect.unit (s := S1x16) ![0, 0] S1x16.size inb_S1x16_S1x16_0_0
abbrev rP0 : Rect S128x16 := Rect.unit (s := S128x16) ![0, 0] S128x16.size inb_S128x16_S128x16_0_0

/-- What the body leaves in each output window's buffer: one store of the whole array each. -/
def out0_8 (x0 : Vec F S10000x128 .f32) (x1 : Vec F S128x32 .f32) : Vec F S10000x32 .f32 :=
  View.canon [⟨rN0, k0_pay1 (View.ld x0 rX0) (View.ld x1 rW0)⟩]
def out0_9 (x0 : Vec F S10000x128 .f32) (x2 : Vec F S10000x32 .f32) (x3 : Vec F S1x32 .f32) (x4 : Vec F S32x16 .f32) (x5 : Vec F S1x16 .f32) : Vec F S128x16 .f32 :=
  View.canon [⟨rP0, k0_pay3 (View.ld x0 rX0) (View.ld x2 rN0) (View.ld x3 rB0) (View.ld x4 rM0) (View.ld x5 rC0)⟩]
def out0_10 (x0 : Vec F S10000x128 .f32) (x2 : Vec F S10000x32 .f32) (x3 : Vec F S1x32 .f32) (x6 : Vec F S32x16 .f32) (x7 : Vec F S1x16 .f32) : Vec F S128x16 .f32 :=
  View.canon [⟨rP0, k0_pay4 (View.ld x0 rX0) (View.ld x2 rN0) (View.ld x3 rB0) (View.ld x6 rM0) (View.ld x7 rC0)⟩]

theorem cover0_8 (p0 : Vec F S10000x32 .f32) (y : S10000x32.Idx) :
    ∃ pc ∈ ([⟨rN0, p0⟩] : List (View.Piece (Elt F) S10000x32 .f32)), y ∈ pc.1.set :=
  View.cover_of_tiled [⟨rN0, p0⟩] S10000x32.size (by rfl) y
theorem cover0_9 (p0 : Vec F S128x16 .f32) (y : S128x16.Idx) :
    ∃ pc ∈ ([⟨rP0, p0⟩] : List (View.Piece (Elt F) S128x16 .f32)), y ∈ pc.1.set :=
  View.cover_of_tiled [⟨rP0, p0⟩] S128x16.size (by rfl) y

set_option maxHeartbeats 2000000 in
/-- The body on whole staging buffers: the eight inputs keep their contents, each output ends at its out0_W of them. -/
theorem sound_kernel0 (c : Dev nD) (E : Set ℕ)
    (arg0 : Memref sig .tc .vmem S10000x128 .f32) (harg0 : arg0.IsWhole) (arg1 : Memref sig .tc .vmem S128x32 .f32) (harg1 : arg1.IsWhole)
    (arg2 : Memref sig .tc .vmem S10000x32 .f32) (harg2 : arg2.IsWhole) (arg3 : Memref sig .tc .vmem S1x32 .f32) (harg3 : arg3.IsWhole)
    (arg4 : Memref sig .tc .vmem S32x16 .f32) (harg4 : arg4.IsWhole) (arg5 : Memref sig .tc .vmem S1x16 .f32) (harg5 : arg5.IsWhole)
    (arg6 : Memref sig .tc .vmem S32x16 .f32) (harg6 : arg6.IsWhole) (arg7 : Memref sig .tc .vmem S1x16 .f32) (harg7 : arg7.IsWhole)
    (arg8 : Memref sig .tc .vmem S10000x32 .f32) (harg8 : arg8.IsWhole) (arg9 : Memref sig .tc .vmem S128x16 .f32) (harg9 : arg9.IsWhole)
    (arg10 : Memref sig .tc .vmem S128x16 .f32) (harg10 : arg10.IsWhole)
    (x0 : Vec F S10000x128 .f32) (x1 : Vec F S128x32 .f32) (x2 : Vec F S10000x32 .f32) (x3 : Vec F S1x32 .f32)
    (x4 : Vec F S32x16 .f32) (x5 : Vec F S1x16 .f32) (x6 : Vec F S32x16 .f32) (x7 : Vec F S1x16 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (out0_8 x0 x1) ∗ owns (c : Thread nD τ) arg9 fullShare (out0_9 x0 x2 x3 x4 x5)
            ∗ owns (c : Thread nD τ) arg10 fullShare (out0_10 x0 x2 x3 x6 x7)) -∗ K ⟨⟩))
      ⊢ wp frame (wpE (defs₀ (F := F)) Variants.none c none) E
          (cc0__prelude_kernel arg0 harg0 arg1 harg1 arg2 harg2 arg3 harg3 arg4 harg4 arg5 harg5 arg6 harg6 arg7 harg7 arg8 harg8 arg9 harg9 arg10 harg10) K := by
  simp only [cc0__prelude_kernel_eq_skeleton]; unfold cc0__prelude_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, ⟨%d10, %f10, -, H10⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_8 _)
  isplitl [H9]
  · iexists _; isplitr
    swap; · iexact H9
    ipureintro
    exact View.read_writes_eq_canon _ _ _ (cover0_9 _)
  iexists _; isplitr
  swap; · iexact H10
  ipureintro
  exact View.read_writes_eq_canon _ _ _ (cover0_9 _)

/-- The proof data of this pipeline on core c: arrays as found; after the body each input's buffer at its
    block, each output's at its out0_W of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t)
    | ⟨9, _⟩ => out0_9 (iblk0 V c 0 t) (iblk0 V c 2 t) (iblk0 V c 3 t) (iblk0 V c 4 t) (iblk0 V c 5 t)
    | ⟨10, _⟩ => out0_10 (iblk0 V c 0 t) (iblk0 V c 2 t) (iblk0 V c 3 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) :
    (dat0 V c).after 8 t = out0_8 (iblk0 V c 0 t) (iblk0 V c 1 t) := by dsimp only [dat0]
theorem after0_9 (c : Dev nD) (t : Fin cfg0.N) :
    (dat0 V c).after 9 t = out0_9 (iblk0 V c 0 t) (iblk0 V c 2 t) (iblk0 V c 3 t) (iblk0 V c 4 t) (iblk0 V c 5 t) := by dsimp only [dat0]
theorem after0_10 (c : Dev nD) (t : Fin cfg0.N) :
    (dat0 V c).after 10 t = out0_10 (iblk0 V c 0 t) (iblk0 V c 2 t) (iblk0 V c 3 t) (iblk0 V c 6 t) (iblk0 V c 7 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-- What the body is called with at the point, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation of the pipeline, at its point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Region1.lean ====
/-
  The second pallas_call of the program: one grid axis of 25 points; at point i the body multiplies
  rows [400 i, 400 i + 400) of the adjacency matrix by the 10000 x 32 product computed before, takes the
  maximum with zero entrywise, multiplies by the 32 x 32 matrix made of the two 32 x 16 weights side by
  side, and stores the 400 x 32 result as block i of its output.  Here: the blocks the body finds, the
  output block as one stored piece over the body's arithmetic, the body's run, the proof data of the
  pipeline at any contents V found at entry, and the obligation of the body at every grid point.
-/
import proofs.«173199_g7215545057700_cont_sun_m_658_2_alg».proof.Proof.Gen.KernelIdeal.Launch
import proofs.«173199_g7215545057700_cont_sun_m_658_2_alg».proof.Proof.Gen.KernelIdeal.Skeleton
import proofs.«173199_g7215545057700_cont_sun_m_658_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev rA1 : Rect S400x10000 := Rect.unit (s := S400x10000) ![0, 0] S400x10000.size inb_S400x10000_S400x10000_0_0
abbrev rB1 : Rect S10000x32 := Rect.unit (s := S10000x32) ![0, 0] S10000x32.size inb_S10000x32_S10000x32_0_0
abbrev rC1 : Rect S32x32 := Rect.unit (s := S32x32) ![0, 0] S32x32.size inb_S32x32_S32x32_0_0
abbrev rO1 : Rect S400x32 := Rect.unit (s := S400x32) ![0, 0] S400x32.size inb_S400x32_S400x32_0_0

/-- What the body leaves in the output window's buffer: its one store, of the whole block. -/
def out1_3 (x0 : Vec F S400x10000 .f32) (x1 : Vec F S10000x32 .f32) (x2 : Vec F S32x32 .f32) : Vec F S400x32 .f32 :=
  View.canon [⟨rO1, k1_pay1 (View.ld x0 rA1) (View.ld x1 rB1) (View.ld x2 rC1)⟩]

theorem cover1_3 (p0 : Vec F S400x32 .f32) (y : S400x32.Idx) :
    ∃ pc ∈ ([⟨rO1, p0⟩] : List (View.Piece (Elt F) S400x32 .f32)), y ∈ pc.1.set :=
  View.cover_of_tiled [⟨rO1, p0⟩] S400x32.size (by rfl) y

set_option maxHeartbeats 1000000 in
/-- The body on whole staging buffers: the three inputs keep their contents, the output ends at out1_3 of them. -/
theorem sound_kernel1 (c : Dev nD) (E : Set ℕ) (i : grid1.Coords)
    (arg1 : Memref sig .tc .vmem S400x10000 .f32) (harg1 : arg1.IsWhole) (arg2 : Memref sig .tc .vmem S10000x32 .f32) (harg2 : arg2.IsWhole)
    (arg3 : Memref sig .tc .vmem S32x32 .f32) (harg3 : arg3.IsWhole) (arg4 : Memref sig .tc .vmem S400x32 .f32) (harg4 : arg4.IsWhole)
    (x0 : Vec F S400x10000 .f32) (x1 : Vec F S10000x32 .f32) (x2 : Vec F S32x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__pass1_kernel i arg1 harg1 arg2 harg2 arg3 harg3 arg4 harg4) K := by
  simp only [cc1__pass1_kernel_eq_skeleton]; unfold cc1__pass1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of this pipeline on core c: arrays as found; after the body each input's buffer at its
    block, the output's at out1_3 of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Region2.lean ====
/-
  The third pallas_call: one grid axis of 25 points; at point i the body multiplies rows
  [400 i, 400 i + 400) of the adjacency matrix by the 10000 x 32 array the second call left, and stores
  the 400 x 32 product as block i of its output.  Here: the blocks the body finds, the output block as
  one stored piece, the body's run, the pipeline's proof data at any contents V found at entry, and the
  body's obligation at every grid point.
-/
import proofs.«173199_g7215545057700_cont_sun_m_658_2_alg».proof.Proof.Gen.KernelIdeal.Launch
import proofs.«173199_g7215545057700_cont_sun_m_658_2_alg».proof.Proof.Gen.KernelIdeal.Skeleton
import proofs.«173199_g7215545057700_cont_sun_m_658_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at grid point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev rA2 : Rect S400x10000 := Rect.unit (s := S400x10000) ![0, 0] S400x10000.size inb_S400x10000_S400x10000_0_0
abbrev rB2 : Rect S10000x32 := Rect.unit (s := S10000x32) ![0, 0] S10000x32.size inb_S10000x32_S10000x32_0_0
abbrev rO2 : Rect S400x32 := Rect.unit (s := S400x32) ![0, 0] S400x32.size inb_S400x32_S400x32_0_0

/-- What the body leaves in the output window's buffer: its one store, of the whole block. -/
def out2_2 (x0 : Vec F S400x10000 .f32) (x1 : Vec F S10000x32 .f32) : Vec F S400x32 .f32 :=
  View.canon [⟨rO2, k2_pay1 (View.ld x0 rA2) (View.ld x1 rB2)⟩]

theorem cover2_2 (p0 : Vec F S400x32 .f32) (y : S400x32.Idx) :
    ∃ pc ∈ ([⟨rO2, p0⟩] : List (View.Piece (Elt F) S400x32 .f32)), y ∈ pc.1.set :=
  View.cover_of_tiled [⟨rO2, p0⟩] S400x32.size (by rfl) y

set_option maxHeartbeats 1000000 in
/-- The body on whole staging buffers: the two inputs keep their contents, the output ends at out2_2 of them. -/
theorem sound_kernel2 (c : Dev nD) (E : Set ℕ) (i : grid2.Coords)
    (arg1 : Memref sig .tc .vmem S400x10000 .f32) (harg1 : arg1.IsWhole) (arg2 : Memref sig .tc .vmem S10000x32 .f32) (harg2 : arg2.IsWhole)
    (arg3 : Memref sig .tc .vmem S400x32 .f32) (harg3 : arg3.IsWhole)
    (x0 : Vec F S400x10000 .f32) (x1 : Vec F S10000x32 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__pass2_kernel i arg1 harg1 arg2 harg2 arg3 harg3) K := by
  simp only [cc2__pass2_kernel_eq_skeleton]; unfold cc2__pass2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of this pipeline on core c: arrays as found; after the body each input's buffer at its
    block, the output's at out2_2 of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Region3.lean ====
/-
  The fourth pallas_call, the decoder: one grid axis of 25 points.  Its first two windows are on ONE
  array, the 10000 x 16 matrix of means: window 0 takes rows [400 i, 400 i + 400) of it, window 1 the whole
  of it; window 2 is the 128 x 16 attribute means.  At point i the body contracts the 400 x 16 block with the
  whole 10000 x 16 matrix over their second axes and stores the 400 x 10000 result as block i of the first
  output, and contracts the same block with the 128 x 16 matrix likewise into block i of the second output.
  The two windows on the one array are both read-only, and the proof data deals that array's share between
  them: the left half to window 0, the right half to window 1.
-/
import proofs.«173199_g7215545057700_cont_sun_m_658_2_alg».proof.Proof.Gen.KernelIdeal.Launch
import proofs.«173199_g7215545057700_cont_sun_m_658_2_alg».proof.Proof.Gen.KernelIdeal.Skeleton
import proofs.«173199_g7215545057700_cont_sun_m_658_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at grid point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev rA3 : Rect S400x16 := Rect.unit (s := S400x16) ![0, 0] S400x16.size inb_S400x16_S400x16_0_0
abbrev rB3 : Rect S10000x16 := Rect.unit (s := S10000x16) ![0, 0] S10000x16.size inb_S10000x16_S10000x16_0_0
abbrev rC3 : Rect S128x16 := Rect.unit (s := S128x16) ![0, 0] S128x16.size inb_S128x16_S128x16_0_0
abbrev rO3 : Rect S400x10000 := Rect.unit (s := S400x10000) ![0, 0] S400x10000.size inb_S400x10000_S400x10000_0_0
abbrev rP3 : Rect S400x128 := Rect.unit (s := S400x128) ![0, 0] S400x128.size inb_S400x128_S400x128_0_0

/-- What the body leaves in each output window's buffer: one store of the whole block each. -/
def out3_3 (x0 : Vec F S400x16 .f32) (x1 : Vec F S10000x16 .f32) : Vec F S400x10000 .f32 :=
  View.canon [⟨rO3, k3_pay2 (View.ld x0 rA3) (View.ld x1 rB3)⟩]
def out3_4 (x0 : Vec F S400x16 .f32) (x2 : Vec F S128x16 .f32) : Vec F S400x128 .f32 :=
  View.canon [⟨rP3, k3_pay3 (View.ld x0 rA3) (View.ld x2 rC3)⟩]

theorem cover3_3 (p0 : Vec F S400x10000 .f32) (y : S400x10000.Idx) :
    ∃ pc ∈ ([⟨rO3, p0⟩] : List (View.Piece (Elt F) S400x10000 .f32)), y ∈ pc.1.set :=
  View.cover_of_tiled [⟨rO3, p0⟩] S400x10000.size (by rfl) y
theorem cover3_4 (p0 : Vec F S400x128 .f32) (y : S400x128.Idx) :
    ∃ pc ∈ ([⟨rP3, p0⟩] : List (View.Piece (Elt F) S400x128 .f32)), y ∈ pc.1.set :=
  View.cover_of_tiled [⟨rP3, p0⟩] S400x128.size (by rfl) y

set_option maxHeartbeats 1000000 in
/-- The body on whole staging buffers: the three inputs keep their contents, each output ends at its out3_W of them. -/
theorem sound_kernel3 (c : Dev nD) (E : Set ℕ) (i : grid3.Coords)
    (arg1 : Memref sig .tc .vmem S400x16 .f32) (harg1 : arg1.IsWhole) (arg2 : Memref sig .tc .vmem S10000x16 .f32) (harg2 : arg2.IsWhole)
    (arg3 : Memref sig .tc .vmem S128x16 .f32) (harg3 : arg3.IsWhole) (arg4 : Memref sig .tc .vmem S400x10000 .f32) (harg4 : arg4.IsWhole)
    (arg5 : Memref sig .tc .vmem S400x128 .f32) (harg5 : arg5.IsWhole)
    (x0 : Vec F S400x16 .f32) (x1 : Vec F S10000x16 .f32) (x2 : Vec F S128x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1) ∗ owns (c : Thread nD τ) arg5 fullShare (out3_4 x0 x2)) -∗ K ⟨⟩))
      ⊢ wp frame (wpE (defs₀ (F := F)) Variants.none c none) E (cc3__pass3_kernel i arg1 harg1 arg2 harg2 arg3 harg3 arg4 harg4 arg5 harg5) K := by
  simp only [cc3__pass3_kernel_eq_skeleton]; unfold cc3__pass3_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3_3 _)
  iexists _; isplitr
  swap; · iexact H4
  ipureintro
  exact View.read_writes_eq_canon _ _ _ (cover3_4 _)

/-- The proof data of this pipeline on core c: arrays as found; after the body each input's buffer at its
    block, each output's at its out3_W of the input blocks; nothing owed.  The array under windows 0 and 1 is
    held in two halves, the left under window 0 and the right under window 1; window 2's array whole. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t)
    | ⟨4, _⟩ => out3_4 (iblk3 V c 0 t) (iblk3 V c 2 t)
  Φ _ := Pipeline.ΦA spec3 c
  q w := match w with
    | ⟨0, _⟩ => fullShare.left
    | ⟨1, _⟩ => fullShare.right
    | _ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) := by dsimp only [dat3]
theorem after3_4 (c : Dev nD) (t : Fin cfg3.N) :
    (dat3 V c).after 4 t = out3_4 (iblk3 V c 0 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Shared3.lean ====
/-
  The decoder call's first two windows are on one array.  The pipeline's view of its arrays is one points-to
  per WINDOW, each at its window's share; the program around it holds one points-to per BUFFER, at the full
  share.  For this call the two are the same resource whenever the windows' contents are read off one
  valuation of the buffers: the shared buffer's full share is its left half (window 0) and its right half
  (window 1) at the same contents, and the other three windows' arrays are distinct buffers held whole.
-/
import proofs.«173199_g7215545057700_cont_sun_m_658_2_alg».proof.Proof.KI.Region3
import proofs.«173199_g7215545057700_cont_sun_m_658_2_alg».proof.Proof.Gen.KernelIdeal.Launch
import proofs.«173199_g7215545057700_cont_sun_m_658_2_alg».proof.Proof.Gen.KernelIdeal.Skeleton
import proofs.«173199_g7215545057700_cont_sun_m_658_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

open Idealize.SL.RA in
theorem arrays3_iff (c : Dev nD) (V' : (b : Ref sig .tc) → Buf (Elt F) ((c : Thread nD τ).loc b))
    (A' : (w : Fin cfg3.W) → Buf (Elt F) ((cfg3.win w).arr.view.loc (c : Thread nD τ)))
    (hA' : ∀ w, A' w = V' (Pipeline.arrRef spec3 w)) :
    ((dat3 V c).arrays A' : sProp 𝕄) ⊣⊢ Pipeline.arrBufs spec3 c V' := by
  have himg : Finset.univ.image (Pipeline.arrRef spec3) = ({main_v7, main_v3_1, main_v9_0, main_v9_1} : Finset (Ref sig .tc)) := by decide
  unfold Pipeline.Dat.arrays Pipeline.arrBufs
  rw [himg, bigSep_W3]
  rw [bigSep_insert (by decide), bigSep_insert (by decide), bigSep_insert (by decide)]
  simp only [hA', bigSep_singleton]
  have hs0 : (dat3 V c).share 0 = fullShare.left := rfl
  have hs1 : (dat3 V c).share 1 = fullShare.right := rfl
  have hs2 : (dat3 V c).share 2 = fullShare := rfl
  have hs3 : (dat3 V c).share 3 = fullShare := rfl
  have hs4 : (dat3 V c).share 4 = fullShare := rfl
  rw [hs0, hs1, hs2, hs3, hs4, (Memref.isWhole_whole (main_v7 : Ref sig .tc)).set_eq_univ, (Memref.isWhole_whole (main_v3_1 : Ref sig .tc)).set_eq_univ,
    (Memref.isWhole_whole (main_v9_0 : Ref sig .tc)).set_eq_univ, (Memref.isWhole_whole (main_v9_1 : Ref sig .tc)).set_eq_univ]
  show (iprop((((c : Thread nD τ).loc main_v7) ↦{fullShare.left} V' main_v7) ∗ (((c : Thread nD τ).loc main_v7) ↦{fullShare.right} V' main_v7)
        ∗ (((c : Thread nD τ).loc main_v3_1) ↦{fullShare} V' main_v3_1) ∗ (((c : Thread nD τ).loc main_v9_0) ↦{fullShare} V' main_v9_0)
        ∗ (((c : Thread nD τ).loc main_v9_1) ↦{fullShare} V' main_v9_1)) : sProp 𝕄)
      ⊣⊢ iprop((((c : Thread nD τ).loc main_v7) ↦{fullShare} V' main_v7) ∗ (((c : Thread nD τ).loc main_v3_1) ↦{fullShare} V' main_v3_1)
        ∗ (((c : Thread nD τ).loc main_v9_0) ↦{fullShare} V' main_v9_0) ∗ (((c : Thread nD τ).loc main_v9_1) ↦{fullShare} V' main_v9_1))
  have hsh : ((((c : Thread nD τ).loc main_v7) ↦{fullShare} V' main_v7) : sProp 𝕄)
      ⊣⊢ iprop((((c : Thread nD τ).loc main_v7) ↦{fullShare.left} V' main_v7) ∗ (((c : Thread nD τ).loc main_v7) ↦{fullShare.right} V' main_v7)) :=
    pointsTo_share (PosShare.mem_left_op_right fullShare)
  constructor
  · iintro ⟨H0, H1, H2, H3, H4⟩
    isplitl [H0 H1]
    · iapply hsh.2; isplitl [H0] <;> iassumption
    isplitl [H2]; · iexact H2
    isplitl [H3]; · iexact H3
    iexact H4
  · iintro ⟨H7, H2, H3, H4⟩
    ihave H := hsh.1 $$ H7
    icases H with ⟨H0, H1⟩
    isplitl [H0]; · iexact H0
    isplitl [H1]; · iexact H1
    isplitl [H2]; · iexact H2
    isplitl [H3]; · iexact H3
    iexact H4

end Cert.KernelIdeal.Fr

end
-- ==== Proof.KI.Run.lean ====
/-
  The whole program's run.  @main is: three reshapes of the bias vectors; the first pallas_call; the
  concatenation of the two graph weights; the second and the third pallas_calls; the two column slices; the
  decoder call.  The contents of every unscoped buffer are followed through these seven items as a fold from
  the launch memory: a stretch of host operations applies its operations; a pallas_call leaves its input
  windows' arrays as found and each output window's array at what its grid points' write-backs leave, every
  other buffer untouched.  Each pallas_call is a pipeline region entered from "every unscoped buffer at the
  current contents, the generator register at some state, nothing owed" and left in the same form at the next
  contents; the decoder's two windows on one array take that array's two half shares at entry and give them
  back at exit.  The result: every weakly fair execution terminates, and every unscoped buffer ends at the last
  contents of the fold.
-/
import proofs.«173199_g7215545057700_cont_sun_m_658_2_alg».proof.Proof.KI.Region0
import proofs.«173199_g7215545057700_cont_sun_m_658_2_alg».proof.Proof.KI.Region1
import proofs.«173199_g7215545057700_cont_sun_m_658_2_alg».proof.Proof.KI.Region2
import proofs.«173199_g7215545057700_cont_sun_m_658_2_alg».proof.Proof.KI.Shared3
import proofs.«173199_g7215545057700_cont_sun_m_658_2_alg».proof.Proof.Gen.KernelIdeal.Regions
import proofs.«173199_g7215545057700_cont_sun_m_658_2_alg».proof.Proof.Gen.KernelIdeal.Launch
import proofs.«173199_g7215545057700_cont_sun_m_658_2_alg».proof.Proof.Gen.KernelIdeal.Skeleton
import proofs.«173199_g7215545057700_cont_sun_m_658_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between items -/

/-- Core c's buffers at launch. -/
abbrev W0 : Dev nD → Valuation τ sig (Elt F) := fun c b => (s₀ m ρ).mem ((c : Dev nD), b)
/-- After the three reshapes (the first call's entry). -/
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- At the first call's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the concatenation (the second call's entry). -/
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- At the second call's exit. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-- At the third call's exit (it is entered straight from the second's). -/
def W5 (c : Dev nD) : Valuation τ sig (Elt F) :=
  Pipeline.withArrays spec2 c (W4 m ρ c) fun w => (dat2 (U4 m ρ) c).arrAt w cfg2.N
theorem W5_arr (c : Dev nD) (w : Fin cfg2.W) :
    W5 m ρ c (Proc.devRef .tc (Pipeline.arrRef spec2 w)) = (dat2 (U4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev U5 : (c : Dev nD) → (b : Ref sig .tc) → Buf (Elt F) ((c : Thread nD τ).loc b) := fun c b => W5 m ρ c b
theorem hF2 (c : Dev nD) (w : Fin cfg2.W) : (dat2 (U4 m ρ) c).arrAt w cfg2.N = U5 m ρ c (Pipeline.arrRef spec2 w) :=
  (W5_arr m ρ c w).symm
theorem hrest2 (c : Dev nD) : ∀ b, b ∉ Finset.univ.image (Pipeline.arrRef spec2) → U5 m ρ c b = U4 m ρ c b :=
  fun b hb => W5_of_ne m ρ c b fun w e => hb (Finset.mem_image.mpr ⟨w, Finset.mem_univ _, e⟩)

/-- After the two slices (the decoder's entry). -/
abbrev W6 : Dev nD → Valuation τ sig (Elt F) := fun c => StableHlo.after hostOps3 (W5 m ρ c)
abbrev U6 : (c : Dev nD) → (b : Ref sig .tc) → Buf (Elt F) ((c : Thread nD τ).loc b) := fun c b => W6 m ρ c b
/-- At the decoder's exit: its two output arrays at what the pipeline leaves, every other buffer as entered
    (its three input windows' arrays among them). -/
def W7 (c : Dev nD) : Valuation τ sig (Elt F) :=
  Function.update (Function.update (W6 m ρ c) (Proc.devRef .tc main_v9_0) ((dat3 (U6 m ρ) c).arrAt 3 cfg3.N))
    (Proc.devRef .tc main_v9_1) ((dat3 (U6 m ρ) c).arrAt 4 cfg3.N)
abbrev U7 : (c : Dev nD) → (b : Ref sig .tc) → Buf (Elt F) ((c : Thread nD τ).loc b) := fun c b => W7 m ρ c b
theorem W7_v9_0 (c : Dev nD) : W7 m ρ c (Proc.devRef .tc main_v9_0) = (dat3 (U6 m ρ) c).arrAt 3 cfg3.N := by
  unfold W7
  rw [Function.update_of_ne (StableHlo.devRef_ne_of_ne (by decide) : (Proc.devRef .tc main_v9_0 : DevRef τ sig) ≠ Proc.devRef .tc main_v9_1),
    Function.update_self]
theorem W7_v9_1 (c : Dev nD) : W7 m ρ c (Proc.devRef .tc main_v9_1) = (dat3 (U6 m ρ) c).arrAt 4 cfg3.N := by
  unfold W7; rw [Function.update_self]
theorem W7_of_ne (c : Dev nD) (b : Ref sig .tc) (h0 : b ≠ main_v9_0) (h1 : b ≠ main_v9_1) :
    W7 m ρ c (Proc.devRef .tc b) = W6 m ρ c (Proc.devRef .tc b) := by
  unfold W7
  rw [Function.update_of_ne (StableHlo.devRef_ne_of_ne h1 : (Proc.devRef .tc b : DevRef τ sig) ≠ Proc.devRef .tc main_v9_1),
    Function.update_of_ne (StableHlo.devRef_ne_of_ne h0 : (Proc.devRef .tc b : DevRef τ sig) ≠ Proc.devRef .tc main_v9_0)]
/-- At the decoder's exit each window's array holds what the pipeline leaves there: an input window's array what
    it held at entry, an output's its write-backs. -/
theorem hF3 (c : Dev nD) (w : Fin cfg3.W) : (dat3 (U6 m ρ) c).arrAt w cfg3.N = U7 m ρ c (Pipeline.arrRef spec3 w) :=
  match w with
  | ⟨0, _⟩ => (((dat3 (U6 m ρ) c).arrAt_in 0 rfl _).trans (A_eq3 (U6 m ρ) c 0)).trans (W7_of_ne m ρ c main_v7 (by decide) (by decide)).symm
  | ⟨1, _⟩ => (((dat3 (U6 m ρ) c).arrAt_in 1 rfl _).trans (A_eq3 (U6 m ρ) c 1)).trans (W7_of_ne m ρ c main_v7 (by decide) (by decide)).symm
  | ⟨2, _⟩ => (((dat3 (U6 m ρ) c).arrAt_in 2 rfl _).trans (A_eq3 (U6 m ρ) c 2)).trans (W7_of_ne m ρ c main_v3_1 (by decide) (by decide)).symm
  | ⟨3, _⟩ => (W7_v9_0 m ρ c).symm
  | ⟨4, _⟩ => (W7_v9_1 m ρ c).symm
theorem hrest3 (c : Dev nD) : ∀ b, b ∉ Finset.univ.image (Pipeline.arrRef spec3) → U7 m ρ c b = U6 m ρ c b :=
  fun b hb => W7_of_ne m ρ c b
    (fun e => hb (Finset.mem_image.mpr ⟨3, Finset.mem_univ _, e.symm⟩))
    (fun e => hb (Finset.mem_image.mpr ⟨4, Finset.mem_univ _, e.symm⟩))

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U4 m ρ) c
  | ⟨3, _⟩ => fun c => dat3 (U6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
/-- A stretch of host operations as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last contents, the register at some state. -/
abbrev Tₙ (c : Dev nD) : sProp 𝕄 := iprop(StableHlo.held (c : Thread nD τ) (Pipeline.ucRefs τ sig) (W7 m ρ c) ∗ ∃ r, prngReg c r)

/-! ## The pallas_calls as segments -/

-- a library lemma stated over the pinned configuration unifies with the printed one only when unification may
-- unfold plain definitions in a metavariable's type
set_option backward.isDefEq.respectTransparency.types false in
/-- The first call: entered from the buffers at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from the buffers at W3, left at W4. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third call: entered from the buffers at W4, left at W5. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (U4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U4 m ρ c) (U5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decoder: entered from the buffers at W6, left at W7 beside the core owing nothing.  Its windows' arrays
    are not pairwise distinct, so the buffers behind them are split out of the unscoped buffers as buffers and
    dealt to the windows by their shares at entry, and gathered back the same way at exit. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (U6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U6 m ρ c)
  hentry c := by
    rw [Pipeline.ownSems0_none]
    have hsplit : (unscopedBufs c (U6 m ρ c) : sProp 𝕄)
        = iprop(Pipeline.arrBufs spec3 c (U6 m ρ c) ∗ Pipeline.unscopedRest spec3 c (U6 m ρ c)) :=
      Pipeline.unscopedBufs_split₀ cfgs 3 winFacts₀3.arr_unscoped c (U6 m ρ c)
    rw [Pipeline.unscopedBufs_held] at hsplit
    have hdeal := (arrays3_iff (U6 m ρ) c (U6 m ρ c) ((dat3 (U6 m ρ) c).arrAt · 0) (fun w => A_eq3 (U6 m ρ) c w)).2
    have hs : (StableHlo.held (c : Thread nD τ) (Pipeline.ucRefs τ sig) (W6 m ρ c) : sProp 𝕄)
        ⊢ iprop((dat3 (U6 m ρ) c).arrays ((dat3 (U6 m ρ) c).arrAt · 0) ∗ Pipeline.unscopedRest spec3 c (U6 m ρ c)) :=
      (Entails.of_eq hsplit).trans (BIClass.sep_mono hdeal .rfl)
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hsplit : (unscopedBufs c (U7 m ρ c) : sProp 𝕄)
        = iprop(Pipeline.arrBufs spec3 c (U7 m ρ c) ∗ Pipeline.unscopedRest spec3 c (U7 m ρ c)) :=
      Pipeline.unscopedBufs_split₀ cfgs 3 winFacts₀3.arr_unscoped c (U7 m ρ c)
    rw [Pipeline.unscopedBufs_held] at hsplit
    have hgather := (arrays3_iff (U6 m ρ) c (U7 m ρ c) ((dat3 (U6 m ρ) c).arrAt · cfg3.N) (hF3 m ρ c)).1
    have hrest : (Pipeline.unscopedRest spec3 c (U6 m ρ c) : sProp 𝕄) = Pipeline.unscopedRest spec3 c (U7 m ρ c) := by
      unfold Pipeline.unscopedRest
      exact bigSep_congr fun b hb => by rw [hrest3 m ρ c b (Finset.mem_sdiff.mp hb).2]
    have hjoin : iprop((pdats m ρ 3 c).arrays ((pdats m ρ 3 c).arrAt · cfg3.N) ∗ Pipeline.unscopedRest spec3 c (U6 m ρ c))
        ⊢ (StableHlo.held (c : Thread nD τ) (Pipeline.ucRefs τ sig) (W7 m ρ c) : sProp 𝕄) :=
      (BIClass.sep_mono hgather (Entails.of_eq hrest)).trans (Entails.of_eq hsplit.symm)
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's seven items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing
    faulting, and every unscoped buffer of every core ends at the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.KernelIdeal.Fr

end
-- ==== Proof.KI.Frame.lean ====
/-
  The frame: no item of @main writes an argument array.  A stretch of host operations writes only its results;
  a pallas_call changes only its output windows' arrays and leaves every other buffer, its input windows'
  arrays among them, as found.  So an argument's buffer walks back through the fold of contents to what it held
  at launch, and the run's last contents give the frame claim: every execution terminates, nothing faults, the
  eleven argument arrays end unchanged.
-/
import proofs.«173199_g7215545057700_cont_sun_m_658_2_alg».proof.Proof.KI.Run
import proofs.«173199_g7215545057700_cont_sun_m_658_2_alg».proof.Proof.Gen.KernelIdeal.Launch
import proofs.«173199_g7215545057700_cont_sun_m_658_2_alg».proof.Proof.Gen.KernelIdeal.Skeleton
import proofs.«173199_g7215545057700_cont_sun_m_658_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three reshapes leave every buffer but their three results as found. -/
theorem W1_keep (c : Dev nD) (b : Ref sig .tc) (hb : b ∉ hostOps0_W) :
    W1 m ρ c (Proc.devRef .tc b) = W0 m ρ c (Proc.devRef .tc b) :=
  StableHlo.after_of_writes_sub hostOps0 _ hostOps0_writes hb

/-- The first call leaves every buffer but its three output arrays as found. -/
theorem W2_keep (c : Dev nD) (b : Ref sig .tc) (hb : b ∉ ([main_v3_0, main_v3_1, main_v3_2] : List (Ref sig .tc))) :
    W2 m ρ c (Proc.devRef .tc b) = W1 m ρ c (Proc.devRef .tc b) := by
  by_cases h : ∃ w, Pipeline.arrRef spec0 w = b
  · obtain ⟨w, rfl⟩ := h
    have hin : (cfg0.win w).isOut = false :=
      (by decide : ∀ w : Fin 11, Pipeline.arrRef spec0 w ∉ ([main_v3_0, main_v3_1, main_v3_2] : List (Ref sig .tc)) → (cfg0.win w).isOut = false) w hb
    exact (W2_arr m ρ c w).trans (((dat0 (U1 m ρ) c).arrAt_in w hin _).trans (A_eq0 (U1 m ρ) c w))
  · exact W2_of_ne m ρ c b fun w e => h ⟨w, e⟩

/-- The concatenation leaves every buffer but its result as found. -/
theorem W3_keep (c : Dev nD) (b : Ref sig .tc) (hb : b ∉ hostOps1_W) :
    W3 m ρ c (Proc.devRef .tc b) = W2 m ρ c (Proc.devRef .tc b) :=
  StableHlo.after_of_writes_sub hostOps1 _ hostOps1_writes hb

/-- The second call leaves every buffer but its output array as found. -/
theorem W4_keep (c : Dev nD) (b : Ref sig .tc) (hb : b ∉ ([main_v5] : List (Ref sig .tc))) :
    W4 m ρ c (Proc.devRef .tc b) = W3 m ρ c (Proc.devRef .tc b) := by
  by_cases h : ∃ w, Pipeline.arrRef spec1 w = b
  · obtain ⟨w, rfl⟩ := h
    have hin : (cfg1.win w).isOut = false :=
      (by decide : ∀ w : Fin 4, Pipeline.arrRef spec1 w ∉ ([main_v5] : List (Ref sig .tc)) → (cfg1.win w).isOut = false) w hb
    exact (W4_arr m ρ c w).trans (((dat1 (U3 m ρ) c).arrAt_in w hin _).trans (A_eq1 (U3 m ρ) c w))
  · exact W4_of_ne m ρ c b fun w e => h ⟨w, e⟩

/-- The third call leaves every buffer but its output array as found. -/
theorem W5_keep (c : Dev nD) (b : Ref sig .tc) (hb : b ∉ ([main_v6] : List (Ref sig .tc))) :
    W5 m ρ c (Proc.devRef .tc b) = W4 m ρ c (Proc.devRef .tc b) := by
  by_cases h : ∃ w, Pipeline.arrRef spec2 w = b
  · obtain ⟨w, rfl⟩ := h
    have hin : (cfg2.win w).isOut = false :=
      (by decide : ∀ w : Fin 3, Pipeline.arrRef spec2 w ∉ ([main_v6] : List (Ref sig .tc)) → (cfg2.win w).isOut = false) w hb
    exact (W5_arr m ρ c w).trans (((dat2 (U4 m ρ) c).arrAt_in w hin _).trans (A_eq2 (U4 m ρ) c w))
  · exact W5_of_ne m ρ c b fun w e => h ⟨w, e⟩

/-- The two slices leave every buffer but their two results as found. -/
theorem W6_keep (c : Dev nD) (b : Ref sig .tc) (hb : b ∉ hostOps3_W) :
    W6 m ρ c (Proc.devRef .tc b) = W5 m ρ c (Proc.devRef .tc b) :=
  StableHlo.after_of_writes_sub hostOps3 _ hostOps3_writes hb

/-- A buffer that no host operation writes and that is no pallas_call's output array ends as launched. -/
theorem W7_launch (c : Dev nD) (b : Ref sig .tc) (h0 : b ∉ hostOps0_W) (h1 : b ∉ ([main_v3_0, main_v3_1, main_v3_2] : List (Ref sig .tc)))
    (h2 : b ∉ hostOps1_W) (h3 : b ∉ ([main_v5] : List (Ref sig .tc))) (h4 : b ∉ ([main_v6] : List (Ref sig .tc))) (h5 : b ∉ hostOps3_W)
    (h6 : b ≠ main_v9_0) (h7 : b ≠ main_v9_1) :
    W7 m ρ c (Proc.devRef .tc b) = m ((c : Thread nD τ).loc b) :=
  (W7_of_ne m ρ c b h6 h7).trans <| (W6_keep m ρ c b h5).trans <| (W5_keep m ρ c b h4).trans <| (W4_keep m ρ c b h3).trans <|
    (W3_keep m ρ c b h2).trans <| (W2_keep m ρ c b h1).trans <| (W1_keep m ρ c b h0).trans rfl

/-- THE FRAME, at any float values: every weakly fair execution of @main from memory m with zero counters
    terminates, nothing faulting, and the eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W7_launch m ρ c main_arg0 (by decide) (by decide) (by decide) (by decide) (by decide) (by decide) (by decide) (by decide)),
     (h c _ (mem_uc main_arg1 (by decide))).trans (W7_launch m ρ c main_arg1 (by decide) (by decide) (by decide) (by decide) (by decide) (by decide) (by decide) (by decide)),
     (h c _ (mem_uc main_arg2 (by decide))).trans (W7_launch m ρ c main_arg2 (by decide) (by decide) (by decide) (by decide) (by decide) (by decide) (by decide) (by decide)),
     (h c _ (mem_uc main_arg3 (by decide))).trans (W7_launch m ρ c main_arg3 (by decide) (by decide) (by decide) (by decide) (by decide) (by decide) (by decide) (by decide)),
     (h c _ (mem_uc main_arg4 (by decide))).trans (W7_launch m ρ c main_arg4 (by decide) (by decide) (by decide) (by decide) (by decide) (by decide) (by decide) (by decide)),
     (h c _ (mem_uc main_arg5 (by decide))).trans (W7_launch m ρ c main_arg5 (by decide) (by decide) (by decide) (by decide) (by decide) (by decide) (by decide) (by decide)),
     (h c _ (mem_uc main_arg6 (by decide))).trans (W7_launch m ρ c main_arg6 (by decide) (by decide) (by decide) (by decide) (by decide) (by decide) (by decide) (by decide)),
     (h c _ (mem_uc main_arg7 (by decide))).trans (W7_launch m ρ c main_arg7 (by decide) (by decide) (by decide) (by decide) (by decide) (by decide) (by decide) (by decide)),
     (h c _ (mem_uc main_arg8 (by decide))).trans (W7_launch m ρ c main_arg8 (by decide) (by decide) (by decide) (by decide) (by decide) (by decide) (by decide) (by decide)),
     (h c _ (mem_uc main_arg9 (by decide))).trans (W7_launch m ρ c main_arg9 (by decide) (by decide) (by decide) (by decide) (by decide) (by decide) (by decide) (by decide)),
     (h c _ (mem_uc main_arg10 (by decide))).trans (W7_launch m ρ c main_arg10 (by decide) (by decide) (by decide) (by decide) (by decide) (by decide) (by decide) (by decide))⟩)
    (run_all m ρ)

end Cert.KernelIdeal.Fr

end
-- ==== Proof.Spec.lean ====
/-
  The mathematics of the program, free of any printed text.  A matrix is a function of a row and a column
  into the extended reals.  The encoder: hid = max(adj · (x · W1), 0) entrywise; the means and log-variances
  are adj · (hid · W2) and adj · (hid · W3).  The attribute branch: h = tanh(xᵀ · Wa + b1) with the bias added
  to every row, then h · Wa2 + b2 and h · Wa3 + b3.  The decoder: mu · muᵀ and mu · mu_aᵀ.
  A matrix product here is the plain finite sum over the contracted index; nothing below uses any law of the
  extended reals beyond what a finite sum and a product are.
-/
import Idealize.ShloMosaic.PureOps.Ideal
import Idealize.ShloMosaic.Lib.ValueIdx

noncomputable section

namespace Cert.Spec

open Idealize.ShloMosaic

/-- An n × k matrix over the extended reals. -/
abbrev M (n k : ℕ) : Type := Fin n → Fin k → EReal

/-- The rank-2 array with the matrix's entries, and back. -/
def arr {n k : ℕ} (a : M n k) : (⟨2, ![n, k]⟩ : Shape).Idx → EReal := fun j => a (j 0) (j 1)
def mat {n k : ℕ} (v : (⟨2, ![n, k]⟩ : Shape).Idx → EReal) : M n k := fun i l => v (ValueIdx.ix2 i l)

/-- a · b. -/
def mm {n k p : ℕ} (a : M n k) (b : M k p) : M n p := fun i j => ∑ l : Fin k, a i l * b l j
/-- a · bᵀ: both contracted over their second index. -/
def mmT {n k p : ℕ} (a : M n k) (b : M p k) : M n p := fun i j => ∑ l : Fin k, a i l * b j l
/-- aᵀ · b: both contracted over their first index. -/
def tmm {n k p : ℕ} (a : M k n) (b : M k p) : M n p := fun i j => ∑ l : Fin k, a l i * b l j
/-- The entrywise maximum with zero. -/
def relu {n k : ℕ} (a : M n k) : M n k := fun i j => max (a i j) 0
/-- A row added to every row. -/
def addRow {n k : ℕ} (a : M n k) (r : Fin k → EReal) : M n k := fun i j => a i j + r j
/-- The hyperbolic tangent entrywise (with its limits at the two infinities). -/
def tanhM {n k : ℕ} (a : M n k) : M n k := fun i j => Ideal.tanh (a i j)
/-- Two matrices of 16 columns side by side. -/
def sideBySide {n : ℕ} (a b : M n 16) : M n 32 := fun i j => if h : j.val < 16 then a i ⟨j.val, h⟩ else b i ⟨j.val - 16, by omega⟩
/-- The left and the right 16 columns of a matrix of 32. -/
def leftCols {n : ℕ} (a : M n 32) : M n 16 := fun i j => a i ⟨j.val, by omega⟩
def rightCols {n : ℕ} (a : M n 32) : M n 16 := fun i j => a i ⟨j.val + 16, by omega⟩

section Results

variable (x : M 10000 128) (adj : M 10000 10000) (W1 : M 128 32) (W2 W3 : M 32 16)
  (Wa : M 10000 32) (b1 : Fin 32 → EReal) (Wa2 : M 32 16) (b2 : Fin 16 → EReal) (Wa3 : M 32 16) (b3 : Fin 16 → EReal)

/-- The hidden layer of the graph branch. -/
def hid : M 10000 32 := relu (mm adj (mm x W1))
/-- The means and the log-variances of the nodes. -/
def mu : M 10000 16 := mm adj (mm (hid x adj W1) W2)
def logvar : M 10000 16 := mm adj (mm (hid x adj W1) W3)
/-- The hidden layer of the attribute branch. -/
def hidA : M 128 32 := tanhM (addRow (tmm x Wa) b1)
/-- The means and the log-variances of the attributes. -/
def muA : M 128 16 := addRow (mm (hidA x Wa b1) Wa2) b2
def logvarA : M 128 16 := addRow (mm (hidA x Wa b1) Wa3) b3
/-- The two reconstructions. -/
def adjPred : M 10000 10000 := mmT (mu x adj W1 W2) (mu x adj W1 W2)
def xPred : M 10000 128 := mmT (mu x adj W1 W2) (muA x Wa b1 Wa2 b2)

end Results

/-- A product with two 16-column matrices side by side is the two products side by side: column j of the
    product only meets column j of the right factor. -/
theorem mm_sideBySide {n k : ℕ} (a : M n k) (b c : M k 16) : mm a (sideBySide b c) = sideBySide (mm a b) (mm a c) := by
  funext i j
  unfold mm sideBySide
  by_cases h : j.val < 16
  · simp only [h, dite_true]
  · simp only [h, dite_false]

theorem leftCols_sideBySide {n : ℕ} (a b : M n 16) : leftCols (sideBySide a b) = a := by
  funext i j
  unfold leftCols sideBySide
  have h : j.val < 16 := j.isLt
  simp only [h, dite_true]

theorem rightCols_sideBySide {n : ℕ} (a b : M n 16) : rightCols (sideBySide a b) = b := by
  funext i j
  unfold rightCols sideBySide
  have h : ¬ (j.val + 16 < 16) := by omega
  simp only [h, dite_false]
  congr 1

end Cert.Spec

end
-- ==== Proof.KI.Final0.lean ====
/-
  What the first pallas_call (no grid: one run on whole arrays) leaves in its three output arrays, as
  mathematics, from the eight arrays it found: x · W; and, with h = tanh(xᵀ · A + b) (the 1 x 32 bias row
  added to every row), h · P + p and h · Q + q for the two weight and bias-row pairs.
-/
import proofs.«173199_g7215545057700_cont_sun_m_658_2_alg».proof.Proof.KI.Region0
import proofs.«173199_g7215545057700_cont_sun_m_658_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KV

open Idealize.ShloMosaic Idealize.ShloMosaic.TcCoe Idealize.SL.Sem
open Idealize.ShloMosaic.Pipeline (Dat)
open Cert.KernelIdeal Cert.KernelIdeal.Gen Cert.KernelIdeal.Fr

-- the TensorCore's buffer contents when the region is entered, at the exact instance
variable (V : (c : Dev nD) → (b : Ref sig .tc) → Buf (Elt Ideal) ((c : Thread nD τ).loc b))

/-- A 1 x n array read as a row. -/
def rowOf1 {n : ℕ} (b : (⟨2, ![1, n]⟩ : Shape).Idx → EReal) : Fin n → EReal := fun j => b (ValueIdx.ix2 (0 : Fin 1) j)

namespace Prelude

/-- The zero offsets of a whole-array rectangle. -/
theorem hz0 : (![0, 0] : Fin 2 → Nat) = fun _ => 0 :=
  funext fun a => by match a with | ⟨0, _⟩ => rfl | ⟨1, _⟩ => rfl

/-! ## The three products of the body, read at an index -/

-- x · W: left operand at (row, l), right at (l, column)
theorem dA_lhs1 (i : S10000x32.Idx) (q : dot_S10000x128_S128x32_S10000x32_1_0_0_1_n_n.contr.Idx) :
    (dot_S10000x128_S128x32_S10000x32_1_0_0_1_n_n.lhsIdx i q 1).val = (q ⟨0, by decide⟩).val :=
  dot_S10000x128_S128x32_S10000x32_1_0_0_1_n_n.lhsIdx_val_of_single rfl i q
theorem dA_lhs0 (i : S10000x32.Idx) (q : dot_S10000x128_S128x32_S10000x32_1_0_0_1_n_n.contr.Idx) :
    (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide),
    dif_pos (show (0 : Fin S10000x128.rank) ∈ dot_S10000x128_S128x32_S10000x32_1_0_0_1_n_n.lhsNonContracting by decide)]
  rfl
theorem dA_rhs0 (i : S10000x32.Idx) (q : dot_S10000x128_S128x32_S10000x32_1_0_0_1_n_n.contr.Idx) :
    (dot_S10000x128_S128x32_S10000x32_1_0_0_1_n_n.rhsIdx i q 0).val = (q ⟨0, by decide⟩).val :=
  dot_S10000x128_S128x32_S10000x32_1_0_0_1_n_n.rhsIdx_val_of_single rfl i q
theorem dA_rhs1 (i : S10000x32.Idx) (q : dot_S10000x128_S128x32_S10000x32_1_0_0_1_n_n.contr.Idx) :
    (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide),
    dif_pos (show (1 : Fin S128x32.rank) ∈ dot_S10000x128_S128x32_S10000x32_1_0_0_1_n_n.rhsNonContracting by decide)]
  rfl

/-- The product x · W at (p, q) is the sum over l of x (p, l) times W (l, q). -/
theorem mmA_apply (a : FVec Ideal S10000x128 .f32) (b : FVec Ideal S128x32 .f32) (p : Fin 10000) (q : Fin 32) :
    FloatOps.matmul (F := Ideal) (φ₁ := .f32) (φ₂ := .f32) dot_S10000x128_S128x32_S10000x32_1_0_0_1_n_n none a b (constant (F := Ideal) S10000x32 .f32 0x00000000#32) (ValueIdx.ix2 p q)
      = ∑ l : Fin 128, a (ValueIdx.ix2 p l) * b (ValueIdx.ix2 l q) := by
  rw [Ideal.matmul_constant_zero_apply,
    ← Equiv.sum_comp (ValueIdx.contrEquiv1 dot_S10000x128_S128x32_S10000x32_1_0_0_1_n_n 128 rfl rfl).symm]
  refine Finset.sum_congr rfl fun l _ => ?_
  have hl := ValueIdx.contrEquiv1_symm_val dot_S10000x128_S128x32_S10000x32_1_0_0_1_n_n 128 rfl rfl l
  have el : dot_S10000x128_S128x32_S10000x32_1_0_0_1_n_n.lhsIdx (ValueIdx.ix2 p q)
      ((ValueIdx.contrEquiv1 dot_S10000x128_S128x32_S10000x32_1_0_0_1_n_n 128 rfl rfl).symm l) = ValueIdx.ix2 p l :=
    funext fun a => Fin.ext (by
      match a with
      | ⟨0, _⟩ => exact dA_lhs0 _ _
      | ⟨1, _⟩ => exact (dA_lhs1 _ _).trans hl)
  have er : dot_S10000x128_S128x32_S10000x32_1_0_0_1_n_n.rhsIdx (ValueIdx.ix2 p q)
      ((ValueIdx.contrEquiv1 dot_S10000x128_S128x32_S10000x32_1_0_0_1_n_n 128 rfl rfl).symm l) = ValueIdx.ix2 l q :=
    funext fun a => Fin.ext (by
      match a with
      | ⟨0, _⟩ => exact (dA_rhs0 _ _).trans hl
      | ⟨1, _⟩ => exact dA_rhs1 _ _)
  rw [el, er]

-- xᵀ · A: both operands contracted over their first axis: left at (l, row), right at (l, column)
theorem dB_lhs0 (i : S128x32.Idx) (q : dot_S10000x128_S10000x32_S128x32_0_0_1_1_n_n.contr.Idx) :
    (dot_S10000x128_S10000x32_S128x32_0_0_1_1_n_n.lhsIdx i q 0).val = (q ⟨0, by decide⟩).val :=
  dot_S10000x128_S10000x32_S128x32_0_0_1_1_n_n.lhsIdx_val_of_single rfl i q
theorem dB_lhs1 (i : S128x32.Idx) (q : dot_S10000x128_S10000x32_S128x32_0_0_1_1_n_n.contr.Idx) :
    (dot_S10000x128_S10000x32_S128x32_0_0_1_1_n_n.lhsIdx i q 1).val = (i 0).val := by
  unfold DotDims.lhsIdx
  rw [dif_neg (show ¬(1 : Fin S10000x128.rank) ∈ dot_S10000x128_S10000x32_S128x32_0_0_1_1_n_n.lhsBatch by decide),
    dif_pos (show (1 : Fin S10000x128.rank) ∈ dot_S10000x128_S10000x32_S128x32_0_0_1_1_n_n.lhsNonContracting by decide)]
  rfl
theorem dB_rhs0 (i : S128x32.Idx) (q : dot_S10000x128_S10000x32_S128x32_0_0_1_1_n_n.contr.Idx) :
    (dot_S10000x128_S10000x32_S128x32_0_0_1_1_n_n.rhsIdx i q 0).val = (q ⟨0, by decide⟩).val :=
  dot_S10000x128_S10000x32_S128x32_0_0_1_1_n_n.rhsIdx_val_of_single rfl i q
theorem dB_rhs1 (i : S128x32.Idx) (q : dot_S10000x128_S10000x32_S128x32_0_0_1_1_n_n.contr.Idx) :
    (dot_S10000x128_S10000x32_S128x32_0_0_1_1_n_n.rhsIdx i q 1).val = (i 1).val := by
  unfold DotDims.rhsIdx
  rw [dif_neg (show ¬(1 : Fin S10000x32.rank) ∈ dot_S10000x128_S10000x32_S128x32_0_0_1_1_n_n.rhsBatch by decide),
    dif_pos (show (1 : Fin S10000x32.rank) ∈ dot_S10000x128_S10000x32_S128x32_0_0_1_1_n_n.rhsNonContracting by decide)]
  rfl

/-- The product over the first axes at (p, q) is the sum over l of x (l, p) times A (l, q). -/
theorem mmB_apply (a : FVec Ideal S10000x128 .f32) (b : FVec Ideal S10000x32 .f32) (p : Fin 128) (q : Fin 32) :
    FloatOps.matmul (F := Ideal) (φ₁ := .f32) (φ₂ := .f32) dot_S10000x128_S10000x32_S128x32_0_0_1_1_n_n none a b (constant (F := Ideal) S128x32 .f32 0x00000000#32) (ValueIdx.ix2 p q)
      = ∑ l : Fin 10000, a (ValueIdx.ix2 l p) * b (ValueIdx.ix2 l q) := by
  rw [Ideal.matmul_constant_zero_apply,
    ← Equiv.sum_comp (ValueIdx.contrEquiv1 dot_S10000x128_S10000x32_S128x32_0_0_1_1_n_n 10000 rfl rfl).symm]
  refine Finset.sum_congr rfl fun l _ => ?_
  have hl := ValueIdx.contrEquiv1_symm_val dot_S10000x128_S10000x32_S128x32_0_0_1_1_n_n 10000 rfl rfl l
  have el : dot_S10000x128_S10000x32_S128x32_0_0_1_1_n_n.lhsIdx (ValueIdx.ix2 p q)
      ((ValueIdx.contrEquiv1 dot_S10000x128_S10000x32_S128x32_0_0_1_1_n_n 10000 rfl rfl).symm l) = ValueIdx.ix2 l p :=
    funext fun a => Fin.ext (by
      match a with
      | ⟨0, _⟩ => exact (dB_lhs0 _ _).trans hl
      | ⟨1, _⟩ => exact dB_lhs1 _ _)
  have er : dot_S10000x128_S10000x32_S128x32_0_0_1_1_n_n.rhsIdx (ValueIdx.ix2 p q)
      ((ValueIdx.contrEquiv1 dot_S10000x128_S10000x32_S128x32_0_0_1_1_n_n 10000 rfl rfl).symm l) = ValueIdx.ix2 l q :=
    funext fun a => Fin.ext (by
      match a with
      | ⟨0, _⟩ => exact (dB_rhs0 _ _).trans hl
      | ⟨1, _⟩ => exact dB_rhs1 _ _)
  rw [el, er]

-- h · P: left operand at (row, l), right at (l, column)
theorem dC_lhs1 (i : S128x16.Idx) (q : dot_S128x32_S32x16_S128x16_1_0_0_1_n_n.contr.Idx) :
    (dot_S128x32_S32x16_S128x16_1_0_0_1_n_n.lhsIdx i q 1).val = (q ⟨0, by decide⟩).val :=
  dot_S128x32_S32x16_S128x16_1_0_0_1_n_n.lhsIdx_val_of_single rfl i q
theorem dC_lhs0 (i : S128x16.Idx) (q : dot_S128x32_S32x16_S128x16_1_0_0_1_n_n.contr.Idx) :
    (dot_S128x32_S32x16_S128x16_1_0_0_1_n_n.lhsIdx i q 0).val = (i 0).val := by
  unfold DotDims.lhsIdx
  rw [dif_neg (show ¬(0 : Fin S128x32.rank) ∈ dot_S128x32_S32x16_S128x16_1_0_0_1_n_n.lhsBatch by decide),
    dif_pos (show (0 : Fin S128x32.rank) ∈ dot_S128x32_S32x16_S128x16_1_0_0_1_n_n.lhsNonContracting by decide)]
  rfl
theorem dC_rhs0 (i : S128x16.Idx) (q : dot_S128x32_S32x16_S128x16_1_0_0_1_n_n.contr.Idx) :
    (dot_S128x32_S32x16_S128x16_1_0_0_1_n_n.rhsIdx i q 0).val = (q ⟨0, by decide⟩).val :=
  dot_S128x32_S32x16_S128x16_1_0_0_1_n_n.rhsIdx_val_of_single rfl i q
theorem dC_rhs1 (i : S128x16.Idx) (q : dot_S128x32_S32x16_S128x16_1_0_0_1_n_n.contr.Idx) :
    (dot_S128x32_S32x16_S128x16_1_0_0_1_n_n.rhsIdx i q 1).val = (i 1).val := by
  unfold DotDims.rhsIdx
  rw [dif_neg (show ¬(1 : Fin S32x16.rank) ∈ dot_S128x32_S32x16_S128x16_1_0_0_1_n_n.rhsBatch by decide),
    dif_pos (show (1 : Fin S32x16.rank) ∈ dot_S128x32_S32x16_S128x16_1_0_0_1_n_n.rhsNonContracting by decide)]
  rfl

/-- The product with a 32 x 16 weight at (p, q) is the sum over l of h (p, l) times P (l, q). -/
theorem mmC_apply (a : FVec Ideal S128x32 .f32) (b : FVec Ideal S32x16 .f32) (p : Fin 128) (q : Fin 16) :
    FloatOps.matmul (F := Ideal) (φ₁ := .f32) (φ₂ := .f32) dot_S128x32_S32x16_S128x16_1_0_0_1_n_n none a b (constant (F := Ideal) S128x16 .f32 0x00000000#32) (ValueIdx.ix2 p q)
      = ∑ l : Fin 32, a (ValueIdx.ix2 p l) * b (ValueIdx.ix2 l q) := by
  rw [Ideal.matmul_constant_zero_apply,
    ← Equiv.sum_comp (ValueIdx.contrEquiv1 dot_S128x32_S32x16_S128x16_1_0_0_1_n_n 32 rfl rfl).symm]
  refine Finset.sum_congr rfl fun l _ => ?_
  have hl := ValueIdx.contrEquiv1_symm_val dot_S128x32_S32x16_S128x16_1_0_0_1_n_n 32 rfl rfl l
  have el : dot_S128x32_S32x16_S128x16_1_0_0_1_n_n.lhsIdx (ValueIdx.ix2 p q)
      ((ValueIdx.contrEquiv1 dot_S128x32_S32x16_S128x16_1_0_0_1_n_n 32 rfl rfl).symm l) = ValueIdx.ix2 p l :=
    funext fun a => Fin.ext (by
      match a with
      | ⟨0, _⟩ => exact dC_lhs0 _ _
      | ⟨1, _⟩ => exact (dC_lhs1 _ _).trans hl)
  have er : dot_S128x32_S32x16_S128x16_1_0_0_1_n_n.rhsIdx (ValueIdx.ix2 p q)
      ((ValueIdx.contrEquiv1 dot_S128x32_S32x16_S128x16_1_0_0_1_n_n 32 rfl rfl).symm l) = ValueIdx.ix2 l q :=
    funext fun a => Fin.ext (by
      match a with
      | ⟨0, _⟩ => exact (dC_rhs0 _ _).trans hl
      | ⟨1, _⟩ => exact dC_rhs1 _ _)
  rw [el, er]

/-- A 1 x 32 row broadcast down 128 rows reads the row's entry of the column. -/
theorem bcast32_apply (r : Vec Ideal S1x32 .f32) (p : Fin 128) (q : Fin 32) :
    broadcastTo S128x32 (shapeCast S1x32 r shapeCasts_S1x32_S1x32) broadcasts_S1x32_S128x32 (ValueIdx.ix2 p q)
      = r (ValueIdx.ix2 (0 : Fin 1) q) := by
  rw [shapeCast_self]
  exact broadcastTo_apply r broadcasts_S1x32_S128x32 (ValueIdx.ix2 p q) (ValueIdx.ix2 (0 : Fin 1) q) (fun a => by
    match a with
    | ⟨0, _⟩ => rfl
    | ⟨1, _⟩ => rfl)
/-- A 1 x 16 row broadcast down 128 rows reads the row's entry of the column. -/
theorem bcast16_apply (r : Vec Ideal S1x16 .f32) (p : Fin 128) (q : Fin 16) :
    broadcastTo S128x16 (shapeCast S1x16 r shapeCasts_S1x16_S1x16) broadcasts_S1x16_S128x16 (ValueIdx.ix2 p q)
      = r (ValueIdx.ix2 (0 : Fin 1) q) := by
  rw [shapeCast_self]
  exact broadcastTo_apply r broadcasts_S1x16_S128x16 (ValueIdx.ix2 p q) (ValueIdx.ix2 (0 : Fin 1) q) (fun a => by
    match a with
    | ⟨0, _⟩ => rfl
    | ⟨1, _⟩ => rfl)

/-! ## The payloads at an index -/

/-- The first payload at (p, q) is the sum over l of x (p, l) times W (l, q). -/
theorem pay1_apply (x0 : Vec Ideal S10000x128 .f32) (x1 : Vec Ideal S128x32 .f32) (p : Fin 10000) (q : Fin 32) :
    k0_pay1 (F := Ideal) x0 x1 (ValueIdx.ix2 p q) = ∑ l : Fin 128, x0 (ValueIdx.ix2 p l) * x1 (ValueIdx.ix2 l q) := by
  unfold k0_pay1
  exact mmA_apply x0 x1 p q

/-- The hidden layer at (p, q): tanh of the sum over l of x (l, p) times A (l, q), plus the bias row's entry. -/
theorem pay2_apply (x0 : Vec Ideal S10000x128 .f32) (x4 : Vec Ideal S10000x32 .f32) (x6 : Vec Ideal S1x32 .f32) (p : Fin 128) (q : Fin 32) :
    k0_pay2 (F := Ideal) x0 x4 x6 (ValueIdx.ix2 p q)
      = Ideal.tanh ((∑ l : Fin 10000, x0 (ValueIdx.ix2 l p) * x4 (ValueIdx.ix2 l q)) + x6 (ValueIdx.ix2 (0 : Fin 1) q)) := by
  unfold k0_pay2
  show Ideal.tanh (FloatOps.matmul (F := Ideal) (φ₁ := .f32) (φ₂ := .f32) dot_S10000x128_S10000x32_S128x32_0_0_1_1_n_n none x0 x4 (constant (F := Ideal) S128x32 .f32 0x00000000#32) (ValueIdx.ix2 p q)
      + broadcastTo S128x32 (shapeCast S1x32 x6 shapeCasts_S1x32_S1x32) broadcasts_S1x32_S128x32 (ValueIdx.ix2 p q)) = _
  rw [mmB_apply, bcast32_apply]

/-- An output of the attribute branch at (p, q): the sum over l of the hidden layer (p, l) times P (l, q), plus the bias row's entry. -/
theorem pay3_apply (x0 : Vec Ideal S10000x128 .f32) (x4 : Vec Ideal S10000x32 .f32) (x6 : Vec Ideal S1x32 .f32)
    (x11 : Vec Ideal S32x16 .f32) (x13 : Vec Ideal S1x16 .f32) (p : Fin 128) (q : Fin 16) :
    k0_pay3 (F := Ideal) x0 x4 x6 x11 x13 (ValueIdx.ix2 p q)
      = (∑ l : Fin 32, k0_pay2 (F := Ideal) x0 x4 x6 (ValueIdx.ix2 p l) * x11 (ValueIdx.ix2 l q)) + x13 (ValueIdx.ix2 (0 : Fin 1) q) := by
  unfold k0_pay3
  show FloatOps.matmul (F := Ideal) (φ₁ := .f32) (φ₂ := .f32) dot_S128x32_S32x16_S128x16_1_0_0_1_n_n none (k0_pay2 (F := Ideal) x0 x4 x6) x11 (constant (F := Ideal) S128x16 .f32 0x00000000#32) (ValueIdx.ix2 p q)
      + broadcastTo S128x16 (shapeCast S1x16 x13 shapeCasts_S1x16_S1x16) broadcasts_S1x16_S128x16 (ValueIdx.ix2 p q) = _
  rw [mmC_apply, bcast16_apply]
/-- The other output is the same expression of its own weight and bias row. -/
theorem pay4_apply (x0 : Vec Ideal S10000x128 .f32) (x4 : Vec Ideal S10000x32 .f32) (x6 : Vec Ideal S1x32 .f32)
    (x18 : Vec Ideal S32x16 .f32) (x20 : Vec Ideal S1x16 .f32) (p : Fin 128) (q : Fin 16) :
    k0_pay4 (F := Ideal) x0 x4 x6 x18 x20 (ValueIdx.ix2 p q)
      = (∑ l : Fin 32, k0_pay2 (F := Ideal) x0 x4 x6 (ValueIdx.ix2 p l) * x18 (ValueIdx.ix2 l q)) + x20 (ValueIdx.ix2 (0 : Fin 1) q) := by
  unfold k0_pay4
  show FloatOps.matmul (F := Ideal) (φ₁ := .f32) (φ₂ := .f32) dot_S128x32_S32x16_S128x16_1_0_0_1_n_n none (k0_pay2 (F := Ideal) x0 x4 x6) x18 (constant (F := Ideal) S128x16 .f32 0x00000000#32) (ValueIdx.ix2 p q)
      + broadcastTo S128x16 (shapeCast S1x16 x20 shapeCasts_S1x16_S1x16) broadcasts_S1x16_S128x16 (ValueIdx.ix2 p q) = _
  rw [mmC_apply, bcast16_apply]

/-! ## The payloads of arrays that ARE given matrices and rows -/

theorem pay1_spec (x0 : Vec Ideal S10000x128 .f32) (x1 : Vec Ideal S128x32 .f32) (X : Spec.M 10000 128) (W : Spec.M 128 32)
    (h0 : ∀ k j, x0 (ValueIdx.ix2 k j) = X k j) (h1 : ∀ k j, x1 (ValueIdx.ix2 k j) = W k j) (p : Fin 10000) (q : Fin 32) :
    k0_pay1 (F := Ideal) x0 x1 (ValueIdx.ix2 p q) = Spec.arr (Spec.mm X W) (ValueIdx.ix2 p q) := by
  rw [pay1_apply]
  show _ = ∑ l : Fin 128, X p l * W l q
  exact Finset.sum_congr rfl fun l _ => by rw [h0, h1]

theorem pay2_spec (x0 : Vec Ideal S10000x128 .f32) (x4 : Vec Ideal S10000x32 .f32) (x6 : Vec Ideal S1x32 .f32)
    (X : Spec.M 10000 128) (A : Spec.M 10000 32) (b : Fin 32 → EReal)
    (h0 : ∀ k j, x0 (ValueIdx.ix2 k j) = X k j) (h4 : ∀ k j, x4 (ValueIdx.ix2 k j) = A k j) (h6 : ∀ j, x6 (ValueIdx.ix2 (0 : Fin 1) j) = b j)
    (p : Fin 128) (q : Fin 32) :
    k0_pay2 (F := Ideal) x0 x4 x6 (ValueIdx.ix2 p q) = Spec.hidA X A b p q := by
  rw [pay2_apply, h6]
  have hs : (∑ l : Fin 10000, x0 (ValueIdx.ix2 l p) * x4 (ValueIdx.ix2 l q)) = ∑ l : Fin 10000, X l p * A l q :=
    Finset.sum_congr rfl fun l _ => by rw [h0, h4]
  rw [hs]
  rfl

theorem pay3_spec (x0 : Vec Ideal S10000x128 .f32) (x4 : Vec Ideal S10000x32 .f32) (x6 : Vec Ideal S1x32 .f32)
    (x11 : Vec Ideal S32x16 .f32) (x13 : Vec Ideal S1x16 .f32)
    (X : Spec.M 10000 128) (A : Spec.M 10000 32) (b : Fin 32 → EReal) (P : Spec.M 32 16) (r : Fin 16 → EReal)
    (h0 : ∀ k j, x0 (ValueIdx.ix2 k j) = X k j) (h4 : ∀ k j, x4 (ValueIdx.ix2 k j) = A k j) (h6 : ∀ j, x6 (ValueIdx.ix2 (0 : Fin 1) j) = b j)
    (hP : ∀ k j, x11 (ValueIdx.ix2 k j) = P k j) (hr : ∀ j, x13 (ValueIdx.ix2 (0 : Fin 1) j) = r j) (p : Fin 128) (q : Fin 16) :
    k0_pay3 (F := Ideal) x0 x4 x6 x11 x13 (ValueIdx.ix2 p q) = Spec.arr (Spec.addRow (Spec.mm (Spec.hidA X A b) P) r) (ValueIdx.ix2 p q) := by
  rw [pay3_apply, hr]
  have hs : (∑ l : Fin 32, k0_pay2 (F := Ideal) x0 x4 x6 (ValueIdx.ix2 p l) * x11 (ValueIdx.ix2 l q))
      = ∑ l : Fin 32, Spec.hidA X A b p l * P l q :=
    Finset.sum_congr rfl fun l _ => by rw [pay2_spec x0 x4 x6 X A b h0 h4 h6 p l, hP]
  rw [hs]
  rfl

theorem pay4_spec (x0 : Vec Ideal S10000x128 .f32) (x4 : Vec Ideal S10000x32 .f32) (x6 : Vec Ideal S1x32 .f32)
    (x18 : Vec Ideal S32x16 .f32) (x20 : Vec Ideal S1x16 .f32)
    (X : Spec.M 10000 128) (A : Spec.M 10000 32) (b : Fin 32 → EReal) (P : Spec.M 32 16) (r : Fin 16 → EReal)
    (h0 : ∀ k j, x0 (ValueIdx.ix2 k j) = X k j) (h4 : ∀ k j, x4 (ValueIdx.ix2 k j) = A k j) (h6 : ∀ j, x6 (ValueIdx.ix2 (0 : Fin 1) j) = b j)
    (hP : ∀ k j, x18 (ValueIdx.ix2 k j) = P k j) (hr : ∀ j, x20 (ValueIdx.ix2 (0 : Fin 1) j) = r j) (p : Fin 128) (q : Fin 16) :
    k0_pay4 (F := Ideal) x0 x4 x6 x18 x20 (ValueIdx.ix2 p q) = Spec.arr (Spec.addRow (Spec.mm (Spec.hidA X A b) P) r) (ValueIdx.ix2 p q) := by
  rw [pay4_apply, hr]
  have hs : (∑ l : Fin 32, k0_pay2 (F := Ideal) x0 x4 x6 (ValueIdx.ix2 p l) * x18 (ValueIdx.ix2 l q))
      = ∑ l : Fin 32, Spec.hidA X A b p l * P l q :=
    Finset.sum_congr rfl fun l _ => by rw [pay2_spec x0 x4 x6 X A b h0 h4 h6 p l, hP]
  rw [hs]
  rfl

/-! ## The whole-array windows: each input block is its array -/

theorem iblk0_0_apply (c : Dev nD) (t : Fin cfg0.N) (p : Fin 10000) (q : Fin 128) :
    iblk0 (F := Ideal) V c 0 t (ValueIdx.ix2 p q) = Spec.mat (V c main_arg0) p q := by
  show V c main_arg0 (((cfg0.win 0).blk t).view.emb (ValueIdx.ix2 p q)) = V c main_arg0 (ValueIdx.ix2 p q)
  refine congrArg (V c main_arg0) (funext fun a => Fin.ext ?_)
  match a with
  | ⟨0, _⟩ => show 0 * 10000 + 1 * p.val = p.val; omega
  | ⟨1, _⟩ => show 0 * 128 + 1 * q.val = q.val; omega
theorem iblk0_1_apply (c : Dev nD) (t : Fin cfg0.N) (p : Fin 128) (q : Fin 32) :
    iblk0 (F := Ideal) V c 1 t (ValueIdx.ix2 p q) = Spec.mat (V c main_arg2) p q := by
  show V c main_arg2 (((cfg0.win 1).blk t).view.emb (ValueIdx.ix2 p q)) = V c main_arg2 (ValueIdx.ix2 p q)
  refine congrArg (V c main_arg2) (funext fun a => Fin.ext ?_)
  match a with
  | ⟨0, _⟩ => show 0 * 128 + 1 * p.val = p.val; omega
  | ⟨1, _⟩ => show 0 * 32 + 1 * q.val = q.val; omega
theorem iblk0_2_apply (c : Dev nD) (t : Fin cfg0.N) (p : Fin 10000) (q : Fin 32) :
    iblk0 (F := Ideal) V c 2 t (ValueIdx.ix2 p q) = Spec.mat (V c main_arg5) p q := by
  show V c main_arg5 (((cfg0.win 2).blk t).view.emb (ValueIdx.ix2 p q)) = V c main_arg5 (ValueIdx.ix2 p q)
  refine congrArg (V c main_arg5) (funext fun a => Fin.ext ?_)
  match a with
  | ⟨0, _⟩ => show 0 * 10000 + 1 * p.val = p.val; omega
  | ⟨1, _⟩ => show 0 * 32 + 1 * q.val = q.val; omega
theorem iblk0_3_apply (c : Dev nD) (t : Fin cfg0.N) (q : Fin 32) :
    iblk0 (F := Ideal) V c 3 t (ValueIdx.ix2 (0 : Fin 1) q) = rowOf1 (V c main_v0) q := by
  show V c main_v0 (((cfg0.win 3).blk t).view.emb (ValueIdx.ix2 (0 : Fin 1) q)) = V c main_v0 (ValueIdx.ix2 (0 : Fin 1) q)
  refine congrArg (V c main_v0) (funext fun a => Fin.ext ?_)
  match a with
  | ⟨0, _⟩ => rfl
  | ⟨1, _⟩ => show 0 * 32 + 1 * q.val = q.val; omega
theorem iblk0_4_apply (c : Dev nD) (t : Fin cfg0.N) (p : Fin 32) (q : Fin 16) :
    iblk0 (F := Ideal) V c 4 t (ValueIdx.ix2 p q) = Spec.mat (V c main_arg7) p q := by
  show V c main_arg7 (((cfg0.win 4).blk t).view.emb (ValueIdx.ix2 p q)) = V c main_arg7 (ValueIdx.ix2 p q)
  refine congrArg (V c main_arg7) (funext fun a => Fin.ext ?_)
  match a with
  | ⟨0, _⟩ => show 0 * 32 + 1 * p.val = p.val; omega
  | ⟨1, _⟩ => show 0 * 16 + 1 * q.val = q.val; omega
theorem iblk0_5_apply (c : Dev nD) (t : Fin cfg0.N) (q : Fin 16) :
    iblk0 (F := Ideal) V c 5 t (ValueIdx.ix2 (0 : Fin 1) q) = rowOf1 (V c main_v1) q := by
  show V c main_v1 (((cfg0.win 5).blk t).view.emb (ValueIdx.ix2 (0 : Fin 1) q)) = V c main_v1 (ValueIdx.ix2 (0 : Fin 1) q)
  refine congrArg (V c main_v1) (funext fun a => Fin.ext ?_)
  match a with
  | ⟨0, _⟩ => rfl
  | ⟨1, _⟩ => show 0 * 16 + 1 * q.val = q.val; omega
theorem iblk0_6_apply (c : Dev nD) (t : Fin cfg0.N) (p : Fin 32) (q : Fin 16) :
    iblk0 (F := Ideal) V c 6 t (ValueIdx.ix2 p q) = Spec.mat (V c main_arg9) p q := by
  show V c main_arg9 (((cfg0.win 6).blk t).view.emb (ValueIdx.ix2 p q)) = V c main_arg9 (ValueIdx.ix2 p q)
  refine congrArg (V c main_arg9) (funext fun a => Fin.ext ?_)
  match a with
  | ⟨0, _⟩ => show 0 * 32 + 1 * p.val = p.val; omega
  | ⟨1, _⟩ => show 0 * 16 + 1 * q.val = q.val; omega
theorem iblk0_7_apply (c : Dev nD) (t : Fin cfg0.N) (q : Fin 16) :
    iblk0 (F := Ideal) V c 7 t (ValueIdx.ix2 (0 : Fin 1) q) = rowOf1 (V c main_v2) q := by
  show V c main_v2 (((cfg0.win 7).blk t).view.emb (ValueIdx.ix2 (0 : Fin 1) q)) = V c main_v2 (ValueIdx.ix2 (0 : Fin 1) q)
  refine congrArg (V c main_v2) (funext fun a => Fin.ext ?_)
  match a with
  | ⟨0, _⟩ => rfl
  | ⟨1, _⟩ => show 0 * 16 + 1 * q.val = q.val; omega

/-! ## What the one point writes back -/

theorem flushed0_8 (c : Dev nD) (t : Fin cfg0.N) :
    (dat0 (F := Ideal) V c).flushed 8 t
      = ((cfg0.win 8).blk t).view.read (Elt Ideal) (Spec.arr (Spec.mm (Spec.mat (V c main_arg0)) (Spec.mat (V c main_arg2)))) := by
  show (cfg0.win 8).cut (cfg0.grid.coords t) ((dat0 (F := Ideal) V c).after 8 t) = _
  rw [after0_8]
  unfold out0_8
  rw [View.canon_unit_zero hz0]
  simp only [View.ld_unit_zero (S := S10000x128) hz0, View.ld_unit_zero (S := S128x32) hz0]
  funext y
  obtain ⟨p, q, rfl⟩ : ∃ (p : Fin 10000) (q : Fin 32), y = ValueIdx.ix2 p q := ⟨y 0, y 1, ValueIdx.eq_ix2 y⟩
  show k0_pay1 (F := Ideal) (iblk0 V c 0 t) (iblk0 V c 1 t) (ValueIdx.ix2 p q)
    = Spec.arr (Spec.mm (Spec.mat (V c main_arg0)) (Spec.mat (V c main_arg2))) (((cfg0.win 8).blk t).view.emb (ValueIdx.ix2 p q))
  have he : ((cfg0.win 8).blk t).view.emb (ValueIdx.ix2 p q) = ValueIdx.ix2 p q := by
    funext a; apply Fin.ext
    match a with
    | ⟨0, _⟩ => show 0 * 10000 + 1 * p.val = p.val; omega
    | ⟨1, _⟩ => show 0 * 32 + 1 * q.val = q.val; omega
  rw [he]
  exact pay1_spec (iblk0 V c 0 t) (iblk0 V c 1 t) (Spec.mat (V c main_arg0)) (Spec.mat (V c main_arg2))
    (fun k j => iblk0_0_apply V c t k j) (fun k j => iblk0_1_apply V c t k j) p q

theorem flushed0_9 (c : Dev nD) (t : Fin cfg0.N) :
    (dat0 (F := Ideal) V c).flushed 9 t
      = ((cfg0.win 9).blk t).view.read (Elt Ideal)
          (Spec.arr (Spec.addRow (Spec.mm (Spec.hidA (Spec.mat (V c main_arg0)) (Spec.mat (V c main_arg5)) (rowOf1 (V c main_v0))) (Spec.mat (V c main_arg7))) (rowOf1 (V c main_v1)))) := by
  show (cfg0.win 9).cut (cfg0.grid.coords t) ((dat0 (F := Ideal) V c).after 9 t) = _
  rw [after0_9]
  unfold out0_9
  rw [View.canon_unit_zero hz0]
  simp only [View.ld_unit_zero (S := S10000x128) hz0, View.ld_unit_zero (S := S10000x32) hz0, View.ld_unit_zero (S := S1x32) hz0,
    View.ld_unit_zero (S := S32x16) hz0, View.ld_unit_zero (S := S1x16) hz0]
  funext y
  obtain ⟨p, q, rfl⟩ : ∃ (p : Fin 128) (q : Fin 16), y = ValueIdx.ix2 p q := ⟨y 0, y 1, ValueIdx.eq_ix2 y⟩
  show k0_pay3 (F := Ideal) (iblk0 V c 0 t) (iblk0 V c 2 t) (iblk0 V c 3 t) (iblk0 V c 4 t) (iblk0 V c 5 t) (ValueIdx.ix2 p q)
    = Spec.arr (Spec.addRow (Spec.mm (Spec.hidA (Spec.mat (V c main_arg0)) (Spec.mat (V c main_arg5)) (rowOf1 (V c main_v0))) (Spec.mat (V c main_arg7))) (rowOf1 (V c main_v1))) (((cfg0.win 9).blk t).view.emb (ValueIdx.ix2 p q))
  have he : ((cfg0.win 9).blk t).view.emb (ValueIdx.ix2 p q) = ValueIdx.ix2 p q := by
    funext a; apply Fin.ext
    match a with
    | ⟨0, _⟩ => show 0 * 128 + 1 * p.val = p.val; omega
    | ⟨1, _⟩ => show 0 * 16 + 1 * q.val = q.val; omega
  rw [he]
  exact pay3_spec (iblk0 V c 0 t) (iblk0 V c 2 t) (iblk0 V c 3 t) (iblk0 V c 4 t) (iblk0 V c 5 t)
    (Spec.mat (V c main_arg0)) (Spec.mat (V c main_arg5)) (rowOf1 (V c main_v0)) (Spec.mat (V c main_arg7)) (rowOf1 (V c main_v1))
    (fun k j => iblk0_0_apply V c t k j) (fun k j => iblk0_2_apply V c t k j) (fun j => iblk0_3_apply V c t j)
    (fun k j => iblk0_4_apply V c t k j) (fun j => iblk0_5_apply V c t j) p q

theorem flushed0_10 (c : Dev nD) (t : Fin cfg0.N) :
    (dat0 (F := Ideal) V c).flushed 10 t
      = ((cfg0.win 10).blk t).view.read (Elt Ideal)
          (Spec.arr (Spec.addRow (Spec.mm (Spec.hidA (Spec.mat (V c main_arg0)) (Spec.mat (V c main_arg5)) (rowOf1 (V c main_v0))) (Spec.mat (V c main_arg9))) (rowOf1 (V c main_v2)))) := by
  show (cfg0.win 10).cut (cfg0.grid.coords t) ((dat0 (F := Ideal) V c).after 10 t) = _
  rw [after0_10]
  unfold out0_10
  rw [View.canon_unit_zero hz0]
  simp only [View.ld_unit_zero (S := S10000x128) hz0, View.ld_unit_zero (S := S10000x32) hz0, View.ld_unit_zero (S := S1x32) hz0,
    View.ld_unit_zero (S := S32x16) hz0, View.ld_unit_zero (S := S1x16) hz0]
  funext y
  obtain ⟨p, q, rfl⟩ : ∃ (p : Fin 128) (q : Fin 16), y = ValueIdx.ix2 p q := ⟨y 0, y 1, ValueIdx.eq_ix2 y⟩
  show k0_pay4 (F := Ideal) (iblk0 V c 0 t) (iblk0 V c 2 t) (iblk0 V c 3 t) (iblk0 V c 6 t) (iblk0 V c 7 t) (ValueIdx.ix2 p q)
    = Spec.arr (Spec.addRow (Spec.mm (Spec.hidA (Spec.mat (V c main_arg0)) (Spec.mat (V c main_arg5)) (rowOf1 (V c main_v0))) (Spec.mat (V c main_arg9))) (rowOf1 (V c main_v2))) (((cfg0.win 10).blk t).view.emb (ValueIdx.ix2 p q))
  have he : ((cfg0.win 10).blk t).view.emb (ValueIdx.ix2 p q) = ValueIdx.ix2 p q := by
    funext a; apply Fin.ext
    match a with
    | ⟨0, _⟩ => show 0 * 128 + 1 * p.val = p.val; omega
    | ⟨1, _⟩ => show 0 * 16 + 1 * q.val = q.val; omega
  rw [he]
  exact pay4_spec (iblk0 V c 0 t) (iblk0 V c 2 t) (iblk0 V c 3 t) (iblk0 V c 6 t) (iblk0 V c 7 t)
    (Spec.mat (V c main_arg0)) (Spec.mat (V c main_arg5)) (rowOf1 (V c main_v0)) (Spec.mat (V c main_arg9)) (rowOf1 (V c main_v2))
    (fun k j => iblk0_0_apply V c t k j) (fun k j => iblk0_2_apply V c t k j) (fun j => iblk0_3_apply V c t j)
    (fun k j => iblk0_6_apply V c t k j) (fun j => iblk0_7_apply V c t j) p q

/-! ## The one point's block covers the array -/

/-- An index of output 8's array is in the one point's block iff each coordinate is in the block's range. -/
theorem mem_blk0_8 (t : Fin cfg0.N) (i : S10000x32.Idx) :
    i ∈ ((cfg0.win 8).blk t).view.set
      ↔ ∀ a : Fin 2, win0_8.index t a * S10000x32.size a ≤ (i a).val ∧ (i a).val < win0_8.index t a * S10000x32.size a + S10000x32.size a := by
  show i ∈ ((View.whole main_v3_0).slice (win0_8.rect t)).set ↔ _
  rw [View.set_slice_whole, Rect.mem_set_unit]
  exact Iff.rfl
/-- The one point's block is the whole array. -/
theorem covered0_8 (i : S10000x32.Idx) : ∃ t : Fin cfg0.N, (cfg0.win 8).flush t = true ∧ i ∈ ((cfg0.win 8).blk t).view.set := by
  refine ⟨t0_0, flush0_8 t0_0, ?_⟩
  rw [mem_blk0_8]
  intro a
  have h0 := ValueIdx.idx2_lt0 i
  have h1 := ValueIdx.idx2_lt1 i
  match a with
  | ⟨0, _⟩ => show 0 * 10000 ≤ (i 0).val ∧ (i 0).val < 0 * 10000 + 10000; omega
  | ⟨1, _⟩ => show 0 * 32 ≤ (i 1).val ∧ (i 1).val < 0 * 32 + 32; omega
/-- An index of output 9's array is in the one point's block iff each coordinate is in the block's range. -/
theorem mem_blk0_9 (t : Fin cfg0.N) (i : S128x16.Idx) :
    i ∈ ((cfg0.win 9).blk t).view.set
      ↔ ∀ a : Fin 2, win0_9.index t a * S128x16.size a ≤ (i a).val ∧ (i a).val < win0_9.index t a * S128x16.size a + S128x16.size a := by
  show i ∈ ((View.whole main_v3_1).slice (win0_9.rect t)).set ↔ _
  rw [View.set_slice_whole, Rect.mem_set_unit]
  exact Iff.rfl
/-- The one point's block is the whole array. -/
theorem covered0_9 (i : S128x16.Idx) : ∃ t : Fin cfg0.N, (cfg0.win 9).flush t = true ∧ i ∈ ((cfg0.win 9).blk t).view.set := by
  refine ⟨t0_0, flush0_9 t0_0, ?_⟩
  rw [mem_blk0_9]
  intro a
  have h0 := ValueIdx.idx2_lt0 i
  have h1 := ValueIdx.idx2_lt1 i
  match a with
  | ⟨0, _⟩ => show 0 * 128 ≤ (i 0).val ∧ (i 0).val < 0 * 128 + 128; omega
  | ⟨1, _⟩ => show 0 * 16 ≤ (i 1).val ∧ (i 1).val < 0 * 16 + 16; omega
/-- An index of output 10's array is in the one point's block iff each coordinate is in the block's range. -/
theorem mem_blk0_10 (t : Fin cfg0.N) (i : S128x16.Idx) :
    i ∈ ((cfg0.win 10).blk t).view.set
      ↔ ∀ a : Fin 2, win0_10.index t a * S128x16.size a ≤ (i a).val ∧ (i a).val < win0_10.index t a * S128x16.size a + S128x16.size a := by
  show i ∈ ((View.whole main_v3_2).slice (win0_10.rect t)).set ↔ _
  rw [View.set_slice_whole, Rect.mem_set_unit]
  exact Iff.rfl
/-- The one point's block is the whole array. -/
theorem covered0_10 (i : S128x16.Idx) : ∃ t : Fin cfg0.N, (cfg0.win 10).flush t = true ∧ i ∈ ((cfg0.win 10).blk t).view.set := by
  refine ⟨t0_0, flush0_10 t0_0, ?_⟩
  rw [mem_blk0_10]
  intro a
  have h0 := ValueIdx.idx2_lt0 i
  have h1 := ValueIdx.idx2_lt1 i
  match a with
  | ⟨0, _⟩ => show 0 * 128 ≤ (i 0).val ∧ (i 0).val < 0 * 128 + 128; omega
  | ⟨1, _⟩ => show 0 * 16 ≤ (i 1).val ∧ (i 1).val < 0 * 16 + 16; omega

end Prelude

theorem final0_8 (c : Dev nD) :
    (dat0 (F := Ideal) V c).arrAt 8 cfg0.N
      = Spec.arr (Spec.mm (Spec.mat (V c main_arg0)) (Spec.mat (V c main_arg2))) := by
  exact (dat0 (F := Ideal) V c).arrAt_eq_of_cover 8 _ (fun t _ => Prelude.flushed0_8 V c t) Prelude.covered0_8

theorem final0_9 (c : Dev nD) :
    (dat0 (F := Ideal) V c).arrAt 9 cfg0.N
      = Spec.arr (Spec.addRow (Spec.mm (Spec.hidA (Spec.mat (V c main_arg0)) (Spec.mat (V c main_arg5)) (rowOf1 (V c main_v0))) (Spec.mat (V c main_arg7)))
          (rowOf1 (V c main_v1))) := by
  exact (dat0 (F := Ideal) V c).arrAt_eq_of_cover 9 _ (fun t _ => Prelude.flushed0_9 V c t) Prelude.covered0_9

theorem final0_10 (c : Dev nD) :
    (dat0 (F := Ideal) V c).arrAt 10 cfg0.N
      = Spec.arr (Spec.addRow (Spec.mm (Spec.hidA (Spec.mat (V c main_arg0)) (Spec.mat (V c main_arg5)) (rowOf1 (V c main_v0))) (Spec.mat (V c main_arg9)))
          (rowOf1 (V c main_v2))) := by
  exact (dat0 (F := Ideal) V c).arrAt_eq_of_cover 10 _ (fun t _ => Prelude.flushed0_10 V c t) Prelude.covered0_10

end Cert.KernelIdeal.KV

end
-- ==== Proof.KI.Final1.lean ====
/-
  What the second pallas_call leaves in its output array, as mathematics: the 25 row blocks the grid points
  write tile the 10000 rows, and block i holds rows [400 i, 400 i + 400) of max(adj · xw, 0) · w, where adj,
  xw and w are the three arrays the region found.  So the whole array is that one product.
-/
import proofs.«173199_g7215545057700_cont_sun_m_658_2_alg».proof.Proof.KI.Region1
import proofs.«173199_g7215545057700_cont_sun_m_658_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KV

open Idealize.ShloMosaic Idealize.ShloMosaic.TcCoe Idealize.SL.Sem
open Idealize.ShloMosaic.Pipeline (Dat)
open Cert.KernelIdeal Cert.KernelIdeal.Gen Cert.KernelIdeal.Fr

-- the TensorCore's buffer contents when the region is entered, at the exact instance
variable (V : (c : Dev nD) → (b : Ref sig .tc) → Buf (Elt Ideal) ((c : Thread nD τ).loc b))

namespace Pass1

/-! ## The two products' operand indices, axis by axis -/

theorem adjXw_lhs_0 (i : S400x32.Idx) (q : dot_S400x10000_S10000x32_S400x32_1_0_0_1_n_n.contr.Idx) :
    (dot_S400x10000_S10000x32_S400x32_1_0_0_1_n_n.lhsIdx i q 0).val = (i 0).val := by
  unfold DotDims.lhsIdx
  rw [dif_neg (show ¬(0 : Fin S400x10000.rank) ∈ dot_S400x10000_S10000x32_S400x32_1_0_0_1_n_n.lhsBatch by decide), dif_pos (show (0 : Fin S400x10000.rank) ∈ dot_S400x10000_S10000x32_S400x32_1_0_0_1_n_n.lhsNonContracting by decide)]
  rfl
theorem adjXw_lhs_1 (i : S400x32.Idx) (q : dot_S400x10000_S10000x32_S400x32_1_0_0_1_n_n.contr.Idx) :
    (dot_S400x10000_S10000x32_S400x32_1_0_0_1_n_n.lhsIdx i q 1).val = (q ⟨0, by decide⟩).val :=
  dot_S400x10000_S10000x32_S400x32_1_0_0_1_n_n.lhsIdx_val_of_single rfl i q
theorem adjXw_rhs_0 (i : S400x32.Idx) (q : dot_S400x10000_S10000x32_S400x32_1_0_0_1_n_n.contr.Idx) :
    (dot_S400x10000_S10000x32_S400x32_1_0_0_1_n_n.rhsIdx i q 0).val = (q ⟨0, by decide⟩).val :=
  dot_S400x10000_S10000x32_S400x32_1_0_0_1_n_n.rhsIdx_val_of_single rfl i q
theorem adjXw_rhs_1 (i : S400x32.Idx) (q : dot_S400x10000_S10000x32_S400x32_1_0_0_1_n_n.contr.Idx) :
    (dot_S400x10000_S10000x32_S400x32_1_0_0_1_n_n.rhsIdx i q 1).val = (i 1).val := by
  unfold DotDims.rhsIdx
  rw [dif_neg (show ¬(1 : Fin S10000x32.rank) ∈ dot_S400x10000_S10000x32_S400x32_1_0_0_1_n_n.rhsBatch by decide), dif_pos (show (1 : Fin S10000x32.rank) ∈ dot_S400x10000_S10000x32_S400x32_1_0_0_1_n_n.rhsNonContracting by decide)]
  rfl

theorem hidW_lhs_0 (i : S400x32.Idx) (q : dot_S400x32_S32x32_S400x32_1_0_0_1_n_n.contr.Idx) :
    (dot_S400x32_S32x32_S400x32_1_0_0_1_n_n.lhsIdx i q 0).val = (i 0).val := by
  unfold DotDims.lhsIdx
  rw [dif_neg (show ¬(0 : Fin S400x32.rank) ∈ dot_S400x32_S32x32_S400x32_1_0_0_1_n_n.lhsBatch by decide), dif_pos (show (0 : Fin S400x32.rank) ∈ dot_S400x32_S32x32_S400x32_1_0_0_1_n_n.lhsNonContracting by decide)]
  rfl
theorem hidW_lhs_1 (i : S400x32.Idx) (q : dot_S400x32_S32x32_S400x32_1_0_0_1_n_n.contr.Idx) :
    (dot_S400x32_S32x32_S400x32_1_0_0_1_n_n.lhsIdx i q 1).val = (q ⟨0, by decide⟩).val :=
  dot_S400x32_S32x32_S400x32_1_0_0_1_n_n.lhsIdx_val_of_single rfl i q
theorem hidW_rhs_0 (i : S400x32.Idx) (q : dot_S400x32_S32x32_S400x32_1_0_0_1_n_n.contr.Idx) :
    (dot_S400x32_S32x32_S400x32_1_0_0_1_n_n.rhsIdx i q 0).val = (q ⟨0, by decide⟩).val :=
  dot_S400x32_S32x32_S400x32_1_0_0_1_n_n.rhsIdx_val_of_single rfl i q
theorem hidW_rhs_1 (i : S400x32.Idx) (q : dot_S400x32_S32x32_S400x32_1_0_0_1_n_n.contr.Idx) :
    (dot_S400x32_S32x32_S400x32_1_0_0_1_n_n.rhsIdx i q 1).val = (i 1).val := by
  unfold DotDims.rhsIdx
  rw [dif_neg (show ¬(1 : Fin S32x32.rank) ∈ dot_S400x32_S32x32_S400x32_1_0_0_1_n_n.rhsBatch by decide), dif_pos (show (1 : Fin S32x32.rank) ∈ dot_S400x32_S32x32_S400x32_1_0_0_1_n_n.rhsNonContracting by decide)]
  rfl

/-- The first product into the zero accumulator, at row p and column l of the block. -/
theorem adjXw_apply (x0 : FVec Ideal S400x10000 .f32) (x1 : FVec Ideal S10000x32 .f32) (p : Fin 400) (l : Fin 32) :
    FloatOps.matmul dot_S400x10000_S10000x32_S400x32_1_0_0_1_n_n none x0 x1 (constant (F := Ideal) S400x32 .f32 0x00000000#32) (ValueIdx.ix2 p l)
      = ∑ k : Fin 10000, x0 (ValueIdx.ix2 p k) * x1 (ValueIdx.ix2 k l) := by
  rw [Ideal.matmul_constant_zero_apply, ← Equiv.sum_comp (ValueIdx.contrEquiv1 dot_S400x10000_S10000x32_S400x32_1_0_0_1_n_n 10000 rfl rfl).symm]
  refine Finset.sum_congr rfl fun k _ => ?_
  have hk := ValueIdx.contrEquiv1_symm_val dot_S400x10000_S10000x32_S400x32_1_0_0_1_n_n 10000 rfl rfl k
  have el : dot_S400x10000_S10000x32_S400x32_1_0_0_1_n_n.lhsIdx (ValueIdx.ix2 p l) ((ValueIdx.contrEquiv1 dot_S400x10000_S10000x32_S400x32_1_0_0_1_n_n 10000 rfl rfl).symm k) = ValueIdx.ix2 p k := funext fun a => Fin.ext (by
    match a with
    | ⟨0, _⟩ => exact adjXw_lhs_0 _ _
    | ⟨1, _⟩ => exact (adjXw_lhs_1 _ _).trans hk)
  have er : dot_S400x10000_S10000x32_S400x32_1_0_0_1_n_n.rhsIdx (ValueIdx.ix2 p l) ((ValueIdx.contrEquiv1 dot_S400x10000_S10000x32_S400x32_1_0_0_1_n_n 10000 rfl rfl).symm k) = ValueIdx.ix2 k l := funext fun a => Fin.ext (by
    match a with
    | ⟨0, _⟩ => exact (adjXw_rhs_0 _ _).trans hk
    | ⟨1, _⟩ => exact adjXw_rhs_1 _ _)
  rw [el, er]

/-- The body's stored value at row p, column q of the block: the sum over l of max(first product at (p, l), 0)
    times the weight at (l, q). -/
theorem hidPay_apply (x0 : Vec Ideal S400x10000 .f32) (x1 : Vec Ideal S10000x32 .f32) (x2 : Vec Ideal S32x32 .f32) (p : Fin 400) (q : Fin 32) :
    k1_pay1 (F := Ideal) x0 x1 x2 (ValueIdx.ix2 p q)
      = ∑ l : Fin 32, max (∑ k : Fin 10000, x0 (ValueIdx.ix2 p k) * x1 (ValueIdx.ix2 k l)) 0 * x2 (ValueIdx.ix2 l q) := by
  unfold k1_pay1
  rw [shapeCast_self, shapeCast_self]
  simp only [matmul]
  rw [Ideal.matmul_constant_zero_apply, ← Equiv.sum_comp (ValueIdx.contrEquiv1 dot_S400x32_S32x32_S400x32_1_0_0_1_n_n 32 rfl rfl).symm]
  refine Finset.sum_congr rfl fun l _ => ?_
  have hl := ValueIdx.contrEquiv1_symm_val dot_S400x32_S32x32_S400x32_1_0_0_1_n_n 32 rfl rfl l
  have el : dot_S400x32_S32x32_S400x32_1_0_0_1_n_n.lhsIdx (ValueIdx.ix2 p q) ((ValueIdx.contrEquiv1 dot_S400x32_S32x32_S400x32_1_0_0_1_n_n 32 rfl rfl).symm l) = ValueIdx.ix2 p l := funext fun a => Fin.ext (by
    match a with
    | ⟨0, _⟩ => exact hidW_lhs_0 _ _
    | ⟨1, _⟩ => exact (hidW_lhs_1 _ _).trans hl)
  have er : dot_S400x32_S32x32_S400x32_1_0_0_1_n_n.rhsIdx (ValueIdx.ix2 p q) ((ValueIdx.contrEquiv1 dot_S400x32_S32x32_S400x32_1_0_0_1_n_n 32 rfl rfl).symm l) = ValueIdx.ix2 l q := funext fun a => Fin.ext (by
    match a with
    | ⟨0, _⟩ => exact (hidW_rhs_0 _ _).trans hl
    | ⟨1, _⟩ => exact hidW_rhs_1 _ _)
  rw [el, er]
  refine congrArg (· * x2 (ValueIdx.ix2 l q)) ?_
  show max (FloatOps.matmul dot_S400x10000_S10000x32_S400x32_1_0_0_1_n_n none x0 x1 (constant (F := Ideal) S400x32 .f32 0x00000000#32) (ValueIdx.ix2 p l))
      (Ideal.ofBits .f32 0x00000000#32) = _
  exact congrArg₂ max (adjXw_apply x0 x1 p l) Ideal.ofBits_zero_f32

/-! ## From the blocks to the array -/

/-- The three arrays the region finds, at their literal types. -/
abbrev adjArr (c : Dev nD) : S10000x10000.Idx → EReal := V c main_arg1
abbrev xwArr (c : Dev nD) : S10000x32.Idx → EReal := V c main_v3_0
abbrev wArr (c : Dev nD) : S32x32.Idx → EReal := V c main_v4

theorem zeroOff : (![0, 0] : Fin 2 → Nat) = fun _ => 0 := funext fun a => match a with | ⟨0, _⟩ => rfl | ⟨1, _⟩ => rfl

/-- The printed index maps over the grid: the adjacency and the output move down the rows with the point, the
    two other inputs stay at the origin. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of max(adj · xw, 0) · w. -/
theorem flushed1_eq (c : Dev nD) (t : Fin cfg1.N) :
    (dat1 (F := Ideal) V c).flushed 3 t
      = ((cfg1.win 3).blk t).view.read (Elt Ideal) (Spec.arr (Spec.mm (Spec.relu (Spec.mm (Spec.mat (V c main_arg1)) (Spec.mat (V c main_v3_0)))) (Spec.mat (V c main_v4)))) := by
  show (cfg1.win 3).cut (grid1.coords t) ((dat1 (F := Ideal) V c).after 3 t) = _
  rw [after1_3]
  unfold out1_3
  rw [View.canon_unit_zero zeroOff]
  simp only [View.ld_unit_zero (S := S400x10000) zeroOff, View.ld_unit_zero (S := S10000x32) zeroOff, View.ld_unit_zero (S := S32x32) zeroOff]
  obtain ⟨e0, e1, e2, e3, e4, e5, e6, e7⟩ := blockIdx1 t
  funext j
  obtain ⟨p, q, rfl⟩ : ∃ (p : Fin 400) (q : Fin 32), j = ValueIdx.ix2 p q := ⟨j 0, j 1, ValueIdx.eq_ix2 j⟩
  refine (hidPay_apply (iblk1 (F := Ideal) V c 0 t) (iblk1 (F := Ideal) V c 1 t) (iblk1 (F := Ideal) V c 2 t) p q).trans ?_
  have ht : t.val < 25 := t.isLt
  show _ = ∑ l : Fin 32, max (∑ k : Fin 10000, adjArr V c (ValueIdx.ix2 ((((cfg1.win 3).blk t).view.emb (ValueIdx.ix2 p q)) 0) k) * xwArr V c (ValueIdx.ix2 k l)) 0
      * wArr V c (ValueIdx.ix2 l ((((cfg1.win 3).blk t).view.emb (ValueIdx.ix2 p q)) 1))
  have hA : ∀ k : Fin 10000, iblk1 (F := Ideal) V c 0 t (ValueIdx.ix2 p k) = adjArr V c (ValueIdx.ix2 ((((cfg1.win 3).blk t).view.emb (ValueIdx.ix2 p q)) 0) k) := fun k => by
    show adjArr V c (((cfg1.win 0).blk t).view.emb (ValueIdx.ix2 p k)) = _
    refine congrArg _ (funext fun a => Fin.ext ?_)
    match a with
    | ⟨0, _⟩ => show win1_0.index t (0 : Fin 2) * 400 + 1 * p.val = win1_3.index t (0 : Fin 2) * 400 + 1 * p.val; omega
    | ⟨1, _⟩ => show win1_0.index t (1 : Fin 2) * 10000 + 1 * k.val = k.val; omega
  have hB : ∀ (k : Fin 10000) (l : Fin 32), iblk1 (F := Ideal) V c 1 t (ValueIdx.ix2 k l) = xwArr V c (ValueIdx.ix2 k l) := fun k l => by
    show xwArr V c (((cfg1.win 1).blk t).view.emb (ValueIdx.ix2 k l)) = _
    refine congrArg _ (funext fun a => Fin.ext ?_)
    match a with
    | ⟨0, _⟩ => show win1_1.index t (0 : Fin 2) * 10000 + 1 * k.val = k.val; omega
    | ⟨1, _⟩ => show win1_1.index t (1 : Fin 2) * 32 + 1 * l.val = l.val; omega
  have hW : ∀ l : Fin 32, iblk1 (F := Ideal) V c 2 t (ValueIdx.ix2 l q) = wArr V c (ValueIdx.ix2 l ((((cfg1.win 3).blk t).view.emb (ValueIdx.ix2 p q)) 1)) := fun l => by
    show wArr V c (((cfg1.win 2).blk t).view.emb (ValueIdx.ix2 l q)) = _
    refine congrArg _ (funext fun a => Fin.ext ?_)
    match a with
    | ⟨0, _⟩ => show win1_2.index t (0 : Fin 2) * 32 + 1 * l.val = l.val; omega
    | ⟨1, _⟩ => show win1_2.index t (1 : Fin 2) * 32 + 1 * q.val = win1_3.index t (1 : Fin 2) * 32 + 1 * q.val; omega
  refine Finset.sum_congr rfl fun l _ => ?_
  rw [hW l, Finset.sum_congr rfl fun k _ => by rw [hA k, hB k l]]

/-- An index of the array is in point t's block iff each coordinate is in the block's range on its axis. -/
theorem mem_blk1 (t : Fin cfg1.N) (i : S10000x32.Idx) :
    i ∈ ((cfg1.win 3).blk t).view.set ↔ ∀ a : Fin 2, win1_3.index t a * S400x32.size a ≤ (i a).val ∧ (i a).val < win1_3.index t a * S400x32.size a + S400x32.size a := by
  show i ∈ ((View.whole main_v5).slice (win1_3.rect t)).set ↔ _
  rw [View.set_slice_whole, Rect.mem_set_unit]
  exact Iff.rfl

/-- Row r of the array is in the block of point r / 400: the 25 blocks tile the rows. -/
theorem cover1 (i : S10000x32.Idx) :
    ∃ t : Fin cfg1.N, (cfg1.win 3).flush t = true ∧ i ∈ ((cfg1.win 3).blk t).view.set := by
  have hi0 : (i 0).val < 10000 := (i 0).isLt
  have hi1 : (i 1).val < 32 := (i 1).isLt
  have hlt : (i 0).val / 400 < 25 := by omega
  obtain ⟨t, ht⟩ : ∃ t : Fin cfg1.N, t.val = (i 0).val / 400 := ⟨⟨(i 0).val / 400, hlt⟩, rfl⟩
  obtain ⟨e0, e1, e2, e3, e4, e5, e6, e7⟩ := blockIdx1 t
  refine ⟨t, flush1_3 t, ?_⟩
  rw [mem_blk1]
  intro a
  match a with
  | ⟨0, _⟩ => show win1_3.index t (0 : Fin 2) * 400 ≤ (i 0).val ∧ (i 0).val < win1_3.index t (0 : Fin 2) * 400 + 400; omega
  | ⟨1, _⟩ => show win1_3.index t (1 : Fin 2) * 32 ≤ (i 1).val ∧ (i 1).val < win1_3.index t (1 : Fin 2) * 32 + 32; omega

end Pass1

theorem final1_3 (c : Dev nD) :
    (dat1 (F := Ideal) V c).arrAt 3 cfg1.N
      = Spec.arr (Spec.mm (Spec.relu (Spec.mm (Spec.mat (V c main_arg1)) (Spec.mat (V c main_v3_0)))) (Spec.mat (V c main_v4))) := by
  exact (dat1 (F := Ideal) V c).arrAt_eq_of_cover 3 _ (fun t _ => Pass1.flushed1_eq V c t) Pass1.cover1

end Cert.KernelIdeal.KV

end
-- ==== Proof.KI.Final2.lean ====
/-
  What the third pallas_call leaves in its output array, as mathematics: block i holds rows
  [400 i, 400 i + 400) of adj · h, for adj and h the two arrays the region found, and the 25 blocks tile the rows.
-/
import proofs.«173199_g7215545057700_cont_sun_m_658_2_alg».proof.Proof.KI.Region2
import proofs.«173199_g7215545057700_cont_sun_m_658_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KV

open Idealize.ShloMosaic Idealize.ShloMosaic.TcCoe Idealize.SL.Sem
open Idealize.ShloMosaic.Pipeline (Dat)
open Cert.KernelIdeal Cert.KernelIdeal.Gen Cert.KernelIdeal.Fr

-- the TensorCore's buffer contents when the region is entered, at the exact instance
variable (V : (c : Dev nD) → (b : Ref sig .tc) → Buf (Elt Ideal) ((c : Thread nD τ).loc b))

namespace Pass2

/-! ## The product's operand indices, axis by axis -/

theorem adjH_lhs_0 (i : S400x32.Idx) (q : dot_S400x10000_S10000x32_S400x32_1_0_0_1_n_n.contr.Idx) :
    (dot_S400x10000_S10000x32_S400x32_1_0_0_1_n_n.lhsIdx i q 0).val = (i 0).val := by
  unfold DotDims.lhsIdx
  rw [dif_neg (show ¬(0 : Fin S400x10000.rank) ∈ dot_S400x10000_S10000x32_S400x32_1_0_0_1_n_n.lhsBatch by decide), dif_pos (show (0 : Fin S400x10000.rank) ∈ dot_S400x10000_S10000x32_S400x32_1_0_0_1_n_n.lhsNonContracting by decide)]
  rfl
theorem adjH_lhs_1 (i : S400x32.Idx) (q : dot_S400x10000_S10000x32_S400x32_1_0_0_1_n_n.contr.Idx) :
    (dot_S400x10000_S10000x32_S400x32_1_0_0_1_n_n.lhsIdx i q 1).val = (q ⟨0, by decide⟩).val :=
  dot_S400x10000_S10000x32_S400x32_1_0_0_1_n_n.lhsIdx_val_of_single rfl i q
theorem adjH_rhs_0 (i : S400x32.Idx) (q : dot_S400x10000_S10000x32_S400x32_1_0_0_1_n_n.contr.Idx) :
    (dot_S400x10000_S10000x32_S400x32_1_0_0_1_n_n.rhsIdx i q 0).val = (q ⟨0, by decide⟩).val :=
  dot_S400x10000_S10000x32_S400x32_1_0_0_1_n_n.rhsIdx_val_of_single rfl i q
theorem adjH_rhs_1 (i : S400x32.Idx) (q : dot_S400x10000_S10000x32_S400x32_1_0_0_1_n_n.contr.Idx) :
    (dot_S400x10000_S10000x32_S400x32_1_0_0_1_n_n.rhsIdx i q 1).val = (i 1).val := by
  unfold DotDims.rhsIdx
  rw [dif_neg (show ¬(1 : Fin S10000x32.rank) ∈ dot_S400x10000_S10000x32_S400x32_1_0_0_1_n_n.rhsBatch by decide), dif_pos (show (1 : Fin S10000x32.rank) ∈ dot_S400x10000_S10000x32_S400x32_1_0_0_1_n_n.rhsNonContracting by decide)]
  rfl

/-- The body's stored value at row p, column q of the block: the sum over k of the adjacency block at (p, k)
    times the other block at (k, q). -/
theorem pay2_apply (x0 : Vec Ideal S400x10000 .f32) (x1 : Vec Ideal S10000x32 .f32) (p : Fin 400) (q : Fin 32) :
    k2_pay1 (F := Ideal) x0 x1 (ValueIdx.ix2 p q) = ∑ k : Fin 10000, x0 (ValueIdx.ix2 p k) * x1 (ValueIdx.ix2 k q) := by
  unfold k2_pay1
  rw [shapeCast_self]
  simp only [matmul]
  rw [Ideal.matmul_constant_zero_apply, ← Equiv.sum_comp (ValueIdx.contrEquiv1 dot_S400x10000_S10000x32_S400x32_1_0_0_1_n_n 10000 rfl rfl).symm]
  refine Finset.sum_congr rfl fun k _ => ?_
  have hk := ValueIdx.contrEquiv1_symm_val dot_S400x10000_S10000x32_S400x32_1_0_0_1_n_n 10000 rfl rfl k
  have el : dot_S400x10000_S10000x32_S400x32_1_0_0_1_n_n.lhsIdx (ValueIdx.ix2 p q) ((ValueIdx.contrEquiv1 dot_S400x10000_S10000x32_S400x32_1_0_0_1_n_n 10000 rfl rfl).symm k) = ValueIdx.ix2 p k := funext fun a => Fin.ext (by
    match a with
    | ⟨0, _⟩ => exact adjH_lhs_0 _ _
    | ⟨1, _⟩ => exact (adjH_lhs_1 _ _).trans hk)
  have er : dot_S400x10000_S10000x32_S400x32_1_0_0_1_n_n.rhsIdx (ValueIdx.ix2 p q) ((ValueIdx.contrEquiv1 dot_S400x10000_S10000x32_S400x32_1_0_0_1_n_n 10000 rfl rfl).symm k) = ValueIdx.ix2 k q := funext fun a => Fin.ext (by
    match a with
    | ⟨0, _⟩ => exact (adjH_rhs_0 _ _).trans hk
    | ⟨1, _⟩ => exact adjH_rhs_1 _ _)
  rw [el, er]

/-! ## From the blocks to the array -/

/-- The two arrays the region finds, at their literal types. -/
abbrev adjArr (c : Dev nD) : S10000x10000.Idx → EReal := V c main_arg1
abbrev hArr (c : Dev nD) : S10000x32.Idx → EReal := V c main_v5

theorem zeroOff : (![0, 0] : Fin 2 → Nat) = fun _ => 0 := funext fun a => match a with | ⟨0, _⟩ => rfl | ⟨1, _⟩ => rfl

/-- The printed index maps over the grid: the adjacency and the output move down the rows with the point, the
    other input stays at the origin. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of adj · h. -/
theorem flushed2_eq (c : Dev nD) (t : Fin cfg2.N) :
    (dat2 (F := Ideal) V c).flushed 2 t
      = ((cfg2.win 2).blk t).view.read (Elt Ideal) (Spec.arr (Spec.mm (Spec.mat (V c main_arg1)) (Spec.mat (V c main_v5)))) := by
  show (cfg2.win 2).cut (grid2.coords t) ((dat2 (F := Ideal) V c).after 2 t) = _
  rw [after2_2]
  unfold out2_2
  rw [View.canon_unit_zero zeroOff]
  simp only [View.ld_unit_zero (S := S400x10000) zeroOff, View.ld_unit_zero (S := S10000x32) zeroOff]
  obtain ⟨e0, e1, e2, e3, e4, e5⟩ := blockIdx2 t
  funext j
  obtain ⟨p, q, rfl⟩ : ∃ (p : Fin 400) (q : Fin 32), j = ValueIdx.ix2 p q := ⟨j 0, j 1, ValueIdx.eq_ix2 j⟩
  refine (pay2_apply (iblk2 (F := Ideal) V c 0 t) (iblk2 (F := Ideal) V c 1 t) p q).trans ?_
  have ht : t.val < 25 := t.isLt
  show _ = ∑ l : Fin 10000, adjArr V c (ValueIdx.ix2 ((((cfg2.win 2).blk t).view.emb (ValueIdx.ix2 p q)) 0) l)
      * hArr V c (ValueIdx.ix2 l ((((cfg2.win 2).blk t).view.emb (ValueIdx.ix2 p q)) 1))
  refine Finset.sum_congr rfl fun k _ => ?_
  have hA : iblk2 (F := Ideal) V c 0 t (ValueIdx.ix2 p k)
      = adjArr V c (ValueIdx.ix2 ((((cfg2.win 2).blk t).view.emb (ValueIdx.ix2 p q)) 0) k) := by
    show adjArr V c (((cfg2.win 0).blk t).view.emb (ValueIdx.ix2 p k)) = _
    refine congrArg _ (funext fun a => Fin.ext ?_)
    match a with
    | ⟨0, _⟩ => show win2_0.index t (0 : Fin 2) * 400 + 1 * p.val = win2_2.index t (0 : Fin 2) * 400 + 1 * p.val; omega
    | ⟨1, _⟩ => show win2_0.index t (1 : Fin 2) * 10000 + 1 * k.val = k.val; omega
  have hB : iblk2 (F := Ideal) V c 1 t (ValueIdx.ix2 k q)
      = hArr V c (ValueIdx.ix2 k ((((cfg2.win 2).blk t).view.emb (ValueIdx.ix2 p q)) 1)) := by
    show hArr V c (((cfg2.win 1).blk t).view.emb (ValueIdx.ix2 k q)) = _
    refine congrArg _ (funext fun a => Fin.ext ?_)
    match a with
    | ⟨0, _⟩ => show win2_1.index t (0 : Fin 2) * 10000 + 1 * k.val = k.val; omega
    | ⟨1, _⟩ => show win2_1.index t (1 : Fin 2) * 32 + 1 * q.val = win2_2.index t (1 : Fin 2) * 32 + 1 * q.val; omega
  rw [hA, hB]

/-- An index of the array is in point t's block iff each coordinate is in the block's range on its axis. -/
theorem mem_blk2 (t : Fin cfg2.N) (i : S10000x32.Idx) :
    i ∈ ((cfg2.win 2).blk t).view.set ↔ ∀ a : Fin 2, win2_2.index t a * S400x32.size a ≤ (i a).val ∧ (i a).val < win2_2.index t a * S400x32.size a + S400x32.size a := by
  show i ∈ ((View.whole main_v6).slice (win2_2.rect t)).set ↔ _
  rw [View.set_slice_whole, Rect.mem_set_unit]
  exact Iff.rfl

/-- Row r of the array is in the block of point r / 400: the 25 blocks tile the rows. -/
theorem cover2 (i : S10000x32.Idx) :
    ∃ t : Fin cfg2.N, (cfg2.win 2).flush t = true ∧ i ∈ ((cfg2.win 2).blk t).view.set := by
  have hi0 : (i 0).val < 10000 := (i 0).isLt
  have hi1 : (i 1).val < 32 := (i 1).isLt
  have hlt : (i 0).val / 400 < 25 := by omega
  obtain ⟨t, ht⟩ : ∃ t : Fin cfg2.N, t.val = (i 0).val / 400 := ⟨⟨(i 0).val / 400, hlt⟩, rfl⟩
  obtain ⟨e0, e1, e2, e3, e4, e5⟩ := blockIdx2 t
  refine ⟨t, flush2_2 t, ?_⟩
  rw [mem_blk2]
  intro a
  match a with
  | ⟨0, _⟩ => show win2_2.index t (0 : Fin 2) * 400 ≤ (i 0).val ∧ (i 0).val < win2_2.index t (0 : Fin 2) * 400 + 400; omega
  | ⟨1, _⟩ => show win2_2.index t (1 : Fin 2) * 32 ≤ (i 1).val ∧ (i 1).val < win2_2.index t (1 : Fin 2) * 32 + 32; omega

end Pass2

theorem final2_2 (c : Dev nD) :
    (dat2 (F := Ideal) V c).arrAt 2 cfg2.N
      = Spec.arr (Spec.mm (Spec.mat (V c main_arg1)) (Spec.mat (V c main_v5))) := by
  exact (dat2 (F := Ideal) V c).arrAt_eq_of_cover 2 _ (fun t _ => Pass2.flushed2_eq V c t) Pass2.cover2

end Cert.KernelIdeal.KV

end
-- ==== Proof.KI.Final3.lean ====
/-
  What the decoder call leaves in its two output arrays, as mathematics: block i of the first holds rows
  [400 i, 400 i + 400) of z · zᵀ and block i of the second the same rows of z · aᵀ, for z the 10000 x 16 array
  both of its first two windows are on and a the 128 x 16 array of its third; the 25 blocks tile the rows.
-/
import proofs.«173199_g7215545057700_cont_sun_m_658_2_alg».proof.Proof.KI.Region3
import proofs.«173199_g7215545057700_cont_sun_m_658_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KV

open Idealize.ShloMosaic Idealize.ShloMosaic.TcCoe Idealize.SL.Sem
open Idealize.ShloMosaic.Pipeline (Dat)
open Cert.KernelIdeal Cert.KernelIdeal.Gen Cert.KernelIdeal.Fr

-- the TensorCore's buffer contents when the region is entered, at the exact instance
variable (V : (c : Dev nD) → (b : Ref sig .tc) → Buf (Elt Ideal) ((c : Thread nD τ).loc b))

namespace Decoder

/-- Every whole-block piece sits at offset zero of its block. -/
theorem off_zero : (![0, 0] : Fin 2 → Nat) = fun _ => 0 := funext fun a => by fin_cases a <;> rfl

/-! ## The two contractions read at an index -/

theorem lhs_zz_0 (i : S400x10000.Idx) (q : dot_S400x16_S10000x16_S400x10000_1_1_0_0_n_n.contr.Idx) :
    (dot_S400x16_S10000x16_S400x10000_1_1_0_0_n_n.lhsIdx i q 0).val = (i 0).val := by
  unfold DotDims.lhsIdx
  rw [dif_neg (show ¬(0 : Fin S400x16.rank) ∈ dot_S400x16_S10000x16_S400x10000_1_1_0_0_n_n.lhsBatch by decide), dif_pos (show (0 : Fin S400x16.rank) ∈ dot_S400x16_S10000x16_S400x10000_1_1_0_0_n_n.lhsNonContracting by decide)]
  rfl
theorem lhs_zz_1 (i : S400x10000.Idx) (q : dot_S400x16_S10000x16_S400x10000_1_1_0_0_n_n.contr.Idx) :
    (dot_S400x16_S10000x16_S400x10000_1_1_0_0_n_n.lhsIdx i q 1).val = (q ⟨0, by decide⟩).val :=
  dot_S400x16_S10000x16_S400x10000_1_1_0_0_n_n.lhsIdx_val_of_single rfl i q
theorem rhs_zz_0 (i : S400x10000.Idx) (q : dot_S400x16_S10000x16_S400x10000_1_1_0_0_n_n.contr.Idx) :
    (dot_S400x16_S10000x16_S400x10000_1_1_0_0_n_n.rhsIdx i q 0).val = (i 1).val := by
  unfold DotDims.rhsIdx
  rw [dif_neg (show ¬(0 : Fin S10000x16.rank) ∈ dot_S400x16_S10000x16_S400x10000_1_1_0_0_n_n.rhsBatch by decide), dif_pos (show (0 : Fin S10000x16.rank) ∈ dot_S400x16_S10000x16_S400x10000_1_1_0_0_n_n.rhsNonContracting by decide)]
  rfl
theorem rhs_zz_1 (i : S400x10000.Idx) (q : dot_S400x16_S10000x16_S400x10000_1_1_0_0_n_n.contr.Idx) :
    (dot_S400x16_S10000x16_S400x10000_1_1_0_0_n_n.rhsIdx i q 1).val = (q ⟨0, by decide⟩).val :=
  dot_S400x16_S10000x16_S400x10000_1_1_0_0_n_n.rhsIdx_val_of_single rfl i q

/-- Entry (p, q) of the first payload: row p of the block against row q of the whole matrix. -/
theorem pay_zz_apply (x0 : Vec Ideal S400x16 .f32) (x1 : Vec Ideal S10000x16 .f32) (p : Fin 400) (q : Fin 10000) :
    k3_pay2 (F := Ideal) x0 x1 (ValueIdx.ix2 p q) = ∑ l : Fin 16, x0 (ValueIdx.ix2 p l) * x1 (ValueIdx.ix2 q l) := by
  unfold k3_pay2 k3_pay1
  simp only [shapeCast_self]
  refine (Ideal.matmul_constant_zero_apply dot_S400x16_S10000x16_S400x10000_1_1_0_0_n_n none x0 x1 (ValueIdx.ix2 p q)).trans ?_
  rw [← Equiv.sum_comp (ValueIdx.contrEquiv1 dot_S400x16_S10000x16_S400x10000_1_1_0_0_n_n 16 rfl rfl).symm]
  refine Finset.sum_congr rfl fun k _ => ?_
  have hk := ValueIdx.contrEquiv1_symm_val dot_S400x16_S10000x16_S400x10000_1_1_0_0_n_n 16 rfl rfl k
  have el : dot_S400x16_S10000x16_S400x10000_1_1_0_0_n_n.lhsIdx (ValueIdx.ix2 p q) ((ValueIdx.contrEquiv1 dot_S400x16_S10000x16_S400x10000_1_1_0_0_n_n 16 rfl rfl).symm k) = ValueIdx.ix2 p k := funext fun a => Fin.ext (by
    match a with
    | ⟨0, _⟩ => exact lhs_zz_0 _ _
    | ⟨1, _⟩ => exact (lhs_zz_1 _ _).trans hk)
  have er : dot_S400x16_S10000x16_S400x10000_1_1_0_0_n_n.rhsIdx (ValueIdx.ix2 p q) ((ValueIdx.contrEquiv1 dot_S400x16_S10000x16_S400x10000_1_1_0_0_n_n 16 rfl rfl).symm k) = ValueIdx.ix2 q k := funext fun a => Fin.ext (by
    match a with
    | ⟨0, _⟩ => exact rhs_zz_0 _ _
    | ⟨1, _⟩ => exact (rhs_zz_1 _ _).trans hk)
  rw [el, er]

theorem lhs_za_0 (i : S400x128.Idx) (q : dot_S400x16_S128x16_S400x128_1_1_0_0_n_n.contr.Idx) :
    (dot_S400x16_S128x16_S400x128_1_1_0_0_n_n.lhsIdx i q 0).val = (i 0).val := by
  unfold DotDims.lhsIdx
  rw [dif_neg (show ¬(0 : Fin S400x16.rank) ∈ dot_S400x16_S128x16_S400x128_1_1_0_0_n_n.lhsBatch by decide), dif_pos (show (0 : Fin S400x16.rank) ∈ dot_S400x16_S128x16_S400x128_1_1_0_0_n_n.lhsNonContracting by decide)]
  rfl
theorem lhs_za_1 (i : S400x128.Idx) (q : dot_S400x16_S128x16_S400x128_1_1_0_0_n_n.contr.Idx) :
    (dot_S400x16_S128x16_S400x128_1_1_0_0_n_n.lhsIdx i q 1).val = (q ⟨0, by decide⟩).val :=
  dot_S400x16_S128x16_S400x128_1_1_0_0_n_n.lhsIdx_val_of_single rfl i q
theorem rhs_za_0 (i : S400x128.Idx) (q : dot_S400x16_S128x16_S400x128_1_1_0_0_n_n.contr.Idx) :
    (dot_S400x16_S128x16_S400x128_1_1_0_0_n_n.rhsIdx i q 0).val = (i 1).val := by
  unfold DotDims.rhsIdx
  rw [dif_neg (show ¬(0 : Fin S128x16.rank) ∈ dot_S400x16_S128x16_S400x128_1_1_0_0_n_n.rhsBatch by decide), dif_pos (show (0 : Fin S128x16.rank) ∈ dot_S400x16_S128x16_S400x128_1_1_0_0_n_n.rhsNonContracting by decide)]
  rfl
theorem rhs_za_1 (i : S400x128.Idx) (q : dot_S400x16_S128x16_S400x128_1_1_0_0_n_n.contr.Idx) :
    (dot_S400x16_S128x16_S400x128_1_1_0_0_n_n.rhsIdx i q 1).val = (q ⟨0, by decide⟩).val :=
  dot_S400x16_S128x16_S400x128_1_1_0_0_n_n.rhsIdx_val_of_single rfl i q

/-- Entry (p, q) of the second payload: row p of the block against row q of the attribute matrix. -/
theorem pay_za_apply (x0 : Vec Ideal S400x16 .f32) (x2 : Vec Ideal S128x16 .f32) (p : Fin 400) (q : Fin 128) :
    k3_pay3 (F := Ideal) x0 x2 (ValueIdx.ix2 p q) = ∑ l : Fin 16, x0 (ValueIdx.ix2 p l) * x2 (ValueIdx.ix2 q l) := by
  unfold k3_pay3 k3_pay1
  simp only [shapeCast_self]
  refine (Ideal.matmul_constant_zero_apply dot_S400x16_S128x16_S400x128_1_1_0_0_n_n none x0 x2 (ValueIdx.ix2 p q)).trans ?_
  rw [← Equiv.sum_comp (ValueIdx.contrEquiv1 dot_S400x16_S128x16_S400x128_1_1_0_0_n_n 16 rfl rfl).symm]
  refine Finset.sum_congr rfl fun k _ => ?_
  have hk := ValueIdx.contrEquiv1_symm_val dot_S400x16_S128x16_S400x128_1_1_0_0_n_n 16 rfl rfl k
  have el : dot_S400x16_S128x16_S400x128_1_1_0_0_n_n.lhsIdx (ValueIdx.ix2 p q) ((ValueIdx.contrEquiv1 dot_S400x16_S128x16_S400x128_1_1_0_0_n_n 16 rfl rfl).symm k) = ValueIdx.ix2 p k := funext fun a => Fin.ext (by
    match a with
    | ⟨0, _⟩ => exact lhs_za_0 _ _
    | ⟨1, _⟩ => exact (lhs_za_1 _ _).trans hk)
  have er : dot_S400x16_S128x16_S400x128_1_1_0_0_n_n.rhsIdx (ValueIdx.ix2 p q) ((ValueIdx.contrEquiv1 dot_S400x16_S128x16_S400x128_1_1_0_0_n_n 16 rfl rfl).symm k) = ValueIdx.ix2 q k := funext fun a => Fin.ext (by
    match a with
    | ⟨0, _⟩ => exact rhs_za_0 _ _
    | ⟨1, _⟩ => exact (rhs_za_1 _ _).trans hk)
  rw [el, er]

/-! ## The index maps, decided once over the 25 points -/

theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-! ## The input blocks read off their arrays -/

/-- Row p of point t's block of the means is row 400 t + p of the means. -/
theorem blk_rows (c : Dev nD) (t : Fin cfg3.N) (p : Fin 400) (l : Fin 16) (h : 400 * t.val + p.val < 10000) :
    iblk3 (F := Ideal) V c 0 t (ValueIdx.ix2 p l) = V c main_v7 (ValueIdx.ix2 ⟨400 * t.val + p.val, h⟩ l) := by
  obtain ⟨e00, e01, -⟩ := idx_facts t
  show V c main_v7 (((cfg3.win 0).blk t).view.emb (ValueIdx.ix2 p l)) = V c main_v7 (ValueIdx.ix2 ⟨400 * t.val + p.val, h⟩ l)
  refine congrArg (V c main_v7) (funext fun a => Fin.ext ?_)
  match a with
  | ⟨0, _⟩ => show win3_0.index t (0 : Fin 2) * 400 + 1 * p.val = 400 * t.val + p.val; omega
  | ⟨1, _⟩ => show win3_0.index t (1 : Fin 2) * 16 + 1 * l.val = l.val; omega

/-- The second window's block is the whole matrix of means. -/
theorem blk_whole (c : Dev nD) (t : Fin cfg3.N) (q : Fin 10000) (l : Fin 16) :
    iblk3 (F := Ideal) V c 1 t (ValueIdx.ix2 q l) = V c main_v7 (ValueIdx.ix2 q l) := by
  obtain ⟨-, -, e10, e11, -⟩ := idx_facts t
  show V c main_v7 (((cfg3.win 1).blk t).view.emb (ValueIdx.ix2 q l)) = V c main_v7 (ValueIdx.ix2 q l)
  refine congrArg (V c main_v7) (funext fun a => Fin.ext ?_)
  match a with
  | ⟨0, _⟩ => show win3_1.index t (0 : Fin 2) * 10000 + 1 * q.val = q.val; omega
  | ⟨1, _⟩ => show win3_1.index t (1 : Fin 2) * 16 + 1 * l.val = l.val; omega

/-- The third window's block is the whole matrix of attribute means. -/
theorem blk_attr (c : Dev nD) (t : Fin cfg3.N) (q : Fin 128) (l : Fin 16) :
    iblk3 (F := Ideal) V c 2 t (ValueIdx.ix2 q l) = V c main_v3_1 (ValueIdx.ix2 q l) := by
  obtain ⟨-, -, -, -, e20, e21, -⟩ := idx_facts t
  show V c main_v3_1 (((cfg3.win 2).blk t).view.emb (ValueIdx.ix2 q l)) = V c main_v3_1 (ValueIdx.ix2 q l)
  refine congrArg (V c main_v3_1) (funext fun a => Fin.ext ?_)
  match a with
  | ⟨0, _⟩ => show win3_2.index t (0 : Fin 2) * 128 + 1 * q.val = q.val; omega
  | ⟨1, _⟩ => show win3_2.index t (1 : Fin 2) * 16 + 1 * l.val = l.val; omega

/-! ## What each point writes back -/

/-- Point t writes rows [400 t, 400 t + 400) of z · zᵀ. -/
theorem flushed_zz (c : Dev nD) (t : Fin cfg3.N) :
    (dat3 (F := Ideal) V c).flushed 3 t = ((cfg3.win 3).blk t).view.read (Elt Ideal)
      (Spec.arr (Spec.mmT (Spec.mat (V c main_v7)) (Spec.mat (V c main_v7)))) := by
  show (cfg3.win 3).cut (cfg3.grid.coords t) ((dat3 (F := Ideal) V c).after 3 t) = _
  rw [after3_3]
  unfold out3_3
  rw [View.canon_unit_zero off_zero]
  simp only [View.ld_unit_zero (S := S400x16) off_zero, View.ld_unit_zero (S := S10000x16) off_zero]
  obtain ⟨-, -, -, -, -, -, e30, e31, -⟩ := idx_facts t
  have ht : t.val < 25 := t.isLt
  funext j
  revert j
  show ∀ j : S400x10000.Idx, k3_pay2 (F := Ideal) (iblk3 V c 0 t) (iblk3 V c 1 t) j
      = Spec.arr (Spec.mmT (Spec.mat (V c main_v7)) (Spec.mat (V c main_v7))) (((cfg3.win 3).blk t).view.emb j)
  intro j
  obtain ⟨p, q, rfl⟩ : ∃ (p : Fin 400) (q : Fin 10000), j = ValueIdx.ix2 p q := ⟨j 0, j 1, ValueIdx.eq_ix2 j⟩
  have hp : p.val < 400 := p.isLt
  have hemb : ((cfg3.win 3).blk t).view.emb (ValueIdx.ix2 p q) = ValueIdx.ix2 (⟨400 * t.val + p.val, by omega⟩ : Fin 10000) q := by
    funext a; apply Fin.ext
    match a with
    | ⟨0, _⟩ => show win3_3.index t (0 : Fin 2) * 400 + 1 * p.val = 400 * t.val + p.val; omega
    | ⟨1, _⟩ => show win3_3.index t (1 : Fin 2) * 10000 + 1 * q.val = q.val; omega
  rw [hemb, pay_zz_apply]
  show _ = ∑ l : Fin 16, Spec.mat (V c main_v7) (⟨400 * t.val + p.val, by omega⟩ : Fin 10000) l * Spec.mat (V c main_v7) q l
  refine Finset.sum_congr rfl fun l _ => ?_
  rw [blk_rows V c t p l (by omega), blk_whole V c t q l]
  rfl

/-- Point t writes rows [400 t, 400 t + 400) of z · aᵀ. -/
theorem flushed_za (c : Dev nD) (t : Fin cfg3.N) :
    (dat3 (F := Ideal) V c).flushed 4 t = ((cfg3.win 4).blk t).view.read (Elt Ideal)
      (Spec.arr (Spec.mmT (Spec.mat (V c main_v7)) (Spec.mat (V c main_v3_1)))) := by
  show (cfg3.win 4).cut (cfg3.grid.coords t) ((dat3 (F := Ideal) V c).after 4 t) = _
  rw [after3_4]
  unfold out3_4
  rw [View.canon_unit_zero off_zero]
  simp only [View.ld_unit_zero (S := S400x16) off_zero, View.ld_unit_zero (S := S128x16) off_zero]
  obtain ⟨-, -, -, -, -, -, -, -, e40, e41⟩ := idx_facts t
  have ht : t.val < 25 := t.isLt
  funext j
  revert j
  show ∀ j : S400x128.Idx, k3_pay3 (F := Ideal) (iblk3 V c 0 t) (iblk3 V c 2 t) j
      = Spec.arr (Spec.mmT (Spec.mat (V c main_v7)) (Spec.mat (V c main_v3_1))) (((cfg3.win 4).blk t).view.emb j)
  intro j
  obtain ⟨p, q, rfl⟩ : ∃ (p : Fin 400) (q : Fin 128), j = ValueIdx.ix2 p q := ⟨j 0, j 1, ValueIdx.eq_ix2 j⟩
  have hp : p.val < 400 := p.isLt
  have hemb : ((cfg3.win 4).blk t).view.emb (ValueIdx.ix2 p q) = ValueIdx.ix2 (⟨400 * t.val + p.val, by omega⟩ : Fin 10000) q := by
    funext a; apply Fin.ext
    match a with
    | ⟨0, _⟩ => show win3_4.index t (0 : Fin 2) * 400 + 1 * p.val = 400 * t.val + p.val; omega
    | ⟨1, _⟩ => show win3_4.index t (1 : Fin 2) * 128 + 1 * q.val = q.val; omega
  rw [hemb, pay_za_apply]
  show _ = ∑ l : Fin 16, Spec.mat (V c main_v7) (⟨400 * t.val + p.val, by omega⟩ : Fin 10000) l * Spec.mat (V c main_v3_1) q l
  refine Finset.sum_congr rfl fun l _ => ?_
  rw [blk_rows V c t p l (by omega), blk_attr V c t q l]
  rfl

/-! ## The 25 blocks tile the rows -/

/-- An index of the first output is in point t's block iff each coordinate is in the block's range. -/
theorem mem_blk_zz (t : Fin cfg3.N) (i : S10000x10000.Idx) :
    i ∈ ((cfg3.win 3).blk t).view.set ↔ ∀ a : Fin 2, win3_3.index t a * S400x10000.size a ≤ (i a).val ∧ (i a).val < win3_3.index t a * S400x10000.size a + S400x10000.size a := by
  show i ∈ ((View.whole main_v9_0).slice (win3_3.rect t)).set ↔ _
  rw [View.set_slice_whole, Rect.mem_set_unit]
  exact Iff.rfl

theorem mem_blk_za (t : Fin cfg3.N) (i : S10000x128.Idx) :
    i ∈ ((cfg3.win 4).blk t).view.set ↔ ∀ a : Fin 2, win3_4.index t a * S400x128.size a ≤ (i a).val ∧ (i a).val < win3_4.index t a * S400x128.size a + S400x128.size a := by
  show i ∈ ((View.whole main_v9_1).slice (win3_4.rect t)).set ↔ _
  rw [View.set_slice_whole, Rect.mem_set_unit]
  exact Iff.rfl

/-- Row r of the first output is in the block of point r / 400. -/
theorem cover_zz (i : S10000x10000.Idx) : ∃ t : Fin cfg3.N, (cfg3.win 3).flush t = true ∧ i ∈ ((cfg3.win 3).blk t).view.set := by
  have hi0 : (i 0).val < 10000 := (i 0).isLt
  have hi1 : (i 1).val < 10000 := (i 1).isLt
  let t : Fin cfg3.N := ⟨(i 0).val / 400, by show (i 0).val / 400 < 25; omega⟩
  have htv : t.val = (i 0).val / 400 := rfl
  obtain ⟨-, -, -, -, -, -, e30, e31, -⟩ := idx_facts t
  refine ⟨t, flush3_3 t, ?_⟩
  rw [mem_blk_zz]
  intro a
  match a with
  | ⟨0, _⟩ => show win3_3.index t (0 : Fin 2) * 400 ≤ (i 0).val ∧ (i 0).val < win3_3.index t (0 : Fin 2) * 400 + 400; omega
  | ⟨1, _⟩ => show win3_3.index t (1 : Fin 2) * 10000 ≤ (i 1).val ∧ (i 1).val < win3_3.index t (1 : Fin 2) * 10000 + 10000; omega

theorem cover_za (i : S10000x128.Idx) : ∃ t : Fin cfg3.N, (cfg3.win 4).flush t = true ∧ i ∈ ((cfg3.win 4).blk t).view.set := by
  have hi0 : (i 0).val < 10000 := (i 0).isLt
  have hi1 : (i 1).val < 128 := (i 1).isLt
  let t : Fin cfg3.N := ⟨(i 0).val / 400, by show (i 0).val / 400 < 25; omega⟩
  have htv : t.val = (i 0).val / 400 := rfl
  obtain ⟨-, -, -, -, -, -, -, -, e40, e41⟩ := idx_facts t
  refine ⟨t, flush3_4 t, ?_⟩
  rw [mem_blk_za]
  intro a
  match a with
  | ⟨0, _⟩ => show win3_4.index t (0 : Fin 2) * 400 ≤ (i 0).val ∧ (i 0).val < win3_4.index t (0 : Fin 2) * 400 + 400; omega
  | ⟨1, _⟩ => show win3_4.index t (1 : Fin 2) * 128 ≤ (i 1).val ∧ (i 1).val < win3_4.index t (1 : Fin 2) * 128 + 128; omega

end Decoder

theorem final3_3 (c : Dev nD) :
    (dat3 (F := Ideal) V c).arrAt 3 cfg3.N
      = Spec.arr (Spec.mmT (Spec.mat (V c main_v7)) (Spec.mat (V c main_v7))) := by
  exact (dat3 (F := Ideal) V c).arrAt_eq_of_cover 3
    (Spec.arr (Spec.mmT (Spec.mat (V c main_v7)) (Spec.mat (V c main_v7))))
    (fun t _ => Decoder.flushed_zz V c t) Decoder.cover_zz

theorem final3_4 (c : Dev nD) :
    (dat3 (F := Ideal) V c).arrAt 4 cfg3.N
      = Spec.arr (Spec.mmT (Spec.mat (V c main_v7)) (Spec.mat (V c main_v3_1))) := by
  exact (dat3 (F := Ideal) V c).arrAt_eq_of_cover 4
    (Spec.arr (Spec.mmT (Spec.mat (V c main_v7)) (Spec.mat (V c main_v3_1))))
    (fun t _ => Decoder.flushed_za V c t) Decoder.cover_za

end Cert.KernelIdeal.KV

end
-- ==== Proof.KI.HostRead.lean ====
/-
  The three stretches of host operations between the pallas_calls, read as mathematics over ANY contents W of
  the buffers they start from: the three bias vectors reshaped to 1 x n rows; the two 32 x 16 graph weights
  concatenated side by side into one 32 x 32 matrix; the 10000 x 32 result cut into its left and right 16 columns.
-/
import proofs.«173199_g7215545057700_cont_sun_m_658_2_alg».proof.Proof.Gen.KernelIdeal.Regions
import proofs.«173199_g7215545057700_cont_sun_m_658_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KV

open Idealize.ShloMosaic Idealize.ShloMosaic.TcCoe Idealize.SL.Sem
open Idealize.ShloMosaic.Pipeline (Dat)
open Cert.KernelIdeal Cert.KernelIdeal.Gen

-- the TensorCore's buffer contents when the region is entered, at the exact instance
variable (V : (c : Dev nD) → (b : Ref sig .tc) → Buf (Elt Ideal) ((c : Thread nD τ).loc b))

/-- A rank-1 array read as a row, and a 1 x n array read as a row. -/
def rowOf {n : ℕ} (b : (⟨1, ![n]⟩ : Shape).Idx → EReal) : Fin n → EReal := fun j => b (ValueIdx.ix1 j)
def rowOf1' {n : ℕ} (b : (⟨2, ![1, n]⟩ : Shape).Idx → EReal) : Fin n → EReal := fun j => b (ValueIdx.ix2 (0 : Fin 1) j)

variable (W : Valuation τ sig (Elt Ideal))

theorem after0_v0 : rowOf1' (StableHlo.after (hostOps0 (F := Ideal)) W (Proc.devRef .tc main_v0)) = rowOf (W (Proc.devRef .tc main_arg6)) := by
  have e : (StableHlo.after (hostOps0 (F := Ideal)) W (Proc.devRef .tc main_v0) : S1x32.Idx → EReal)
      = shapeCast S1x32 (W (Proc.devRef .tc main_arg6)) shapeCasts_S32_S1x32 := by
    after_results; rfl
  funext j
  unfold rowOf1' rowOf
  rw [e]
  exact ValueIdx.shapeCast_a_1a_apply _ _ 0 j
theorem after0_v1 : rowOf1' (StableHlo.after (hostOps0 (F := Ideal)) W (Proc.devRef .tc main_v1)) = rowOf (W (Proc.devRef .tc main_arg8)) := by
  have e : (StableHlo.after (hostOps0 (F := Ideal)) W (Proc.devRef .tc main_v1) : S1x16.Idx → EReal)
      = shapeCast S1x16 (W (Proc.devRef .tc main_arg8)) shapeCasts_S16_S1x16 := by
    after_results; rfl
  funext j
  unfold rowOf1' rowOf
  rw [e]
  exact ValueIdx.shapeCast_a_1a_apply _ _ 0 j
theorem after0_v2 : rowOf1' (StableHlo.after (hostOps0 (F := Ideal)) W (Proc.devRef .tc main_v2)) = rowOf (W (Proc.devRef .tc main_arg10)) := by
  have e : (StableHlo.after (hostOps0 (F := Ideal)) W (Proc.devRef .tc main_v2) : S1x16.Idx → EReal)
      = shapeCast S1x16 (W (Proc.devRef .tc main_arg10)) shapeCasts_S16_S1x16 := by
    after_results; rfl
  funext j
  unfold rowOf1' rowOf
  rw [e]
  exact ValueIdx.shapeCast_a_1a_apply _ _ 0 j

theorem after1_v4 :
    Spec.mat (StableHlo.after (hostOps1 (F := Ideal)) W (Proc.devRef .tc main_v4))
      = Spec.sideBySide (Spec.mat (W (Proc.devRef .tc main_arg3))) (Spec.mat (W (Proc.devRef .tc main_arg4))) := by
  have e : (StableHlo.after (hostOps1 (F := Ideal)) W (Proc.devRef .tc main_v4) : S32x32.Idx → EReal)
      = concatenate S32x32 1 [⟨S32x16, W (Proc.devRef .tc main_arg3)⟩, ⟨S32x16, W (Proc.devRef .tc main_arg4)⟩] concatenates_S32x16_S32x16_S32x32_d1 := by
    after_results
  funext i l
  unfold Spec.mat Spec.sideBySide
  rw [e]
  by_cases h : l.val < 16
  · rw [dif_pos h]
    exact concatenate_pair_apply_left (t := S32x32) (s₁ := S32x16) (s₂ := S32x16) (1 : Fin 2)
      (W (Proc.devRef .tc main_arg3)) (W (Proc.devRef .tc main_arg4)) concatenates_S32x16_S32x16_S32x32_d1
      (ValueIdx.ix2 i l) rfl (ValueIdx.ix2 i (⟨l.val, h⟩ : Fin 16)) (fun b => by
        match b with
        | ⟨0, _⟩ => rfl
        | ⟨1, _⟩ => rfl)
  · rw [dif_neg h]
    exact concatenate_pair_apply_right (t := S32x32) (s₁ := S32x16) (s₂ := S32x16) (1 : Fin 2)
      (W (Proc.devRef .tc main_arg3)) (W (Proc.devRef .tc main_arg4)) concatenates_S32x16_S32x16_S32x32_d1
      (ValueIdx.ix2 i l) rfl rfl (ValueIdx.ix2 i (⟨l.val - 16, by omega⟩ : Fin 16)) (fun b hb => by
        match b with
        | ⟨0, _⟩ => rfl
        | ⟨1, _⟩ => exact absurd rfl hb)
      (by show l.val - 16 + 16 = l.val; omega)

theorem after3_v7 :
    Spec.mat (StableHlo.after (hostOps3 (F := Ideal)) W (Proc.devRef .tc main_v7)) = Spec.leftCols (Spec.mat (W (Proc.devRef .tc main_v6))) := by
  have e : (StableHlo.after (hostOps3 (F := Ideal)) W (Proc.devRef .tc main_v7) : S10000x16.Idx → EReal)
      = extractStridedSlice S10000x16 ![0, 0] (W (Proc.devRef .tc main_v6)) slices_S10000x32_S10000x16_0_0 := by
    after_results
  funext i l
  unfold Spec.mat Spec.leftCols
  rw [e]
  exact ValueIdx.slice2_axis1_apply 0 _ _ i l ⟨l.val, by omega⟩ (Nat.zero_add _).symm
theorem after3_v8 :
    Spec.mat (StableHlo.after (hostOps3 (F := Ideal)) W (Proc.devRef .tc main_v8)) = Spec.rightCols (Spec.mat (W (Proc.devRef .tc main_v6))) := by
  have e : (StableHlo.after (hostOps3 (F := Ideal)) W (Proc.devRef .tc main_v8) : S10000x16.Idx → EReal)
      = extractStridedSlice S10000x16 ![0, 16] (W (Proc.devRef .tc main_v6)) slices_S10000x32_S10000x16_0_16 := by
    after_results
  funext i l
  unfold Spec.mat Spec.rightCols
  rw [e]
  exact ValueIdx.slice2_axis1_apply 16 _ _ i l ⟨l.val + 16, by omega⟩ (Nat.add_comm _ _)

end Cert.KernelIdeal.KV

end
-- ==== Proof.KI.Walk.lean ====
/-
  The kernel's six results as mathematics.  The run ends with every buffer at the last contents of the fold
  through @main; here those contents are read at the six result buffers and walked back, item by item, to the
  launch memory: an item leaves what it does not write as found; the first call's outputs are x · W1 and the two
  attribute arrays; the second call's output is hid · [W2 | W3] with hid = max(adj · (x · W1), 0); the third's is
  adj times that; its left and right 16 columns are adj · (hid · W2) and adj · (hid · W3), because a product with
  two matrices side by side is the two products side by side; the decoder's outputs are mu · muᵀ and mu · mu_aᵀ.
-/
import proofs.«173199_g7215545057700_cont_sun_m_658_2_alg».proof.Proof.KI.Frame
import proofs.«173199_g7215545057700_cont_sun_m_658_2_alg».proof.Proof.KI.Final0
import proofs.«173199_g7215545057700_cont_sun_m_658_2_alg».proof.Proof.KI.Final1
import proofs.«173199_g7215545057700_cont_sun_m_658_2_alg».proof.Proof.KI.Final2
import proofs.«173199_g7215545057700_cont_sun_m_658_2_alg».proof.Proof.KI.Final3
import proofs.«173199_g7215545057700_cont_sun_m_658_2_alg».proof.Proof.KI.HostRead
import proofs.«173199_g7215545057700_cont_sun_m_658_2_alg».proof.Proof.Spec

set_option maxRecDepth 16384

noncomputable section

namespace Cert.KernelIdeal.KV

open Idealize.ShloMosaic Idealize.ShloMosaic.TcCoe Idealize.SL.Sem
open Idealize.ShloMosaic.Pipeline (Dat)
open Cert.KernelIdeal Cert.KernelIdeal.Gen Cert.KernelIdeal.Fr

variable (m : (ℓ : Loc nD τ sig) → Buf (Elt Ideal) ℓ) (ρ : Dev nD → PrngReg)

/-- Reading an array as a matrix and writing it back changes nothing, either way round. -/
theorem mat_arr {n k : ℕ} (a : Spec.M n k) : Spec.mat (Spec.arr a) = a := rfl
theorem arr_mat {n k : ℕ} (v : (⟨2, ![n, k]⟩ : Shape).Idx → EReal) : Spec.arr (Spec.mat v) = v := by
  funext j
  exact congrArg v (ValueIdx.eq_ix2 j).symm

/-! ## The arguments as matrices and rows -/

abbrev aX (c : Dev nD) : Spec.M 10000 128 := Spec.mat (m ((c : Thread nD τ).loc main_arg0))
abbrev aAdj (c : Dev nD) : Spec.M 10000 10000 := Spec.mat (m ((c : Thread nD τ).loc main_arg1))
abbrev aW1 (c : Dev nD) : Spec.M 128 32 := Spec.mat (m ((c : Thread nD τ).loc main_arg2))
abbrev aW2 (c : Dev nD) : Spec.M 32 16 := Spec.mat (m ((c : Thread nD τ).loc main_arg3))
abbrev aW3 (c : Dev nD) : Spec.M 32 16 := Spec.mat (m ((c : Thread nD τ).loc main_arg4))
abbrev aWa (c : Dev nD) : Spec.M 10000 32 := Spec.mat (m ((c : Thread nD τ).loc main_arg5))
abbrev aB1 (c : Dev nD) : Fin 32 → EReal := rowOf (m ((c : Thread nD τ).loc main_arg6))
abbrev aWa2 (c : Dev nD) : Spec.M 32 16 := Spec.mat (m ((c : Thread nD τ).loc main_arg7))
abbrev aB2 (c : Dev nD) : Fin 16 → EReal := rowOf (m ((c : Thread nD τ).loc main_arg8))
abbrev aWa3 (c : Dev nD) : Spec.M 32 16 := Spec.mat (m ((c : Thread nD τ).loc main_arg9))
abbrev aB3 (c : Dev nD) : Fin 16 → EReal := rowOf (m ((c : Thread nD τ).loc main_arg10))

/-! ## The first call -/

theorem U1_arg0 (c : Dev nD) : U1 m ρ c main_arg0 = m ((c : Thread nD τ).loc main_arg0) := W1_keep m ρ c main_arg0 (by decide)
theorem U1_arg2 (c : Dev nD) : U1 m ρ c main_arg2 = m ((c : Thread nD τ).loc main_arg2) := W1_keep m ρ c main_arg2 (by decide)
theorem U1_arg5 (c : Dev nD) : U1 m ρ c main_arg5 = m ((c : Thread nD τ).loc main_arg5) := W1_keep m ρ c main_arg5 (by decide)
theorem U1_arg7 (c : Dev nD) : U1 m ρ c main_arg7 = m ((c : Thread nD τ).loc main_arg7) := W1_keep m ρ c main_arg7 (by decide)
theorem U1_arg9 (c : Dev nD) : U1 m ρ c main_arg9 = m ((c : Thread nD τ).loc main_arg9) := W1_keep m ρ c main_arg9 (by decide)
theorem U1_row0 (c : Dev nD) : rowOf1 (U1 m ρ c main_v0) = aB1 m c := after0_v0 (W0 m ρ c)
theorem U1_row1 (c : Dev nD) : rowOf1 (U1 m ρ c main_v1) = aB2 m c := after0_v1 (W0 m ρ c)
theorem U1_row2 (c : Dev nD) : rowOf1 (U1 m ρ c main_v2) = aB3 m c := after0_v2 (W0 m ρ c)

/-- x · W1. -/
theorem v3_0_eq (c : Dev nD) : W2 m ρ c (Proc.devRef .tc main_v3_0) = Spec.arr (Spec.mm (aX m c) (aW1 m c)) := by
  have h := final0_8 (U1 m ρ) c
  rw [U1_arg0, U1_arg2] at h
  exact (W2_arr m ρ c 8).trans h
/-- The attribute means. -/
theorem v3_1_eq (c : Dev nD) :
    W2 m ρ c (Proc.devRef .tc main_v3_1) = Spec.arr (Spec.muA (aX m c) (aWa m c) (aB1 m c) (aWa2 m c) (aB2 m c)) := by
  have h := final0_9 (U1 m ρ) c
  rw [U1_arg0, U1_arg5, U1_arg7, U1_row0, U1_row1] at h
  exact (W2_arr m ρ c 9).trans h
/-- The attribute log-variances. -/
theorem v3_2_eq (c : Dev nD) :
    W2 m ρ c (Proc.devRef .tc main_v3_2) = Spec.arr (Spec.logvarA (aX m c) (aWa m c) (aB1 m c) (aWa3 m c) (aB3 m c)) := by
  have h := final0_10 (U1 m ρ) c
  rw [U1_arg0, U1_arg5, U1_arg9, U1_row0, U1_row2] at h
  exact (W2_arr m ρ c 10).trans h

/-! ## The second call -/

theorem W2_arg (c : Dev nD) (b : Ref sig .tc) (h0 : b ∉ hostOps0_W) (h1 : b ∉ ([main_v3_0, main_v3_1, main_v3_2] : List (Ref sig .tc))) :
    W2 m ρ c (Proc.devRef .tc b) = m ((c : Thread nD τ).loc b) :=
  (W2_keep m ρ c b h1).trans ((W1_keep m ρ c b h0).trans rfl)
theorem U3_arg1 (c : Dev nD) : U3 m ρ c main_arg1 = m ((c : Thread nD τ).loc main_arg1) :=
  (W3_keep m ρ c main_arg1 (by decide)).trans (W2_arg m ρ c main_arg1 (by decide) (by decide))
theorem U3_v3_0 (c : Dev nD) : U3 m ρ c main_v3_0 = W2 m ρ c (Proc.devRef .tc main_v3_0) := W3_keep m ρ c main_v3_0 (by decide)
/-- The two graph weights side by side. -/
theorem U3_v4 (c : Dev nD) : Spec.mat (U3 m ρ c main_v4) = Spec.sideBySide (aW2 m c) (aW3 m c) := by
  have h := after1_v4 (W2 m ρ c)
  rw [W2_arg m ρ c main_arg3 (by decide) (by decide), W2_arg m ρ c main_arg4 (by decide) (by decide)] at h
  exact h
/-- hid · [W2 | W3]. -/
theorem v5_eq (c : Dev nD) :
    W4 m ρ c (Proc.devRef .tc main_v5)
      = Spec.arr (Spec.mm (Spec.hid (aX m c) (aAdj m c) (aW1 m c)) (Spec.sideBySide (aW2 m c) (aW3 m c))) := by
  have h := final1_3 (U3 m ρ) c
  rw [U3_arg1, U3_v3_0, v3_0_eq, mat_arr, U3_v4] at h
  exact (W4_arr m ρ c 3).trans h

/-! ## The third call -/

theorem U4_arg1 (c : Dev nD) : U4 m ρ c main_arg1 = m ((c : Thread nD τ).loc main_arg1) :=
  (W4_keep m ρ c main_arg1 (by decide)).trans (U3_arg1 m ρ c)
/-- adj · (hid · [W2 | W3]). -/
theorem v6_eq (c : Dev nD) :
    W5 m ρ c (Proc.devRef .tc main_v6)
      = Spec.arr (Spec.mm (aAdj m c) (Spec.mm (Spec.hid (aX m c) (aAdj m c) (aW1 m c)) (Spec.sideBySide (aW2 m c) (aW3 m c)))) := by
  have h := final2_2 (U4 m ρ) c
  rw [U4_arg1, show U4 m ρ c main_v5 = W4 m ρ c (Proc.devRef .tc main_v5) from rfl, v5_eq, mat_arr] at h
  exact (W5_arr m ρ c 2).trans h

/-! ## The slices and the decoder -/

/-- The left 16 columns are the means: adj · (hid · W2). -/
theorem U6_v7 (c : Dev nD) : Spec.mat (U6 m ρ c main_v7) = Spec.mu (aX m c) (aAdj m c) (aW1 m c) (aW2 m c) := by
  have h := after3_v7 (W5 m ρ c)
  rw [v6_eq, mat_arr, Spec.mm_sideBySide, Spec.mm_sideBySide, Spec.leftCols_sideBySide] at h
  exact h
/-- The right 16 columns are the log-variances: adj · (hid · W3). -/
theorem U6_v8 (c : Dev nD) : Spec.mat (U6 m ρ c main_v8) = Spec.logvar (aX m c) (aAdj m c) (aW1 m c) (aW3 m c) := by
  have h := after3_v8 (W5 m ρ c)
  rw [v6_eq, mat_arr, Spec.mm_sideBySide, Spec.mm_sideBySide, Spec.rightCols_sideBySide] at h
  exact h
theorem U6_v3_1 (c : Dev nD) : U6 m ρ c main_v3_1 = W2 m ρ c (Proc.devRef .tc main_v3_1) :=
  (W6_keep m ρ c main_v3_1 (by decide)).trans <| (W5_keep m ρ c main_v3_1 (by decide)).trans <|
    (W4_keep m ρ c main_v3_1 (by decide)).trans (W3_keep m ρ c main_v3_1 (by decide))
theorem U6_v3_2 (c : Dev nD) : U6 m ρ c main_v3_2 = W2 m ρ c (Proc.devRef .tc main_v3_2) :=
  (W6_keep m ρ c main_v3_2 (by decide)).trans <| (W5_keep m ρ c main_v3_2 (by decide)).trans <|
    (W4_keep m ρ c main_v3_2 (by decide)).trans (W3_keep m ρ c main_v3_2 (by decide))

/-- mu · muᵀ. -/
theorem v9_0_eq (c : Dev nD) :
    W7 m ρ c (Proc.devRef .tc main_v9_0) = Spec.arr (Spec.adjPred (aX m c) (aAdj m c) (aW1 m c) (aW2 m c)) := by
  have h := final3_3 (U6 m ρ) c
  rw [U6_v7] at h
  exact (W7_v9_0 m ρ c).trans h
/-- mu · mu_aᵀ. -/
theorem v9_1_eq (c : Dev nD) :
    W7 m ρ c (Proc.devRef .tc main_v9_1)
      = Spec.arr (Spec.xPred (aX m c) (aAdj m c) (aW1 m c) (aW2 m c) (aWa m c) (aB1 m c) (aWa2 m c) (aB2 m c)) := by
  have h := final3_4 (U6 m ρ) c
  rw [U6_v7, U6_v3_1, v3_1_eq, mat_arr] at h
  exact (W7_v9_1 m ρ c).trans h
theorem v7_eq (c : Dev nD) :
    W7 m ρ c (Proc.devRef .tc main_v7) = Spec.arr (Spec.mu (aX m c) (aAdj m c) (aW1 m c) (aW2 m c)) := by
  rw [W7_of_ne m ρ c main_v7 (by decide) (by decide), ← U6_v7 m ρ c, arr_mat]
theorem v8_eq (c : Dev nD) :
    W7 m ρ c (Proc.devRef .tc main_v8) = Spec.arr (Spec.logvar (aX m c) (aAdj m c) (aW1 m c) (aW3 m c)) := by
  rw [W7_of_ne m ρ c main_v8 (by decide) (by decide), ← U6_v8 m ρ c, arr_mat]
theorem v3_1_end (c : Dev nD) :
    W7 m ρ c (Proc.devRef .tc main_v3_1) = Spec.arr (Spec.muA (aX m c) (aWa m c) (aB1 m c) (aWa2 m c) (aB2 m c)) :=
  (W7_of_ne m ρ c main_v3_1 (by decide) (by decide)).trans ((U6_v3_1 m ρ c).trans (v3_1_eq m ρ c))
theorem v3_2_end (c : Dev nD) :
    W7 m ρ c (Proc.devRef .tc main_v3_2) = Spec.arr (Spec.logvarA (aX m c) (aWa m c) (aB1 m c) (aWa3 m c) (aB3 m c)) :=
  (W7_of_ne m ρ c main_v3_2 (by decide) (by decide)).trans ((U6_v3_2 m ρ c).trans (v3_2_eq m ρ c))

end Cert.KernelIdeal.KV

end
-- ==== Proof.RefSide.lean ====
/-
  The reference's side of the value claim.  The plain jnp program computes each of its six results as one
  composed term of host operations on the argument arrays (the generated run states exactly these terms).
  Here each term is read as mathematics: it is the array of the corresponding matrix of Proof/Spec.lean, of
  the arguments read as matrices.  A host dot_general is a finite sum over its contracted axis, a transpose
  swaps the two coordinates, a bias broadcast adds one row to every row, relu is the maximum with zero.
-/
import proofs.«173199_g7215545057700_cont_sun_m_658_2_alg».proof.Defs
import proofs.«173199_g7215545057700_cont_sun_m_658_2_alg».proof.Proof.Gen.ReferenceIdeal.Run
import proofs.«173199_g7215545057700_cont_sun_m_658_2_alg».proof.Proof.Gen.ReferenceIdeal.Read
import proofs.«173199_g7215545057700_cont_sun_m_658_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.RefSide

open Idealize.ShloMosaic Cert.ReferenceIdeal Cert.ReferenceIdeal.Gen

/-- A rank-1 array read as a row. -/
def rowOf {n : ℕ} (b : (⟨1, ![n]⟩ : Shape).Idx → EReal) : Fin n → EReal := fun j => b (ValueIdx.ix1 j)

variable (x : FVec Ideal S10000x128 .f32) (adj : FVec Ideal S10000x10000 .f32) (W1 : FVec Ideal S128x32 .f32)
  (W2 W3 : FVec Ideal S32x16 .f32) (Wa : FVec Ideal S10000x32 .f32) (b1 : FVec Ideal S32 .f32)
  (Wa2 : FVec Ideal S32x16 .f32) (b2 : FVec Ideal S16 .f32) (Wa3 : FVec Ideal S32x16 .f32) (b3 : FVec Ideal S16 .f32)

/-! The reference's terms, spelt as its generated run spells them. -/

/-- relu(adj @ (x @ W1)). -/
abbrev tHid : FVec Ideal S10000x32 .f32 :=
  maximumf (F := Ideal) (Host.dotGeneral (F := Ideal) dot_S10000x10000_S10000x32_S10000x32_1_0_0_1_n_n none adj
      (Host.dotGeneral (F := Ideal) dot_S10000x128_S128x32_S10000x32_1_0_0_1_n_n none x W1))
    (broadcastInDim S10000x32 ![] bcast_S_S10000x32 (constant (F := Ideal) S_ .f32 0x00000000#32))
/-- adj @ (hidden @ W), for W the second or the third graph weight. -/
abbrev tMu (W : FVec Ideal S32x16 .f32) : FVec Ideal S10000x16 .f32 :=
  Host.dotGeneral (F := Ideal) dot_S10000x10000_S10000x16_S10000x16_1_0_0_1_n_n none adj
    (Host.dotGeneral (F := Ideal) dot_S10000x32_S32x16_S10000x16_1_0_0_1_n_n none (tHid x adj W1) W)
/-- tanh(x.T @ Wa + b1). -/
abbrev tHidA : FVec Ideal S128x32 .f32 :=
  Host.tanh (F := Ideal) (addf (F := Ideal) (Host.dotGeneral (F := Ideal) dot_S128x10000_S10000x32_S128x32_1_0_0_1_n_n none
      (transpose S128x10000 [1, 0] x transposes_S10000x128_S128x10000_1_0) Wa)
    (broadcastInDim S128x32 ![0, 1] bcast_S1x32_S128x32_0_1 (broadcastInDim S1x32 ![1] bcast_S32_S1x32_1 b1)))
/-- hiddenA @ W + b, for the second or the third attribute weight and bias. -/
abbrev tMuA (W : FVec Ideal S32x16 .f32) (b : FVec Ideal S16 .f32) : FVec Ideal S128x16 .f32 :=
  addf (F := Ideal) (Host.dotGeneral (F := Ideal) dot_S128x32_S32x16_S128x16_1_0_0_1_n_n none (tHidA x Wa b1) W)
    (broadcastInDim S128x16 ![0, 1] bcast_S1x16_S128x16_0_1 (broadcastInDim S1x16 ![1] bcast_S16_S1x16_1 b))
/-- mu @ mu.T. -/
abbrev tAdjPred : FVec Ideal S10000x10000 .f32 :=
  Host.dotGeneral (F := Ideal) dot_S10000x16_S16x10000_S10000x10000_1_0_0_1_n_n none (tMu x adj W1 W2)
    (transpose S16x10000 [1, 0] (tMu x adj W1 W2) transposes_S10000x16_S16x10000_1_0)
/-- mu @ muA.T. -/
abbrev tXPred : FVec Ideal S10000x128 .f32 :=
  Host.dotGeneral (F := Ideal) dot_S10000x16_S16x128_S10000x128_1_0_0_1_n_n none (tMu x adj W1 W2)
    (transpose S16x128 [1, 0] (tMuA x Wa b1 Wa2 b2) transposes_S128x16_S16x128_1_0)

/-! Reading an array as a matrix and back. -/

/-- The matrix of the array of a matrix is the matrix. -/
theorem mat_arr {n k : ℕ} (a : Spec.M n k) : Spec.mat (Spec.arr a) = a := rfl

/-- The array of the matrix of an array is the array: every index is the pair of its coordinates. -/
theorem arr_mat {n k : ℕ} (v : (⟨2, ![n, k]⟩ : Shape).Idx → EReal) : Spec.arr (Spec.mat v) = v := by
  funext j
  obtain ⟨p, q, rfl⟩ : ∃ (p : Fin n) (q : Fin k), j = ValueIdx.ix2 p q := ⟨j 0, j 1, ValueIdx.eq_ix2 j⟩
  rfl

/-- The transposed matrix. -/
def tr {n k : ℕ} (a : Spec.M n k) : Spec.M k n := fun i j => a j i

/-- a · (bᵀ) contracts both over their second index, and (aᵀ) · b both over their first. -/
theorem mm_tr {n k p : ℕ} (a : Spec.M n k) (b : Spec.M p k) : Spec.mm a (tr b) = Spec.mmT a b := rfl
theorem tr_mm {n k p : ℕ} (a : Spec.M k n) (b : Spec.M k p) : Spec.mm (tr a) b = Spec.tmm a b := rfl

/-! The host operations, each as an operation on matrices. -/

/-- A host dot_general whose record contracts the left operand's second axis with the right operand's first,
    with no batch axis, is the matrix product: the four coordinate facts say which entries meet, and the sum over
    the one-axis contraction index is the sum over that axis. -/
theorem dot_eq_mm {n k p : ℕ} (d : DotDims ⟨2, ![n, k]⟩ ⟨2, ![k, p]⟩ ⟨2, ![n, p]⟩)
    (hr : d.contr.rank = 1) (hs : d.contr.size ⟨0, by omega⟩ = k)
    (l0 : ∀ (i : (⟨2, ![n, p]⟩ : Shape).Idx) (q : d.contr.Idx), (d.lhsIdx i q 0).val = (i 0).val)
    (l1 : ∀ (i : (⟨2, ![n, p]⟩ : Shape).Idx) (q : d.contr.Idx), (d.lhsIdx i q 1).val = (q ⟨0, by omega⟩).val)
    (r0 : ∀ (i : (⟨2, ![n, p]⟩ : Shape).Idx) (q : d.contr.Idx), (d.rhsIdx i q 0).val = (q ⟨0, by omega⟩).val)
    (r1 : ∀ (i : (⟨2, ![n, p]⟩ : Shape).Idx) (q : d.contr.Idx), (d.rhsIdx i q 1).val = (i 1).val)
    (a : (⟨2, ![n, k]⟩ : Shape).Idx → EReal) (b : (⟨2, ![k, p]⟩ : Shape).Idx → EReal) :
    Host.dotGeneral (F := Ideal) (φ₁ := .f32) (φ₂ := .f32) d none a b = Spec.arr (Spec.mm (Spec.mat a) (Spec.mat b)) := by
  funext i
  simp only [Host.dotGeneral]
  rw [Ideal.dotGeneral_apply, ← Equiv.sum_comp (ValueIdx.contrEquiv1 d k hr hs).symm]
  unfold Spec.arr Spec.mm Spec.mat
  refine Finset.sum_congr rfl fun l _ => ?_
  have hk := ValueIdx.contrEquiv1_symm_val d k hr hs l
  have el : d.lhsIdx i ((ValueIdx.contrEquiv1 d k hr hs).symm l) = ValueIdx.ix2 (i 0) l := funext fun c => Fin.ext (by
    match c with
    | ⟨0, _⟩ => exact l0 _ _
    | ⟨1, _⟩ => exact (l1 _ _).trans hk)
  have er : d.rhsIdx i ((ValueIdx.contrEquiv1 d k hr hs).symm l) = ValueIdx.ix2 l (i 1) := funext fun c => Fin.ext (by
    match c with
    | ⟨0, _⟩ => exact (r0 _ _).trans hk
    | ⟨1, _⟩ => exact r1 _ _)
  rw [el, er]
  rfl

/-! The eight records of the reference, each a plain product. -/

theorem dot_x_W1 (a : FVec Ideal S10000x128 .f32) (b : FVec Ideal S128x32 .f32) :
    Host.dotGeneral (F := Ideal) dot_S10000x128_S128x32_S10000x32_1_0_0_1_n_n none a b = Spec.arr (Spec.mm (Spec.mat a) (Spec.mat b)) :=
  dot_eq_mm _ rfl rfl Read.lhs_main_v0_0 Read.lhs_main_v0_1 Read.rhs_main_v0_0 Read.rhs_main_v0_1 a b

theorem dot_adj_32 (a : FVec Ideal S10000x10000 .f32) (b : FVec Ideal S10000x32 .f32) :
    Host.dotGeneral (F := Ideal) dot_S10000x10000_S10000x32_S10000x32_1_0_0_1_n_n none a b = Spec.arr (Spec.mm (Spec.mat a) (Spec.mat b)) :=
  dot_eq_mm _ rfl rfl Read.lhs_main_v1_0 Read.lhs_main_v1_1 Read.rhs_main_v1_0 Read.rhs_main_v1_1 a b

theorem dot_hid_W (a : FVec Ideal S10000x32 .f32) (b : FVec Ideal S32x16 .f32) :
    Host.dotGeneral (F := Ideal) dot_S10000x32_S32x16_S10000x16_1_0_0_1_n_n none a b = Spec.arr (Spec.mm (Spec.mat a) (Spec.mat b)) :=
  dot_eq_mm _ rfl rfl Read.lhs_main_v3_0 Read.lhs_main_v3_1 Read.rhs_main_v3_0 Read.rhs_main_v3_1 a b

theorem dot_adj_16 (a : FVec Ideal S10000x10000 .f32) (b : FVec Ideal S10000x16 .f32) :
    Host.dotGeneral (F := Ideal) dot_S10000x10000_S10000x16_S10000x16_1_0_0_1_n_n none a b = Spec.arr (Spec.mm (Spec.mat a) (Spec.mat b)) :=
  dot_eq_mm _ rfl rfl Read.lhs_main_v4_0 Read.lhs_main_v4_1 Read.rhs_main_v4_0 Read.rhs_main_v4_1 a b

theorem dot_xT_Wa (a : FVec Ideal S128x10000 .f32) (b : FVec Ideal S10000x32 .f32) :
    Host.dotGeneral (F := Ideal) dot_S128x10000_S10000x32_S128x32_1_0_0_1_n_n none a b = Spec.arr (Spec.mm (Spec.mat a) (Spec.mat b)) :=
  dot_eq_mm _ rfl rfl Read.lhs_main_v8_0 Read.lhs_main_v8_1 Read.rhs_main_v8_0 Read.rhs_main_v8_1 a b

theorem dot_hidA_W (a : FVec Ideal S128x32 .f32) (b : FVec Ideal S32x16 .f32) :
    Host.dotGeneral (F := Ideal) dot_S128x32_S32x16_S128x16_1_0_0_1_n_n none a b = Spec.arr (Spec.mm (Spec.mat a) (Spec.mat b)) :=
  dot_eq_mm _ rfl rfl Read.lhs_main_v13_0 Read.lhs_main_v13_1 Read.rhs_main_v13_0 Read.rhs_main_v13_1 a b

theorem dot_mu_muT (a : FVec Ideal S10000x16 .f32) (b : FVec Ideal S16x10000 .f32) :
    Host.dotGeneral (F := Ideal) dot_S10000x16_S16x10000_S10000x10000_1_0_0_1_n_n none a b = Spec.arr (Spec.mm (Spec.mat a) (Spec.mat b)) :=
  dot_eq_mm _ rfl rfl Read.lhs_main_v22_0 Read.lhs_main_v22_1 Read.rhs_main_v22_0 Read.rhs_main_v22_1 a b

theorem dot_mu_muAT (a : FVec Ideal S10000x16 .f32) (b : FVec Ideal S16x128 .f32) :
    Host.dotGeneral (F := Ideal) dot_S10000x16_S16x128_S10000x128_1_0_0_1_n_n none a b = Spec.arr (Spec.mm (Spec.mat a) (Spec.mat b)) :=
  dot_eq_mm _ rfl rfl Read.lhs_main_v24_0 Read.lhs_main_v24_1 Read.rhs_main_v24_0 Read.rhs_main_v24_1 a b

/-- A transpose with the permutation [1, 0] swaps the two coordinates. -/
theorem transpose_eq_tr {n k : ℕ} (a : (⟨2, ![n, k]⟩ : Shape).Idx → EReal)
    (h : (⟨2, ![n, k]⟩ : Shape).Transposes [1, 0] ⟨2, ![k, n]⟩) :
    transpose ⟨2, ![k, n]⟩ [1, 0] a h = Spec.arr (tr (Spec.mat a)) := by
  funext j
  exact transpose_apply [1, 0] a h j (ValueIdx.ix2 (j 1) (j 0)) (fun b => match b with
    | ⟨0, _⟩ => rfl
    | ⟨1, _⟩ => rfl)

/-- A row broadcast first to one row and then to n rows is that row in every row (the row's length is not one,
    so its axis is read and not stretched). -/
theorem bias_eq_row {n k : ℕ} (hk : k ≠ 1) (b : (⟨1, ![k]⟩ : Shape).Idx → EReal)
    (h1 : (⟨1, ![k]⟩ : Shape).BroadcastsInDim ⟨2, ![1, k]⟩ (![1] : Fin 1 → Fin 2))
    (h2 : (⟨2, ![1, k]⟩ : Shape).BroadcastsInDim ⟨2, ![n, k]⟩ (![0, 1] : Fin 2 → Fin 2)) :
    broadcastInDim ⟨2, ![n, k]⟩ ![0, 1] h2 (broadcastInDim ⟨2, ![1, k]⟩ ![1] h1 b)
      = Spec.arr (fun (_ : Fin n) (j : Fin k) => rowOf b j) := by
  funext j
  refine (broadcastInDim_apply _ h2 _ j (ValueIdx.ix2 ⟨0, Nat.one_pos⟩ (j 1)) (fun a => match a with
    | ⟨0, _⟩ => by show 0 = if (1 : Nat) = 1 then 0 else (j 0).val; rw [if_pos rfl]
    | ⟨1, _⟩ => by show (j 1).val = if k = 1 then 0 else (j 1).val; rw [if_neg hk])).trans ?_
  exact broadcastInDim_apply _ h1 b _ (ValueIdx.ix1 (j 1)) (fun a => match a with
    | ⟨0, _⟩ => by show (j 1).val = if k = 1 then 0 else (j 1).val; rw [if_neg hk])

/-- Adding the broadcast row is addRow. -/
theorem addf_row {n k : ℕ} (a : (⟨2, ![n, k]⟩ : Shape).Idx → EReal) (r : Fin k → EReal) :
    addf (F := Ideal) (s := ⟨2, ![n, k]⟩) (φ := .f32) a (Spec.arr (fun (_ : Fin n) (j : Fin k) => r j))
      = Spec.arr (Spec.addRow (Spec.mat a) r) := by
  funext j
  obtain ⟨p, q, rfl⟩ : ∃ (p : Fin n) (q : Fin k), j = ValueIdx.ix2 p q := ⟨j 0, j 1, ValueIdx.eq_ix2 j⟩
  rfl

/-- The maximum with the broadcast zero constant is relu. -/
theorem max_zero_eq_relu (a : FVec Ideal S10000x32 .f32) :
    maximumf (F := Ideal) a (broadcastInDim S10000x32 ![] bcast_S_S10000x32 (constant (F := Ideal) S_ .f32 0x00000000#32))
      = Spec.arr (Spec.relu (Spec.mat a)) := by
  funext j
  obtain ⟨p, q, rfl⟩ : ∃ (p : Fin 10000) (q : Fin 32), j = ValueIdx.ix2 p q := ⟨j 0, j 1, ValueIdx.eq_ix2 j⟩
  have hz : broadcastInDim S10000x32 ![] bcast_S_S10000x32 (constant (F := Ideal) S_ .f32 0x00000000#32) (ValueIdx.ix2 p q) = 0 :=
    (broadcastInDim_apply _ bcast_S_S10000x32 _ (ValueIdx.ix2 p q) (fun a => a.elim0) (fun a => a.elim0)).trans Ideal.ofBits_zero_f32
  show max (a (ValueIdx.ix2 p q)) (broadcastInDim S10000x32 ![] bcast_S_S10000x32 (constant (F := Ideal) S_ .f32 0x00000000#32) (ValueIdx.ix2 p q))
    = max (a (ValueIdx.ix2 p q)) 0
  rw [hz]

/-- The host's tanh is the ideal tanh entrywise. -/
theorem tanh_eq {n k : ℕ} (a : (⟨2, ![n, k]⟩ : Shape).Idx → EReal) :
    Host.tanh (F := Ideal) (s := ⟨2, ![n, k]⟩) (φ := .f32) a = Spec.arr (Spec.tanhM (Spec.mat a)) := by
  funext j
  obtain ⟨p, q, rfl⟩ : ∃ (p : Fin n) (q : Fin k), j = ValueIdx.ix2 p q := ⟨j 0, j 1, ValueIdx.eq_ix2 j⟩
  rfl

/-! Each term is the array of its matrix. -/

theorem hid_eq : tHid x adj W1 = Spec.arr (Spec.hid (Spec.mat x) (Spec.mat adj) (Spec.mat W1)) := by
  unfold tHid
  rw [dot_x_W1, dot_adj_32, max_zero_eq_relu, mat_arr, mat_arr]
  rfl

theorem mu_eq (W : FVec Ideal S32x16 .f32) :
    tMu x adj W1 W = Spec.arr (Spec.mm (Spec.mat adj) (Spec.mm (Spec.hid (Spec.mat x) (Spec.mat adj) (Spec.mat W1)) (Spec.mat W))) := by
  unfold tMu
  rw [hid_eq, dot_hid_W, dot_adj_16, mat_arr, mat_arr]

theorem hidA_eq : tHidA x Wa b1 = Spec.arr (Spec.hidA (Spec.mat x) (Spec.mat Wa) (rowOf b1)) := by
  unfold tHidA
  rw [transpose_eq_tr, dot_xT_Wa, mat_arr, tr_mm, bias_eq_row (by decide), addf_row, mat_arr, tanh_eq, mat_arr]
  rfl

theorem muA_eq (W : FVec Ideal S32x16 .f32) (b : FVec Ideal S16 .f32) :
    tMuA x Wa b1 W b = Spec.arr (Spec.addRow (Spec.mm (Spec.hidA (Spec.mat x) (Spec.mat Wa) (rowOf b1)) (Spec.mat W)) (rowOf b)) := by
  unfold tMuA
  rw [hidA_eq, dot_hidA_W, mat_arr, bias_eq_row (by decide), addf_row, mat_arr]

theorem adjPred_eq :
    tAdjPred x adj W1 W2 = Spec.arr (Spec.adjPred (Spec.mat x) (Spec.mat adj) (Spec.mat W1) (Spec.mat W2)) := by
  unfold tAdjPred
  rw [mu_eq, transpose_eq_tr, dot_mu_muT, mat_arr, mat_arr, mm_tr]
  rfl

theorem xPred_eq :
    tXPred x adj W1 W2 Wa b1 Wa2 b2
      = Spec.arr (Spec.xPred (Spec.mat x) (Spec.mat adj) (Spec.mat W1) (Spec.mat W2) (Spec.mat Wa) (rowOf b1) (Spec.mat Wa2) (rowOf b2)) := by
  unfold tXPred
  rw [mu_eq, muA_eq, transpose_eq_tr, dot_mu_muAT, mat_arr, mat_arr, mm_tr]
  rfl

end Cert.RefSide

end
-- ==== Proof.lean ====
/-
  The certificate's claim: the Pallas kernel (four pallas_calls: a dense prelude, two passes over the adjacency
  matrix, a decoder) against the plain jnp reference of a graph-convolutional variational encoder with an
  inner-product decoder.  Both compute, from x, adj and nine weights and biases,
      hid = max(adj · (x · W1), 0),  mu = adj · (hid · W2),  logvar = adj · (hid · W3),
      h = tanh(xᵀ · Wa + b1),  mu_a = h · Wa2 + b2,  logvar_a = h · Wa3 + b3,
      adj_pred = mu · muᵀ,  x_pred = mu · mu_aᵀ.
  The kernel differs from the reference only in computing mu and logvar together, as the left and right 16
  columns of adj · (hid · [W2 | W3]); column j of a product meets only column j of its right factor, so the two
  agree entry by entry as finite sums of products, on the extended reals as anywhere: no finiteness of the inputs
  is used.  The three frames: each kernel program's by the fold of buffer contents through its seven items (no
  item writes an argument), the reference's by its run.  The idealization rewrote nothing, so what it preserves
  is trivially so.
-/
import proofs.«173199_g7215545057700_cont_sun_m_658_2_alg».proof.Defs
import proofs.«173199_g7215545057700_cont_sun_m_658_2_alg».proof.Proof.Gen.Kernel
import proofs.«173199_g7215545057700_cont_sun_m_658_2_alg».proof.Proof.Gen.KernelIdeal
import proofs.«173199_g7215545057700_cont_sun_m_658_2_alg».proof.Proof.Gen.ReferenceIdeal
import proofs.«173199_g7215545057700_cont_sun_m_658_2_alg».proof.Proof.Gen.Pre_finite_inputs
import proofs.«173199_g7215545057700_cont_sun_m_658_2_alg».proof.Proof.Gen.ReferenceIdeal.Run
import proofs.«173199_g7215545057700_cont_sun_m_658_2_alg».proof.Proof.K.Frame
import proofs.«173199_g7215545057700_cont_sun_m_658_2_alg».proof.Proof.KI.Frame
import proofs.«173199_g7215545057700_cont_sun_m_658_2_alg».proof.Proof.KI.Walk
import proofs.«173199_g7215545057700_cont_sun_m_658_2_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal.KV Cert.KernelIdeal.Fr

/-- The word-level kernel runs and leaves its arguments unchanged. -/
theorem frame_k : Cert.frame_Kernel := fun m ρ _ => Cert.Kernel.Fr.frame m ρ

/-- So does the idealized kernel. -/
theorem frame_ki : Cert.frame_KernelIdeal := fun m ρ _ => Cert.KernelIdeal.Fr.frame (F := Ideal) m ρ

/-- So does the reference: its run with the results dropped. -/
theorem frame_ri : Cert.frame_ReferenceIdeal := fun m ρ _ =>
  (θ_run Cert.ReferenceIdeal.defs _ _).mono (fun _ h c => (h c).2.2.2.2.2.2) (Cert.ReferenceIdeal.Value.run (F := Ideal) m ρ)

/-- The idealization rewrote no operation. -/
theorem preserves : Cert.preserves_Kernel_KernelIdeal := trivial

/-- The idealized kernel's run with its six results named: the matrices of Proof/Spec.lean of the launch memory. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v9_0) = Spec.arr (Spec.adjPred (aX m c) (aAdj m c) (aW1 m c) (aW2 m c))
      ∧ r.2.mem ((c.tc : Thread Cert.KernelIdeal.nD Cert.KernelIdeal.τ).loc Cert.KernelIdeal.main_v9_1) = Spec.arr (Spec.xPred (aX m c) (aAdj m c) (aW1 m c) (aW2 m c) (aWa m c) (aB1 m c) (aWa2 m c) (aB2 m c))
      ∧ r.2.mem ((c.tc : Thread Cert.KernelIdeal.nD Cert.KernelIdeal.τ).loc Cert.KernelIdeal.main_v7) = Spec.arr (Spec.mu (aX m c) (aAdj m c) (aW1 m c) (aW2 m c))
      ∧ r.2.mem ((c.tc : Thread Cert.KernelIdeal.nD Cert.KernelIdeal.τ).loc Cert.KernelIdeal.main_v8) = Spec.arr (Spec.logvar (aX m c) (aAdj m c) (aW1 m c) (aW3 m c))
      ∧ r.2.mem ((c.tc : Thread Cert.KernelIdeal.nD Cert.KernelIdeal.τ).loc Cert.KernelIdeal.main_v3_1) = Spec.arr (Spec.muA (aX m c) (aWa m c) (aB1 m c) (aWa2 m c) (aB2 m c))
      ∧ r.2.mem ((c.tc : Thread Cert.KernelIdeal.nD Cert.KernelIdeal.τ).loc Cert.KernelIdeal.main_v3_2) = Spec.arr (Spec.logvarA (aX m c) (aWa m c) (aB1 m c) (aWa3 m c) (aB3 m c))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run (Cert.KernelIdeal.defs (F := Ideal)) _ _).mono (fun r h c =>
    ⟨(h c _ (mem_uc Cert.KernelIdeal.main_v9_0 (by decide))).trans (v9_0_eq m ρ c),
     (h c _ (mem_uc Cert.KernelIdeal.main_v9_1 (by decide))).trans (v9_1_eq m ρ c),
     (h c _ (mem_uc Cert.KernelIdeal.main_v7 (by decide))).trans (v7_eq m ρ c),
     (h c _ (mem_uc Cert.KernelIdeal.main_v8 (by decide))).trans (v8_eq m ρ c),
     (h c _ (mem_uc Cert.KernelIdeal.main_v3_1 (by decide))).trans (v3_1_end m ρ c),
     (h c _ (mem_uc Cert.KernelIdeal.main_v3_2 (by decide))).trans (v3_2_end m ρ c),
     (h c _ (mem_uc Cert.KernelIdeal.main_arg0 (by decide))).trans (W7_launch m ρ c Cert.KernelIdeal.main_arg0 (by decide) (by decide) (by decide) (by decide) (by decide) (by decide) (by decide) (by decide)),
     (h c _ (mem_uc Cert.KernelIdeal.main_arg1 (by decide))).trans (W7_launch m ρ c Cert.KernelIdeal.main_arg1 (by decide) (by decide) (by decide) (by decide) (by decide) (by decide) (by decide) (by decide)),
     (h c _ (mem_uc Cert.KernelIdeal.main_arg2 (by decide))).trans (W7_launch m ρ c Cert.KernelIdeal.main_arg2 (by decide) (by decide) (by decide) (by decide) (by decide) (by decide) (by decide) (by decide)),
     (h c _ (mem_uc Cert.KernelIdeal.main_arg3 (by decide))).trans (W7_launch m ρ c Cert.KernelIdeal.main_arg3 (by decide) (by decide) (by decide) (by decide) (by decide) (by decide) (by decide) (by decide)),
     (h c _ (mem_uc Cert.KernelIdeal.main_arg4 (by decide))).trans (W7_launch m ρ c Cert.KernelIdeal.main_arg4 (by decide) (by decide) (by decide) (by decide) (by decide) (by decide) (by decide) (by decide)),
     (h c _ (mem_uc Cert.KernelIdeal.main_arg5 (by decide))).trans (W7_launch m ρ c Cert.KernelIdeal.main_arg5 (by decide) (by decide) (by decide) (by decide) (by decide) (by decide) (by decide) (by decide)),
     (h c _ (mem_uc Cert.KernelIdeal.main_arg6 (by decide))).trans (W7_launch m ρ c Cert.KernelIdeal.main_arg6 (by decide) (by decide) (by decide) (by decide) (by decide) (by decide) (by decide) (by decide)),
     (h c _ (mem_uc Cert.KernelIdeal.main_arg7 (by decide))).trans (W7_launch m ρ c Cert.KernelIdeal.main_arg7 (by decide) (by decide) (by decide) (by decide) (by decide) (by decide) (by decide) (by decide)),
     (h c _ (mem_uc Cert.KernelIdeal.main_arg8 (by decide))).trans (W7_launch m ρ c Cert.KernelIdeal.main_arg8 (by decide) (by decide) (by decide) (by decide) (by decide) (by decide) (by decide) (by decide)),
     (h c _ (mem_uc Cert.KernelIdeal.main_arg9 (by decide))).trans (W7_launch m ρ c Cert.KernelIdeal.main_arg9 (by decide) (by decide) (by decide) (by decide) (by decide) (by decide) (by decide) (by decide)),
     (h c _ (mem_uc Cert.KernelIdeal.main_arg10 (by decide))).trans (W7_launch m ρ c Cert.KernelIdeal.main_arg10 (by decide) (by decide) (by decide) (by decide) (by decide) (by decide) (by decide) (by decide))⟩)
    (run_all (F := Ideal) m ρ)

/-- From memories agreeing on the arguments the two idealized programs end with the same six results: each side's
    result is the array of the same matrix of the (common) arguments. -/
theorem algebraic : Cert.algebraic_KernelIdeal_ReferenceIdeal := by
  intro m ρ m' ρ' _ hagree
  refine ⟨_, _, _, _, _, _, kernel_run m ρ, ?_⟩
  refine (θ_run Cert.ReferenceIdeal.defs _ _).mono (fun r h c => ?_) (Cert.ReferenceIdeal.Value.run (F := Ideal) m' ρ')
  obtain ⟨h22, h24, h4, h6, h16, h20, hargs⟩ := h c
  obtain ⟨e0, e1, e2, e3, e4, e5, e6, e7, e8, e9, e10⟩ := hagree c
  refine ⟨h22.trans ?_, h24.trans ?_, h4.trans ?_, h6.trans ?_, h16.trans ?_, h20.trans ?_, hargs⟩
  · exact (Cert.RefSide.adjPred_eq _ _ _ _).trans (by rw [e0, e1, e2, e3] <;> rfl)
  · exact (Cert.RefSide.xPred_eq _ _ _ _ _ _ _ _).trans (by rw [e0, e1, e2, e3, e5, e6, e7, e8] <;> rfl)
  · exact (Cert.RefSide.mu_eq _ _ _ _).trans (by rw [e0, e1, e2, e3] <;> rfl)
  · exact (Cert.RefSide.mu_eq _ _ _ _).trans (by rw [e0, e1, e2, e4] <;> rfl)
  · exact (Cert.RefSide.muA_eq _ _ _ _ _).trans (by rw [e0, e5, e6, e7, e8] <;> rfl)
  · exact (Cert.RefSide.muA_eq _ _ _ _ _).trans (by rw [e0, e5, e6, e9, e10] <;> rfl)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
